-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048x300 : Shape := ⟨2, ![2048, 300]⟩
abbrev S16x300 : Shape := ⟨2, ![16, 300]⟩
abbrev S512x512 : Shape := ⟨2, ![512, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x300 : S_.BroadcastsInDim S2048x300 (![] : Fin 0 → Fin S2048x300.rank)
  reducesTo_S2048x300_S_d0_1 : S2048x300.ReducesTo [0, 1] S_
  bcast_S_S16x300 : S_.BroadcastsInDim S16x300 (![] : Fin 0 → Fin S16x300.rank)
  reducesTo_S16x300_S_d0_1 : S16x300.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S2048x512 .f32) (main_arg1 : FVec F S2048x300 .f32) (main_arg2 : FVec F S16x300 .f32) (main_arg3 : FVec F S512x512 .f32) (main_arg4 : FVec F S512x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x300 .f32 := Host.absf main_arg1
  let main_cst_0 : FVec F S_ .f32 := constant S_ .f32 0x7F800000#32
  let main_v5 : FVec F S2048x300 .f32 := broadcastInDim S2048x300 ![] bcast_S_S2048x300 main_cst_0
  let main_v6 : IVec S2048x300 1 := cmpf .olt main_v4 main_v5
  let main_c_1 : IVec S_ 1 := constantI S_ 1 1#1
  let main_v7 : IVec S_ 1 := (fun x v => Host.reduce IntOp.andi x v reducesTo_S2048x300_S_d0_1 h_S_) main_v6 main_c_1
  let main_v8 : IVec S_ 1 := andi main_v3 main_v7
  let main_v9 : FVec F S16x300 .f32 := Host.absf main_arg2
  let main_cst_2 : FVec F S_ .f32 := constant S_ .f32 0x7F800000#32
  let main_v10 : FVec F S16x300 .f32 := broadcastInDim S16x300 ![] bcast_S_S16x300 main_cst_2
  let main_v11 : IVec S16x300 1 := cmpf .olt main_v9 main_v10
  let main_c_3 : IVec S_ 1 := constantI S_ 1 1#1
  let main_v12 : IVec S_ 1 := (fun x v => Host.reduce IntOp.andi x v reducesTo_S16x300_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S2048x512 : Shape := ⟨2, ![2048, 512]⟩
abbrev S2048x300 : Shape := ⟨2, ![2048, 300]⟩
abbrev S16x300 : Shape := ⟨2, ![16, 300]⟩
abbrev S512x512 : Shape := ⟨2, ![512, 512]⟩
abbrev S2048x16 : Shape := ⟨2, ![2048, 16]⟩
abbrev S_ : Shape := ⟨0, ![]⟩
abbrev S2048x1x300 : Shape := ⟨3, ![2048, 1, 300]⟩
abbrev S1x16x300 : Shape := ⟨3, ![1, 16, 300]⟩
abbrev S2048x16x300 : Shape := ⟨3, ![2048, 16, 300]⟩
abbrev S2048x16x1 : Shape := ⟨3, ![2048, 16, 1]⟩
abbrev S2048x4800 : Shape := ⟨2, ![2048, 4800]⟩
abbrev S2048x2048 : Shape := ⟨2, ![2048, 2048]⟩
abbrev S256x4800 : Shape := ⟨2, ![256, 4800]⟩
abbrev S256x256 : Shape := ⟨2, ![256, 256]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 37
  | .vmem => 22
  | .smem => 0
  | _ => 0

abbrev bufTy : (tb : Table) → Fin (tcTables nBuf tb) → BufTy
  | .hbm, ⟨0, _⟩ => ⟨S2048x512, .f32⟩
  | .hbm, ⟨1, _⟩ => ⟨S2048x300, .f32⟩
  | .hbm, ⟨2, _⟩ => ⟨S16x300, .f32⟩
  | .hbm, ⟨3, _⟩ => ⟨S512x512, .f32⟩
  | .hbm, ⟨4, _⟩ => ⟨S512x512, .f32⟩
  | .hbm, ⟨5, _⟩ => ⟨S16x300, .f32⟩
  | .hbm, ⟨6, _⟩ => ⟨S2048x300, .f32⟩
  | .hbm, ⟨7, _⟩ => ⟨S16x300, .f32⟩
  | .hbm, ⟨8, _⟩ => ⟨S2048x16, .f32⟩
  | .hbm, ⟨9, _⟩ => ⟨S2048x16, .f32⟩
  | .hbm, ⟨10, _⟩ => ⟨S_, .f32⟩
  | .hbm, ⟨11, _⟩ => ⟨S2048x16, .f32⟩
  | .hbm, ⟨12, _⟩ => ⟨S2048x16, .f32⟩
  | .hbm, ⟨13, _⟩ => ⟨S2048x1x300, .f32⟩
  | .hbm, ⟨14, _⟩ => ⟨S1x16x300, .f32⟩
  | .hbm, ⟨15, _⟩ => ⟨S2048x16x300, .f32⟩
  | .hbm, ⟨16, _⟩ => ⟨S2048x16x300, .f32⟩
  | .hbm, ⟨17, _⟩ => ⟨S2048x16x300, .f32⟩
  | .hbm, ⟨18, _⟩ => ⟨S2048x16x1, .f32⟩
  | .hbm, ⟨19, _⟩ => ⟨S2048x16x300, .f32⟩
  | .hbm, ⟨20, _⟩ => ⟨S2048x16x300, .f32⟩
  | .hbm, ⟨21, _⟩ => ⟨S2048x4800, .f32⟩
  | .hbm, ⟨22, _⟩ => ⟨S2048x4800, .bf16⟩
  | .hbm, ⟨23, _⟩ => ⟨S2048x4800, .f32⟩
  | .hbm, ⟨24, _⟩ => ⟨S2048x4800, .f32⟩
  | .hbm, ⟨25, _⟩ => ⟨S2048x4800, .bf16⟩
  | .hbm, ⟨26, _⟩ => ⟨S2048x2048, .f32⟩
  | .hbm, ⟨27, _⟩ => ⟨S2048x512, .bf16⟩
  | .hbm, ⟨28, _⟩ => ⟨S512x512, .bf16⟩
  | .hbm, ⟨29, _⟩ => ⟨S2048x512, .f32⟩
  | .hbm, ⟨30, _⟩ => ⟨S2048x512, .bf16⟩
  | .hbm, ⟨31, _⟩ => ⟨S2048x2048, .bf16⟩
  | .hbm, ⟨32, _⟩ => ⟨S2048x512, .bf16⟩
  | .hbm, ⟨33, _⟩ => ⟨S512x512, .bf16⟩
  | .hbm, ⟨34, _⟩ => ⟨S2048x512, .f32⟩
  | .hbm, ⟨35, _⟩ => ⟨S2048x512, .bf16⟩
  | .hbm, ⟨36, _⟩ => ⟨S2048x512, .f32⟩
  | .local _ .vmem, ⟨0, _⟩ => ⟨S256x4800, .bf16⟩
  | .local _ .vmem, ⟨1, _⟩ => ⟨S256x4800, .bf16⟩
  | .local _ .vmem, ⟨2, _⟩ => ⟨S256x4800, .bf16⟩
  | .local _ .vmem, ⟨3, _⟩ => ⟨S256x4800, .bf16⟩
  | .local _ .vmem, ⟨4, _⟩ => ⟨S256x4800, .bf16⟩
  | .local _ .vmem, ⟨5, _⟩ => ⟨S256x4800, .bf16⟩
  | .local _ .vmem, ⟨6, _⟩ => ⟨S256x4800, .bf16⟩
  | .local _ .vmem, ⟨7, _⟩ => ⟨S256x4800, .bf16⟩
  | .local _ .vmem, ⟨8, _⟩ => ⟨S256x256, .f32⟩
  | .local _ .vmem, ⟨9, _⟩ => ⟨S256x256, .f32⟩
  | .local _ .vmem, ⟨10, _⟩ => ⟨S256x2048, .f32⟩
  | .local _ .vmem, ⟨11, _⟩ => ⟨S256x2048, .f32⟩
  | .local _ .vmem, ⟨12, _⟩ => ⟨S2048x512, .bf16⟩
  | .local _ .vmem, ⟨13, _⟩ => ⟨S256x2048, .bf16⟩
  | .local _ .vmem, ⟨14, _⟩ => ⟨S256x2048, .bf16⟩
  | .local _ .vmem, ⟨15, _⟩ => ⟨S256x512, .bf16⟩
  | .local _ .vmem, ⟨16, _⟩ => ⟨S256x512, .bf16⟩
  | .local _ .vmem, ⟨17, _⟩ => ⟨S256x2048, .bf16⟩
  | .local _ .vmem, ⟨18, _⟩ => ⟨S256x2048, .bf16⟩
  | .local _ .vmem, ⟨19, _⟩ => ⟨S2048x512, .bf16⟩
  | .local _ .vmem, ⟨20, _⟩ => ⟨S256x512, .f32⟩
  | .local _ .vmem, ⟨21, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25_0 : Ref sig .tc := ⟨.hbm, 31, rfl⟩
abbrev main_v25_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4800 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4800 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4800 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4800 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S2048x16 : S_.BroadcastsInDim S2048x16 (![] : Fin 0 → Fin S2048x16.rank)
  bcast_S2048x300_S2048x1x300_0_2 : S2048x300.BroadcastsInDim S2048x1x300 (![0, 2] : Fin 2 → Fin S2048x1x300.rank)
  bcast_S16x300_S1x16x300_1_2 : S16x300.BroadcastsInDim S1x16x300 (![1, 2] : Fin 2 → Fin S1x16x300.rank)
  bcast_S2048x1x300_S2048x16x300_0_1_2 : S2048x1x300.BroadcastsInDim S2048x16x300 (![0, 1, 2] : Fin 3 → Fin S2048x16x300.rank)
  bcast_S1x16x300_S2048x16x300_0_1_2 : S1x16x300.BroadcastsInDim S2048x16x300 (![0, 1, 2] : Fin 3 → Fin S2048x16x300.rank)
  bcast_S2048x16_S2048x16x1_0_1 : S2048x16.BroadcastsInDim S2048x16x1 (![0, 1] : Fin 2 → Fin S2048x16x1.rank)
  bcast_S2048x16x1_S2048x16x300_0_1_2 : S2048x16x1.BroadcastsInDim S2048x16x300 (![0, 1, 2] : Fin 3 → Fin S2048x16x300.rank)
  shapeCasts_S2048x16x300_S2048x4800 : S2048x16x300.ShapeCasts S2048x4800
  bitsLt_bf16_f32 : FTy.bits .bf16 < FTy.bits .f32
  inb_S256x4800_S256x4800_0_0 : ∀ a, (![0, 0] : Fin 2 → Nat) a + S256x4800.size a ≤ S256x4800.size a
  h_S256x4800 : 0 < S256x4800.numel
  shapeCasts_S256x4800_S256x4800 : S256x4800.ShapeCasts S256x4800
  inb_S256x256_S256x256_0_0 : ∀ a, (![0, 0] : Fin 2 → Nat) a + S256x256.size a ≤ S256x256.size a
  h_S256x256 : 0 < S256x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  packedbf16_S256x2048_S256x2048_0_0 : (Rect.unit (s := S256x2048) ![0, 0] S256x2048.size inb_S256x2048_S256x2048_0_0).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  dot_S2048x300_S16x300_S2048x16_1_1_0_0_n_n_wf : DotDims.WF S2048x300 S16x300 S2048x16 [1] [1] [0] [0] [] []
  dot_S256x4800_S256x4800_S256x256_1_1_0_0_n_n_wf : DotDims.WF S256x4800 S256x4800 S256x256 [1] [1] [0] [0] [] []
  dot_S2048x512_S512x512_S2048x512_1_0_0_1_n_n_wf : DotDims.WF S2048x512 S512x512 S2048x512 [1] [0] [0] [1] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4800.size a ≤ S2048x4800.size a
  hwx0_0 : ∀ i : grid0.Coords, EltTy.bits .bf16 = 32 ∨ (Rect.block (s := S2048x4800) S256x4800.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4800.size a ≤ S2048x4800.size a
  hwx0_1 : ∀ i : grid0.Coords, EltTy.bits .bf16 = 32 ∨ (Rect.block (s := S2048x4800) S256x4800.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4800.size a ≤ S2048x4800.size a
  hwx0_2 : ∀ i : grid0.Coords, EltTy.bits .bf16 = 32 ∨ (Rect.block (s := S2048x4800) S256x4800.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4800.size a ≤ S2048x4800.size a
  hwx0_3 : ∀ i : grid0.Coords, EltTy.bits .bf16 = 32 ∨ (Rect.block (s := S2048x4800) S256x4800.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S2048x2048.size a
  hwx0_4 : ∀ i : grid0.Coords, EltTy.bits .f32 = 32 ∨ (Rect.block (s := S2048x2048) S256x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .f32 = 32 ∨ (Rect.block (s := S2048x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .bf16 = 32 ∨ (Rect.block (s := S2048x512) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S2048x2048.size a
  hwx1_2 : ∀ i : grid1.Coords, EltTy.bits .bf16 = 32 ∨ (Rect.block (s := S2048x2048) S256x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S2048x512.size a
  hwx1_3 : ∀ i : grid1.Coords, EltTy.bits .bf16 = 32 ∨ (Rect.block (s := S2048x512) S256x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S2048x2048.size a
  hwx2_0 : ∀ i : grid2.Coords, EltTy.bits .bf16 = 32 ∨ (Rect.block (s := S2048x2048) S256x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S2048x512.size a
  hwx2_1 : ∀ i : grid2.Coords, EltTy.bits .bf16 = 32 ∨ (Rect.block (s := S2048x512) S2048x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S2048x512.size a
  hwx2_2 : ∀ i : grid2.Coords, EltTy.bits .f32 = 32 ∨ (Rect.block (s := S2048x512) S256x512.size (cc2_transform_2 i) (hinb2_2 i)).WholeWords (EltTy.packing .f32)

variable [Facts₀]

def dot_S2048x300_S16x300_S2048x16_1_1_0_0_n_n : DotDims S2048x300 S16x300 S2048x16 where
  lhsContracting := [1]
  rhsContracting := [1]
  lhsNonContracting := [0]
  rhsNonContracting := [0]
  lhsBatch := []
  rhsBatch := []
  wf := dot_S2048x300_S16x300_S2048x16_1_1_0_0_n_n_wf
def dot_S256x4800_S256x4800_S256x256_1_1_0_0_n_n : DotDims S256x4800 S256x4800 S256x256 where
  lhsContracting := [1]
  rhsContracting := [1]
  lhsNonContracting := [0]
  rhsNonContracting := [0]
  lhsBatch := []
  rhsBatch := []
  wf := dot_S256x4800_S256x4800_S256x256_1_1_0_0_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_v16) S256x4800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S256x4800.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x4800.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S256x4800.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25_0) S256x2048.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25_1) S256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25_0) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2048x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S256x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2048x512 : Shape := ⟨2, ![2048, 512]⟩
abbrev S2048x300 : Shape := ⟨2, ![2048, 300]⟩
abbrev S16x300 : Shape := ⟨2, ![16, 300]⟩
abbrev S512x512 : Shape := ⟨2, ![512, 512]⟩
abbrev S1x2048x300 : Shape := ⟨3, ![1, 2048, 300]⟩
abbrev S16x1x300 : Shape := ⟨3, ![16, 1, 300]⟩
abbrev S16x2048x300 : Shape := ⟨3, ![16, 2048, 300]⟩
abbrev S_ : Shape := ⟨0, ![]⟩
abbrev S16x2048 : Shape := ⟨2, ![16, 2048]⟩
abbrev S16x2048x1 : Shape := ⟨3, ![16, 2048, 1]⟩
abbrev S16x2048x2048 : Shape := ⟨3, ![16, 2048, 2048]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 58
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x300, .f32⟩
  | .hbm, ⟨2, _⟩ => ⟨S16x300, .f32⟩
  | .hbm, ⟨3, _⟩ => ⟨S512x512, .f32⟩
  | .hbm, ⟨4, _⟩ => ⟨S512x512, .f32⟩
  | .hbm, ⟨5, _⟩ => ⟨S16x300, .f32⟩
  | .hbm, ⟨6, _⟩ => ⟨S1x2048x300, .f32⟩
  | .hbm, ⟨7, _⟩ => ⟨S16x1x300, .f32⟩
  | .hbm, ⟨8, _⟩ => ⟨S16x2048x300, .f32⟩
  | .hbm, ⟨9, _⟩ => ⟨S16x2048x300, .f32⟩
  | .hbm, ⟨10, _⟩ => ⟨S16x2048x300, .f32⟩
  | .hbm, ⟨11, _⟩ => ⟨S16x2048x300, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x300, .f32⟩
  | .hbm, ⟨20, _⟩ => ⟨S16x2048x300, .f32⟩
  | .hbm, ⟨21, _⟩ => ⟨S16x2048x2048, .f32⟩
  | .hbm, ⟨22, _⟩ => ⟨S_, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S2048x2048, .f32⟩
  | .hbm, ⟨47, _⟩ => ⟨S2048x2048, .f32⟩
  | .hbm, ⟨48, _⟩ => ⟨S2048x512, .f32⟩
  | .hbm, ⟨49, _⟩ => ⟨S2048x512, .f32⟩
  | .hbm, ⟨50, _⟩ => ⟨S_, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S_, .f32⟩
  | .hbm, ⟨56, _⟩ => ⟨S2048x512, .f32⟩
  | .hbm, ⟨57, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call3_cst : Ref sig .tc := ⟨.hbm, 55, rfl⟩
abbrev main_call3_v0 : Ref sig .tc := ⟨.hbm, 56, rfl⟩
abbrev main_v34 : Ref sig .tc := ⟨.hbm, 57, rfl⟩

abbrev nD : Nat := 1
abbrev τ : Topo := Topo.v7x

variable {F : FTy → Type} [FloatOps F]

class Facts₀ : Prop where
  bcast_S2048x300_S1x2048x300_1_2 : S2048x300.BroadcastsInDim S1x2048x300 (![1, 2] : Fin 2 → Fin S1x2048x300.rank)
  bcast_S16x300_S16x1x300_0_2 : S16x300.BroadcastsInDim S16x1x300 (![0, 2] : Fin 2 → Fin S16x1x300.rank)
  bcast_S1x2048x300_S16x2048x300_0_1_2 : S1x2048x300.BroadcastsInDim S16x2048x300 (![0, 1, 2] : Fin 3 → Fin S16x2048x300.rank)
  bcast_S16x1x300_S16x2048x300_0_1_2 : S16x1x300.BroadcastsInDim S16x2048x300 (![0, 1, 2] : Fin 3 → Fin S16x2048x300.rank)
  reducesTo_S16x2048x300_S16x2048_d2 : S16x2048x300.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x300_0_1_2 : S16x2048x1.BroadcastsInDim S16x2048x300 (![0, 1, 2] : Fin 3 → Fin S16x2048x300.rank)
  reducesTo_S16x2048x2048_S2048x2048_d0 : S16x2048x2048.ReducesTo [0] S2048x2048
  bcast_S_S2048x2048 : S_.BroadcastsInDim S2048x2048 (![] : Fin 0 → Fin S2048x2048.rank)
  reducesTo_S2048x2048_S2048_d1 : S2048x2048.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S_S2048x512 : S_.BroadcastsInDim S2048x512 (![] : Fin 0 → Fin S2048x512.rank)
  dot_S16x2048x300_S16x2048x300_S16x2048x2048_2_2_1_1_0_0_wf : DotDims.WF S16x2048x300 S16x2048x300 S16x2048x2048 [2] [2] [1] [1] [0] [0]
  dot_S2048x512_S512x512_S2048x512_1_0_0_1_n_n_wf : DotDims.WF S2048x512 S512x512 S2048x512 [1] [0] [0] [1] [] []
  dot_S2048x2048_S2048x512_S2048x512_1_0_0_1_n_n_wf : DotDims.WF S2048x2048 S2048x512 S2048x512 [1] [0] [0] [1] [] []

variable [Facts₀]

def dot_S16x2048x300_S16x2048x300_S16x2048x2048_2_2_1_1_0_0 : DotDims S16x2048x300 S16x2048x300 S16x2048x2048 where
  lhsContracting := [2]
  rhsContracting := [2]
  lhsNonContracting := [1]
  rhsNonContracting := [1]
  lhsBatch := [0]
  rhsBatch := [0]
  wf := dot_S16x2048x300_S16x2048x300_S16x2048x2048_2_2_1_1_0_0_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

class Facts : Prop extends Facts₀ where

variable [Facts]
-- ==== Proof.FrB.D0.lean ====
/-
  The first region (the Gram kernel), its data. A grid of 8 × 8 tiles; at tile (i, j) the body reads row block i of the
  two row-major operands twice each — once as rows, once as columns — and writes tile (i, j) of the 2048 × 2048 result:
  the three products (first · first, first · second, second · first) summed and scaled. Windows 0 and 2 read one array,
  windows 1 and 3 another, so each of those two arrays is held in two halves, one per window.
-/
import proofs.«413271_j32796370272774_3_alg».proof.Proof.Gen.Kernel.Launch
import proofs.«413271_j32796370272774_3_alg».proof.Proof.Gen.Kernel.Skeleton
import proofs.«413271_j32796370272774_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every definition below is stated at this parameter
variable (V : (c : Dev nD) → (b : Ref sig .tc) → Buf (Elt F) ((c : Thread nD τ).loc b))

/-- Window `w`'s block of its array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256 × 4800 block and the whole 256 × 256 tile, as rectangles. -/
abbrev r0_in : Rect S256x4800 := Rect.unit (s := S256x4800) ![0, 0] S256x4800.size inb_S256x4800_S256x4800_0_0
abbrev r0_out : Rect S256x256 := Rect.unit (s := S256x256) ![0, 0] S256x256.size inb_S256x256_S256x256_0_0

/-- What the body leaves in the result tile's buffer, from the four input blocks: its one store, over the whole tile. -/
def out0_4 (x0 x1 x2 x3 : Vec F S256x4800 .bf16) : Vec F S256x256 .f32 :=
  View.canon [⟨r0_out, k0_pay1 (View.ld x0 r0_in) (View.ld x1 r0_in) (View.ld x2 r0_in) (View.ld x3 r0_in)⟩]

/-- The one store covers the tile. -/
theorem cover0_4 (p0 : Vec F S256x256 .f32) (y : S256x256.Idx) :
    ∃ pc ∈ ([⟨r0_out, p0⟩] : List (View.Piece (Elt F) S256x256 .f32)), y ∈ pc.1.set :=
  View.cover_of_tiled [⟨r0_out, p0⟩] S256x256.size (by rfl) y

/-- The region's data on core `c`: arrays as found; after the body each input buffer still holds its block and the
    result buffer holds the tile; the invariant is the untouched rest; nothing is owed; the two arrays read through two
    windows are held half and half, the result whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem q0_0 (c : Dev nD) : (dat0 V c).q 0 = fullShare.left := by dsimp only [dat0]
theorem q0_1 (c : Dev nD) : (dat0 V c).q 1 = fullShare.left := by dsimp only [dat0]
theorem q0_2 (c : Dev nD) : (dat0 V c).q 2 = fullShare.right := by dsimp only [dat0]
theorem q0_3 (c : Dev nD) : (dat0 V c).q 3 = fullShare.right := by dsimp only [dat0]

end Cert.Kernel.Fr

end
-- ==== Proof.FrB.D1.lean ====
/-
  The second region (threshold, softmax by rows, first propagation), its data. Eight row blocks of 256 rows; at block i
  the body reads rows of the score matrix and the whole 2048 × 512 feature matrix, and writes the same rows of the
  row-stochastic matrix and of the propagated, clipped features.
-/
import proofs.«413271_j32796370272774_3_alg».proof.Proof.Gen.Kernel.Launch
import proofs.«413271_j32796370272774_3_alg».proof.Proof.Gen.Kernel.Skeleton
import proofs.«413271_j32796370272774_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every definition below is stated at this parameter
variable (V : (c : Dev nD) → (b : Ref sig .tc) → Buf (Elt F) ((c : Thread nD τ).loc b))

/-- Window `w`'s block of its array at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole blocks as rectangles: 256 × 2048 rows, the 2048 × 512 features, 256 × 512 rows. -/
abbrev r1_rows : Rect S256x2048 := Rect.unit (s := S256x2048) ![0, 0] S256x2048.size inb_S256x2048_S256x2048_0_0
abbrev r1_feat : Rect S2048x512 := Rect.unit (s := S2048x512) ![0, 0] S2048x512.size inb_S2048x512_S2048x512_0_0
abbrev r1_res : Rect S256x512 := Rect.unit (s := S256x512) ![0, 0] S256x512.size inb_S256x512_S256x512_0_0

/-- What the body leaves in the row-stochastic rows' buffer: its one store. -/
def out1_2 (x0 : Vec F S256x2048 .f32) : Vec F S256x2048 .bf16 :=
  View.canon [⟨r1_rows, k1_pay1 (View.ld x0 r1_rows)⟩]
/-- What the body leaves in the propagated rows' buffer: its one store. -/
def out1_3 (x0 : Vec F S256x2048 .f32) (x1 : Vec F S2048x512 .bf16) : Vec F S256x512 .bf16 :=
  View.canon [⟨r1_res, k1_pay2 (View.ld x0 r1_rows) (View.ld x1 r1_feat)⟩]

theorem cover1_2 (p0 : Vec F S256x2048 .bf16) (y : S256x2048.Idx) :
    ∃ pc ∈ ([⟨r1_rows, p0⟩] : List (View.Piece (Elt F) S256x2048 .bf16)), y ∈ pc.1.set :=
  View.cover_of_tiled [⟨r1_rows, p0⟩] S256x2048.size (by rfl) y
theorem cover1_3 (p0 : Vec F S256x512 .bf16) (y : S256x512.Idx) :
    ∃ pc ∈ ([⟨r1_res, p0⟩] : List (View.Piece (Elt F) S256x512 .bf16)), y ∈ pc.1.set :=
  View.cover_of_tiled [⟨r1_res, p0⟩] S256x512.size (by rfl) y

/-- The region's data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) := by dsimp only [dat1]
theorem after1_3 (c : Dev nD) (t : Fin cfg1.N) : (dat1 V c).after 3 t = out1_3 (iblk1 V c 0 t) (iblk1 V c 1 t) := by dsimp only [dat1]

end Cert.Kernel.Fr

end
-- ==== Proof.FrB.D2.lean ====
/-
  The third region (second propagation), its data. Eight row blocks of 256 rows; at block i the body reads rows of the
  row-stochastic matrix and the whole 2048 × 512 feature matrix, and writes the same rows of their clipped product.
-/
import proofs.«413271_j32796370272774_3_alg».proof.Proof.Gen.Kernel.Launch
import proofs.«413271_j32796370272774_3_alg».proof.Proof.Gen.Kernel.Skeleton
import proofs.«413271_j32796370272774_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every definition below is stated at this parameter
variable (V : (c : Dev nD) → (b : Ref sig .tc) → Buf (Elt F) ((c : Thread nD τ).loc b))

/-- Window `w`'s block of its array at grid point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_rows : Rect S256x2048 := Rect.unit (s := S256x2048) ![0, 0] S256x2048.size inb_S256x2048_S256x2048_0_0
abbrev r2_feat : Rect S2048x512 := Rect.unit (s := S2048x512) ![0, 0] S2048x512.size inb_S2048x512_S2048x512_0_0
abbrev r2_res : Rect S256x512 := Rect.unit (s := S256x512) ![0, 0] S256x512.size inb_S256x512_S256x512_0_0

/-- What the body leaves in the result rows' buffer: its one store. -/
def out2_2 (x0 : Vec F S256x2048 .bf16) (x1 : Vec F S2048x512 .bf16) : Vec F S256x512 .f32 :=
  View.canon [⟨r2_res, k2_pay1 (View.ld x0 r2_rows) (View.ld x1 r2_feat)⟩]

theorem cover2_2 (p0 : Vec F S256x512 .f32) (y : S256x512.Idx) :
    ∃ pc ∈ ([⟨r2_res, p0⟩] : List (View.Piece (Elt F) S256x512 .f32)), y ∈ pc.1.set :=
  View.cover_of_tiled [⟨r2_res, p0⟩] S256x512.size (by rfl) y

/-- The region's data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end Cert.Kernel.Fr

end
-- ==== Proof.FrB.Fold.lean ====
/-
  The contents of a core's buffers at each boundary between the segments of the main function, as a fold from the
  launch memory: a host stretch leaves what its operations compute; the first region changes only its result array (its
  two operands are each read through two windows and are left as found); the second and third regions leave their arrays
  at what their write-backs fold to and every other buffer as found. No segment writes an argument, so each argument's
  buffer read through the fold is the launch memory's.
-/
import proofs.«413271_j32796370272774_3_alg».proof.Proof.FrB.D0
import proofs.«413271_j32796370272774_3_alg».proof.Proof.FrB.D1
import proofs.«413271_j32796370272774_3_alg».proof.Proof.FrB.D2
import proofs.«413271_j32796370272774_3_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the core's references (what the first region's data take). -/
abbrev V1 : (c : Dev nD) → (b : Ref sig .tc) → Buf (Elt F) ((c : Thread nD τ).loc b) := fun c b => W1 m ρ c b
/-- At the first region's exit: its result array at what the write-backs fold to, every other buffer as entered (the two
    operand arrays among them: an input array is never written). -/
def W2 (c : Dev nD) : Valuation τ sig (Elt F) :=
  Function.update (W1 m ρ c) (Proc.devRef .tc main_v20) ((dat0 (V1 m ρ) c).arrAt 4 cfg0.N)
theorem W2_v20 (c : Dev nD) : W2 m ρ c (Proc.devRef .tc main_v20) = (dat0 (V1 m ρ) c).arrAt 4 cfg0.N := by
  unfold W2; exact Function.update_self ..
theorem W2_of_ne (c : Dev nD) (b : Ref sig .tc) (hb : b ≠ main_v20) :
    W2 m ρ c (Proc.devRef .tc b) = W1 m ρ c (Proc.devRef .tc b) := by
  unfold W2; exact Function.update_of_ne (StableHlo.devRef_ne_of_ne hb) ..
/-- The same read at the core's references (the first region's exit contents). -/
abbrev V2 : (c : Dev nD) → (b : Ref sig .tc) → Buf (Elt F) ((c : Thread nD τ).loc b) := fun c b => W2 m ρ c b

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- At the second region's exit each of its arrays holds what the pipeline leaves and every other buffer what it held
    at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the third region's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the third region's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched: no host operation writes one and no region has one among its arrays, so the fold
    at an argument's buffer walks back to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

end Cert.Kernel.Fr

end
-- ==== Proof.FrB.R0.lean ====
/-
  The first region (the Gram kernel), its body. At every grid point each of the four input buffers holds its window's
  block of its array, whether or not the pipeline fetched it there; from those the body's one store over the whole
  tile leaves the result buffer at the tile the data name; the invariant and the core's debts pass through unread.
-/
import proofs.«413271_j32796370272774_3_alg».proof.Proof.FrB.D0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## What the body finds in each input buffer -/

/-- Input window 0's current buffer holds its block at every point, fetched there or not, for any data whose array
    is the entry contents and whose body leaves the block in place: where the window is not fetched its block index
    has not moved since the point before, so the block kept from there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not, for any data whose array
    is the entry contents and whose body leaves the block in place: where the window is not fetched its block index
    has not moved since the point before, so the block kept from there is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not, for any data whose array
    is the entry contents and whose body leaves the block in place: where the window is not fetched its block index
    has not moved since the point before, so the block kept from there is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not, for any data whose array
    is the entry contents and whose body leaves the block in place: where the window is not fetched its block index
    has not moved since the point before, so the block kept from there is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The same of the region's data. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's triple -/

set_option maxHeartbeats 1000000 in
/-- The body on whole buffers, the four inputs' reading `x0 … x3` and the result's holding anything, runs to the
    continuation with the inputs' as they were and the result's at the tile computed from them: four loads of whole
    blocks, a load of the result buffer whose value nothing uses, and one store over the whole tile, which therefore
    decides every entry of it. -/
theorem sound_kernel0 (c : Dev nD) (E : Set ℕ) (i : grid0.Coords)
    (arg2 : Memref sig .tc .vmem S256x4800 .bf16) (harg2 : arg2.IsWhole) (arg3 : Memref sig .tc .vmem S256x4800 .bf16) (harg3 : arg3.IsWhole)
    (arg4 : Memref sig .tc .vmem S256x4800 .bf16) (harg4 : arg4.IsWhole) (arg5 : Memref sig .tc .vmem S256x4800 .bf16) (harg5 : arg5.IsWhole)
    (arg6 : Memref sig .tc .vmem S256x256 .f32) (harg6 : arg6.IsWhole)
    (x0 x1 x2 x3 : Vec F S256x4800 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1 x2 x3)) -∗ K ⟨⟩))
      ⊢ wp frame (wpE (defs₀ (F := F)) Variants.none c none) E
          (cc0__gram_kernel i arg2 harg2 arg3 harg3 arg4 harg4 arg5 harg5 arg6 harg6) K := by
  simp only [cc0__gram_kernel_eq_skeleton]; unfold cc0__gram_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body obligation, at a generic point -/

/-- What the body is called with at point `t`: the invariant, the core's debts, and each window's current buffer at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the body's triple applies at those blocks; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region's data, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrB.R1.lean ====
/-
  The second region (threshold, softmax by rows, first propagation), its body. At every row block the body finds the
  block's rows of the score matrix and the whole feature matrix in its two input buffers (the feature matrix is brought
  in once, at the first block, and stays), overwrites the two output buffers entirely, and leaves the inputs as found.
-/
import proofs.«413271_j32796370272774_3_alg».proof.Proof.Gen.Kernel.Launch
import proofs.«413271_j32796370272774_3_alg».proof.Proof.Gen.Kernel.Skeleton
import proofs.«413271_j32796370272774_3_alg».proof.Proof.Gen.Kernel.Points
import proofs.«413271_j32796370272774_3_alg».proof.Proof.FrB.D1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every definition below is stated at this parameter
variable (V : (c : Dev nD) → (b : Ref sig .tc) → Buf (Elt F) ((c : Thread nD τ).loc b))

/-! ## What the body finds in each input buffer -/

/-- The score rows' buffer holds the block's rows at every point, for any data whose array is the entry contents'
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The feature matrix's buffer holds the whole matrix at every point: brought in at the first point, and at a later
    point the block index has not moved, so what the body left there is still the point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's triple -/

set_option maxHeartbeats 1000000 in
/-- The body on whole buffers, the inputs' at contents `x0`, `x1` and the outputs' at anything, runs to the
    continuation holding the inputs' as they were, the row-stochastic rows' at `out1_2 x0` and the propagated rows' at
    `out1_3 x0 x1`: each output buffer is read once (the value is not used) and then overwritten entirely by one store. -/
theorem sound_kernel1 (c : Dev nD) (E : Set ℕ) (i : grid1.Coords)
    (arg1 : Memref sig .tc .vmem S256x2048 .f32) (harg1 : arg1.IsWhole) (arg2 : Memref sig .tc .vmem S2048x512 .bf16) (harg2 : arg2.IsWhole)
    (arg3 : Memref sig .tc .vmem S256x2048 .bf16) (harg3 : arg3.IsWhole) (arg4 : Memref sig .tc .vmem S256x512 .bf16) (harg4 : arg4.IsWhole)
    (x0 : Vec F S256x2048 .f32) (x1 : Vec F S2048x512 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0) ∗ owns (c : Thread nD τ) arg4 fullShare (out1_3 x0 x1)) -∗ K ⟨⟩))
      ⊢ wp frame (wpE (defs₀ (F := F)) Variants.none c none) E (cc1__softmax_gcn0_kernel i arg1 harg1 arg2 harg2 arg3 harg3 arg4 harg4) K := by
  simp only [cc1__softmax_gcn0_kernel_eq_skeleton]; unfold cc1__softmax_gcn0_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's data, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrB.R2.lean ====
/-
  The third region: the body's triple and the body obligation. Eight row blocks; at block t the body reads a
  256 × 2048 block of rows of the left matrix and the whole 2048 × 512 right matrix from their buffers, reads the
  256 × 512 result buffer (a value it does not use), and stores over all of the result buffer the product of the two,
  each entry replaced by zero where it is below zero. The right matrix sits in one buffer that is filled at the first
  block only; at the later blocks the buffer still holds the same (whole) matrix.
-/
import proofs.«413271_j32796370272774_3_alg».proof.Proof.Gen.Kernel.Launch
import proofs.«413271_j32796370272774_3_alg».proof.Proof.Gen.Kernel.Skeleton
import proofs.«413271_j32796370272774_3_alg».proof.Proof.Gen.Kernel.Points
import proofs.«413271_j32796370272774_3_alg».proof.Proof.FrB.D2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every statement below is made at this parameter
variable (V : (c : Dev nD) → (b : Ref sig .tc) → Buf (Elt F) ((c : Thread nD τ).loc b))

/-! ## What the body finds in each input's buffer -/

/-- The left rows' buffer holds block t of the left matrix at every block t, for any data whose array is the entry
    contents and whose body leaves the block in place: the buffer is refilled at every block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right matrix's buffer holds the (whole) matrix at every block, filled there or not: it is filled at the first
    block, its block index never moves afterwards, and the body leaves it as found. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's triple -/

set_option maxHeartbeats 1000000 in
/-- The body on whole buffers, the two inputs' reading x0 and x1 and the result's holding anything, runs to a state
    where the inputs' are as they were and the result's holds the one store's payload over the whole buffer: the two
    input loads read x0 and x1, the load of the result buffer yields a value nothing uses, and the store's rectangle
    is the whole buffer, so what any view reads afterwards is the payload. -/
theorem sound_kernel2 (c : Dev nD) (E : Set ℕ) (i : grid2.Coords) (arg1 : Memref sig .tc .vmem S256x2048 .bf16) (harg1 : arg1.IsWhole) (arg2 : Memref sig .tc .vmem S2048x512 .bf16) (harg2 : arg2.IsWhole) (arg3 : Memref sig .tc .vmem S256x512 .f32) (harg3 : arg3.IsWhole)
    (x0 : Vec F S256x2048 .bf16) (x1 : Vec F S2048x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__gcn_layer_kernel i arg1 harg1 arg2 harg2 arg3 harg3) K := by
  simp only [cc2__gcn_layer_kernel_eq_skeleton]; unfold cc2__gcn_layer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic block -/

/-- What the body is called with at block t: the region's invariant, the core's debts, and the three buffers, the
    inputs' at what they hold before the body and the result's at anything, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the same with each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any block: the inputs' buffers hold their blocks, so the body's triple applies; the invariant and the
    core's debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The region's body obligation, at every block. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.FrB.Run.lean ====
/-
  The run of the main function as six segments — three host stretches and three kernel regions — over the thread state
  "every unscoped buffer at the boundary's contents, the generator register at some state, nothing owed", and the frame
  claim read off the last boundary: every argument array ends holding its launch contents.

  The first region reads each of its two operand arrays through two windows. Its arrays are therefore not distinct
  buffers, and the region's entry and exit are proved by hand: at entry each shared array's full share is split into
  its left and right halves, one per window; at exit the two halves (whose contents an input window never changes) are
  joined back, and the result array is held at what the write-backs fold to.
-/
import proofs.«413271_j32796370272774_3_alg».proof.Proof.FrB.Fold
import proofs.«413271_j32796370272774_3_alg».proof.Proof.FrB.R0
import proofs.«413271_j32796370272774_3_alg».proof.Proof.FrB.R1
import proofs.«413271_j32796370272774_3_alg».proof.Proof.FrB.R2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first region's arrays among the unscoped buffers -/

section Region0Arrays

variable (V : (c : Dev nD) → (b : Ref sig .tc) → Buf (Elt F) ((c : Thread nD τ).loc b))

theorem share0_0 (c : Dev nD) : (dat0 V c).share 0 = fullShare.left := by
  unfold Pipeline.Dat.share; rw [if_neg (by decide)]; exact q0_0 V c
theorem share0_1 (c : Dev nD) : (dat0 V c).share 1 = fullShare.left := by
  unfold Pipeline.Dat.share; rw [if_neg (by decide)]; exact q0_1 V c
theorem share0_2 (c : Dev nD) : (dat0 V c).share 2 = fullShare.right := by
  unfold Pipeline.Dat.share; rw [if_neg (by decide)]; exact q0_2 V c
theorem share0_3 (c : Dev nD) : (dat0 V c).share 3 = fullShare.right := by
  unfold Pipeline.Dat.share; rw [if_neg (by decide)]; exact q0_3 V c
theorem share0_4 (c : Dev nD) : (dat0 V c).share 4 = fullShare := by
  unfold Pipeline.Dat.share; rw [if_pos (by decide)]

theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v16) ↦{fullShare} X main_v16) ∗ (((c : Thread nD τ).loc main_v19) ↦{fullShare} X main_v19)
          ∗ (((c : Thread nD τ).loc main_v20) ↦{fullShare} X main_v20)) := by
  unfold Pipeline.arrBufs
  exact bigSep_eq_bigSepL_of_eq [main_v16, main_v19, main_v20] (by decide) (by decide) _

theorem arrays0_eq (c : Dev nD) (Fn : (w : Fin cfg0.W) → Buf (Elt F) ((cfg0.win w).arr.view.loc (c.tc : Thread nD τ))) :
    (dat0 V c).arrays Fn
      = iprop((((c : Thread nD τ).loc main_v16) ↦{fullShare.left} Fn 0) ∗ (((c : Thread nD τ).loc main_v19) ↦{fullShare.left} Fn 1)
          ∗ (((c : Thread nD τ).loc main_v16) ↦{fullShare.right} Fn 2) ∗ (((c : Thread nD τ).loc main_v19) ↦{fullShare.right} Fn 3)
          ∗ (((c : Thread nD τ).loc main_v20) ↦{fullShare} Fn 4)) := by
  unfold Pipeline.Dat.arrays
  rw [bigSep_W0, (arr_whole0 0).set_eq_univ, (arr_whole0 1).set_eq_univ,
    (arr_whole0 4).set_eq_univ, share0_0, share0_1, share0_2, share0_3, share0_4]

theorem unscopedBufs_split0 (c : Dev nD) (X : (b : Ref sig .tc) → Buf (Elt F) ((c : Thread nD τ).loc b)) :
    (unscopedBufs c X : sProp 𝕄)
      = iprop((Pipeline.arrBufs (Ix := Unit) (Name := ℕ) (U := UR sig nD τ) (Lvl := ℕ) spec0 c X : sProp 𝕄) ∗ Pipeline.unscopedRest spec0 c X) :=
  Pipeline.unscopedBufs_split₀ cfgs 0 winFacts₀0.arr_unscoped c X

/-- A whole buffer at the full share is its left half beside its right half, -/
theorem pt_halve {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
/-- and the two halves at one contents join back to the full share. -/
theorem pt_join {ℓ : Loc nD τ sig} (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

/-- ENTRY: a core's unscoped buffers at contents `V c` are the region's arrays at the data's entry contents — the two
    shared arrays' full shares dealt half and half to the two windows on each — and the unscoped rest. -/
theorem arrays0_of_bufs (c : Dev nD) :
    (unscopedBufs c (V c) : sProp 𝕄)
      ⊢ iprop((dat0 V c).arrays ((dat0 V c).arrAt · 0) ∗ Pipeline.unscopedRest spec0 c (V c)) := by
  rw [unscopedBufs_split0, arrBufs0_eq, arrays0_eq,
    show (dat0 V c).arrAt 0 0 = V c main_v16 from A_eq0 V c 0,
    show (dat0 V c).arrAt 1 0 = V c main_v19 from A_eq0 V c 1,
    show (dat0 V c).arrAt 2 0 = V c main_v16 from A_eq0 V c 2,
    show (dat0 V c).arrAt 3 0 = V c main_v19 from A_eq0 V c 3,
    show (dat0 V c).arrAt 4 0 = V c main_v20 from A_eq0 V c 4]
  iintro ⟨⟨Ha, Hb, Hc⟩, Hrest⟩
  ihave Hax := pt_halve (V c main_v16) $$ Ha
  icases Hax with ⟨Hal, Har⟩
  ihave Hbx := pt_halve (V c main_v19) $$ Hb
  icases Hbx with ⟨Hbl, Hbr⟩
  isplitr [Hrest]
  · isplitl [Hal]; · iexact Hal
    isplitl [Hbl]; · iexact Hbl
    isplitl [Har]; · iexact Har
    isplitl [Hbr]; · iexact Hbr
    iexact Hc
  · iexact Hrest

/-- EXIT: the region's arrays at their final contents and the unscoped rest at `V c` are the core's unscoped buffers at
    any contents `X'` that have the result array at what the write-backs fold to and agree with `V c` elsewhere: an
    input window never writes its array, so the two halves of a shared array hold the same contents and join. -/
theorem bufs_of_arrays0 (c : Dev nD) (X' : (b : Ref sig .tc) → Buf (Elt F) ((c : Thread nD τ).loc b))
    (h20 : X' main_v20 = (dat0 V c).arrAt 4 cfg0.N) (hne : ∀ b, b ≠ main_v20 → X' b = V c b) :
    iprop((dat0 V c).arrays ((dat0 V c).arrAt · cfg0.N) ∗ Pipeline.unscopedRest spec0 c (V c)) ⊢ (unscopedBufs c X' : sProp 𝕄) := by
  have hrest : (Pipeline.unscopedRest (Ix := Unit) (Name := ℕ) (U := UR sig nD τ) (Lvl := ℕ) spec0 c X' : sProp 𝕄)
      = Pipeline.unscopedRest spec0 c (V c) := by
    unfold Pipeline.unscopedRest
    exact bigSep_congr fun b hb => by
      rw [hne b fun e => (Finset.mem_sdiff.mp hb).2 (e ▸ Finset.mem_image.mpr ⟨4, Finset.mem_univ _, rfl⟩)]
  rw [unscopedBufs_split0, arrBufs0_eq, arrays0_eq, hrest,
    hne main_v16 (by decide), hne main_v19 (by decide), h20,
    show (dat0 V c).arrAt 0 cfg0.N = V c main_v16 from ((dat0 V c).arrAt_in 0 rfl _).trans (A_eq0 V c 0),
    show (dat0 V c).arrAt 1 cfg0.N = V c main_v19 from ((dat0 V c).arrAt_in 1 rfl _).trans (A_eq0 V c 1),
    show (dat0 V c).arrAt 2 cfg0.N = V c main_v16 from ((dat0 V c).arrAt_in 2 rfl _).trans (A_eq0 V c 2),
    show (dat0 V c).arrAt 3 cfg0.N = V c main_v19 from ((dat0 V c).arrAt_in 3 rfl _).trans (A_eq0 V c 3)]
  iintro ⟨⟨Hal, Hbl, Har, Hbr, Hc⟩, Hrest⟩
  isplitr [Hrest]
  · isplitl [Hal Har]
    · iapply pt_join (V c main_v16)
      isplitl [Hal] <;> iassumption
    isplitl [Hbl Hbr]
    · iapply pt_join (V c main_v19)
      isplitl [Hbl] <;> iassumption
    iexact Hc
  · iexact Hrest

end Region0Arrays

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at what its operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

-- an entailment of the library stated over the pinned configuration unifies with the printed one only when unification
-- may unfold plain definitions in a metavariable's type
set_option backward.isDefEq.respectTransparency.types false in
/-- Region 0 over the thread state: entered from every unscoped buffer at `W1`, left at `W2`. Two of its three arrays are
    each read through two windows, so they are split out of the unscoped buffers by hand (`arrays0_of_bufs`: each
    shared array's full share dealt half and half to its two windows) and put back at the exit contents
    (`bufs_of_arrays0`: the halves joined, the result array at what the write-backs fold to); the generator register goes
    into the class invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) :=
      arrays0_of_bufs (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) :=
      bufs_of_arrays0 (V1 m ρ) c (V2 m ρ c) (W2_v20 m ρ c) (fun b hb => W2_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- an entailment of the library stated over the pinned configuration unifies with the printed one only when unification
-- may unfold plain definitions in a metavariable's type
set_option backward.isDefEq.respectTransparency.types false in
/-- Region 1 over the thread state: entered from every unscoped buffer at `W3`, left at `W4`. Its arrays are split
    out of the unscoped buffers and put back at the exit contents; the generator register goes into the class invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- an entailment of the library stated over the pinned configuration unifies with the printed one only when unification
-- may unfold plain definitions in a metavariable's type
set_option backward.isDefEq.respectTransparency.types false in
/-- Region 2 over the thread state: entered from every unscoped buffer at `W5`, left at `W6`. Its arrays are split
    out of the unscoped buffers and put back at the exit contents; the generator register goes into the class invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

/-- The six segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The main function is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters every weakly fair execution of the main function terminates, nothing faulting,
    and every final state has each unscoped buffer of each core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame claim at any float family: every argument array ends holding its launch contents, each read off the last
    boundary through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.Kernel.Fr

end
-- ==== Proof.FrI.D0.lean ====
/-
  The first region (the Gram kernel), its data. A grid of 8 × 8 tiles; at tile (i, j) the body reads row block i of the
  two row-major operands twice each — once as rows, once as columns — and writes tile (i, j) of the 2048 × 2048 result:
  the three products (first · first, first · second, second · first) summed and scaled. Windows 0 and 2 read one array,
  windows 1 and 3 another, so each of those two arrays is held in two halves, one per window.
-/
import proofs.«413271_j32796370272774_3_alg».proof.Proof.Gen.KernelIdeal.Launch
import proofs.«413271_j32796370272774_3_alg».proof.Proof.Gen.KernelIdeal.Skeleton
import proofs.«413271_j32796370272774_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every definition below is stated at this parameter
variable (V : (c : Dev nD) → (b : Ref sig .tc) → Buf (Elt F) ((c : Thread nD τ).loc b))

/-- Window `w`'s block of its array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256 × 4800 block and the whole 256 × 256 tile, as rectangles. -/
abbrev r0_in : Rect S256x4800 := Rect.unit (s := S256x4800) ![0, 0] S256x4800.size inb_S256x4800_S256x4800_0_0
abbrev r0_out : Rect S256x256 := Rect.unit (s := S256x256) ![0, 0] S256x256.size inb_S256x256_S256x256_0_0

/-- What the body leaves in the result tile's buffer, from the four input blocks: its one store, over the whole tile. -/
def out0_4 (x0 x1 x2 x3 : Vec F S256x4800 .bf16) : Vec F S256x256 .f32 :=
  View.canon [⟨r0_out, k0_pay1 (View.ld x0 r0_in) (View.ld x1 r0_in) (View.ld x2 r0_in) (View.ld x3 r0_in)⟩]

/-- The one store covers the tile. -/
theorem cover0_4 (p0 : Vec F S256x256 .f32) (y : S256x256.Idx) :
    ∃ pc ∈ ([⟨r0_out, p0⟩] : List (View.Piece (Elt F) S256x256 .f32)), y ∈ pc.1.set :=
  View.cover_of_tiled [⟨r0_out, p0⟩] S256x256.size (by rfl) y

/-- The region's data on core `c`: arrays as found; after the body each input buffer still holds its block and the
    result buffer holds the tile; the invariant is the untouched rest; nothing is owed; the two arrays read through two
    windows are held half and half, the result whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem q0_0 (c : Dev nD) : (dat0 V c).q 0 = fullShare.left := by dsimp only [dat0]
theorem q0_1 (c : Dev nD) : (dat0 V c).q 1 = fullShare.left := by dsimp only [dat0]
theorem q0_2 (c : Dev nD) : (dat0 V c).q 2 = fullShare.right := by dsimp only [dat0]
theorem q0_3 (c : Dev nD) : (dat0 V c).q 3 = fullShare.right := by dsimp only [dat0]

end Cert.KernelIdeal.Fr

end
-- ==== Proof.FrI.D1.lean ====
/-
  The second region (threshold, softmax by rows, first propagation), its data. Eight row blocks of 256 rows; at block i
  the body reads rows of the score matrix and the whole 2048 × 512 feature matrix, and writes the same rows of the
  row-stochastic matrix and of the propagated, clipped features.
-/
import proofs.«413271_j32796370272774_3_alg».proof.Proof.Gen.KernelIdeal.Launch
import proofs.«413271_j32796370272774_3_alg».proof.Proof.Gen.KernelIdeal.Skeleton
import proofs.«413271_j32796370272774_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every definition below is stated at this parameter
variable (V : (c : Dev nD) → (b : Ref sig .tc) → Buf (Elt F) ((c : Thread nD τ).loc b))

/-- Window `w`'s block of its array at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole blocks as rectangles: 256 × 2048 rows, the 2048 × 512 features, 256 × 512 rows. -/
abbrev r1_rows : Rect S256x2048 := Rect.unit (s := S256x2048) ![0, 0] S256x2048.size inb_S256x2048_S256x2048_0_0
abbrev r1_feat : Rect S2048x512 := Rect.unit (s := S2048x512) ![0, 0] S2048x512.size inb_S2048x512_S2048x512_0_0
abbrev r1_res : Rect S256x512 := Rect.unit (s := S256x512) ![0, 0] S256x512.size inb_S256x512_S256x512_0_0

/-- What the body leaves in the row-stochastic rows' buffer: its one store. -/
def out1_2 (x0 : Vec F S256x2048 .f32) : Vec F S256x2048 .bf16 :=
  View.canon [⟨r1_rows, k1_pay1 (View.ld x0 r1_rows)⟩]
/-- What the body leaves in the propagated rows' buffer: its one store. -/
def out1_3 (x0 : Vec F S256x2048 .f32) (x1 : Vec F S2048x512 .bf16) : Vec F S256x512 .bf16 :=
  View.canon [⟨r1_res, k1_pay2 (View.ld x0 r1_rows) (View.ld x1 r1_feat)⟩]

theorem cover1_2 (p0 : Vec F S256x2048 .bf16) (y : S256x2048.Idx) :
    ∃ pc ∈ ([⟨r1_rows, p0⟩] : List (View.Piece (Elt F) S256x2048 .bf16)), y ∈ pc.1.set :=
  View.cover_of_tiled [⟨r1_rows, p0⟩] S256x2048.size (by rfl) y
theorem cover1_3 (p0 : Vec F S256x512 .bf16) (y : S256x512.Idx) :
    ∃ pc ∈ ([⟨r1_res, p0⟩] : List (View.Piece (Elt F) S256x512 .bf16)), y ∈ pc.1.set :=
  View.cover_of_tiled [⟨r1_res, p0⟩] S256x512.size (by rfl) y

/-- The region's data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) := by dsimp only [dat1]
theorem after1_3 (c : Dev nD) (t : Fin cfg1.N) : (dat1 V c).after 3 t = out1_3 (iblk1 V c 0 t) (iblk1 V c 1 t) := by dsimp only [dat1]

end Cert.KernelIdeal.Fr

end
-- ==== Proof.FrI.D2.lean ====
/-
  The third region (second propagation), its data. Eight row blocks of 256 rows; at block i the body reads rows of the
  row-stochastic matrix and the whole 2048 × 512 feature matrix, and writes the same rows of their clipped product.
-/
import proofs.«413271_j32796370272774_3_alg».proof.Proof.Gen.KernelIdeal.Launch
import proofs.«413271_j32796370272774_3_alg».proof.Proof.Gen.KernelIdeal.Skeleton
import proofs.«413271_j32796370272774_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every definition below is stated at this parameter
variable (V : (c : Dev nD) → (b : Ref sig .tc) → Buf (Elt F) ((c : Thread nD τ).loc b))

/-- Window `w`'s block of its array at grid point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_rows : Rect S256x2048 := Rect.unit (s := S256x2048) ![0, 0] S256x2048.size inb_S256x2048_S256x2048_0_0
abbrev r2_feat : Rect S2048x512 := Rect.unit (s := S2048x512) ![0, 0] S2048x512.size inb_S2048x512_S2048x512_0_0
abbrev r2_res : Rect S256x512 := Rect.unit (s := S256x512) ![0, 0] S256x512.size inb_S256x512_S256x512_0_0

/-- What the body leaves in the result rows' buffer: its one store. -/
def out2_2 (x0 : Vec F S256x2048 .bf16) (x1 : Vec F S2048x512 .bf16) : Vec F S256x512 .f32 :=
  View.canon [⟨r2_res, k2_pay1 (View.ld x0 r2_rows) (View.ld x1 r2_feat)⟩]

theorem cover2_2 (p0 : Vec F S256x512 .f32) (y : S256x512.Idx) :
    ∃ pc ∈ ([⟨r2_res, p0⟩] : List (View.Piece (Elt F) S256x512 .f32)), y ∈ pc.1.set :=
  View.cover_of_tiled [⟨r2_res, p0⟩] S256x512.size (by rfl) y

/-- The region's data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end Cert.KernelIdeal.Fr

end
-- ==== Proof.FrI.Fold.lean ====
/-
  The contents of a core's buffers at each boundary between the segments of the main function, as a fold from the
  launch memory: a host stretch leaves what its operations compute; the first region changes only its result array (its
  two operands are each read through two windows and are left as found); the second and third regions leave their arrays
  at what their write-backs fold to and every other buffer as found. No segment writes an argument, so each argument's
  buffer read through the fold is the launch memory's.
-/
import proofs.«413271_j32796370272774_3_alg».proof.Proof.FrI.D0
import proofs.«413271_j32796370272774_3_alg».proof.Proof.FrI.D1
import proofs.«413271_j32796370272774_3_alg».proof.Proof.FrI.D2
import proofs.«413271_j32796370272774_3_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the core's references (what the first region's data take). -/
abbrev V1 : (c : Dev nD) → (b : Ref sig .tc) → Buf (Elt F) ((c : Thread nD τ).loc b) := fun c b => W1 m ρ c b
/-- At the first region's exit: its result array at what the write-backs fold to, every other buffer as entered (the two
    operand arrays among them: an input array is never written). -/
def W2 (c : Dev nD) : Valuation τ sig (Elt F) :=
  Function.update (W1 m ρ c) (Proc.devRef .tc main_v20) ((dat0 (V1 m ρ) c).arrAt 4 cfg0.N)
theorem W2_v20 (c : Dev nD) : W2 m ρ c (Proc.devRef .tc main_v20) = (dat0 (V1 m ρ) c).arrAt 4 cfg0.N := by
  unfold W2; exact Function.update_self ..
theorem W2_of_ne (c : Dev nD) (b : Ref sig .tc) (hb : b ≠ main_v20) :
    W2 m ρ c (Proc.devRef .tc b) = W1 m ρ c (Proc.devRef .tc b) := by
  unfold W2; exact Function.update_of_ne (StableHlo.devRef_ne_of_ne hb) ..
/-- The same read at the core's references (the first region's exit contents). -/
abbrev V2 : (c : Dev nD) → (b : Ref sig .tc) → Buf (Elt F) ((c : Thread nD τ).loc b) := fun c b => W2 m ρ c b

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- At the second region's exit each of its arrays holds what the pipeline leaves and every other buffer what it held
    at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the third region's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the third region's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched: no host operation writes one and no region has one among its arrays, so the fold
    at an argument's buffer walks back to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

end Cert.KernelIdeal.Fr

end
-- ==== Proof.FrI.R0.lean ====
/-
  The first region (the Gram kernel), its body. At every grid point each of the four input buffers holds its window's
  block of its array, whether or not the pipeline fetched it there; from those the body's one store over the whole
  tile leaves the result buffer at the tile the data name; the invariant and the core's debts pass through unread.
-/
import proofs.«413271_j32796370272774_3_alg».proof.Proof.FrI.D0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## What the body finds in each input buffer -/

/-- Input window 0's current buffer holds its block at every point, fetched there or not, for any data whose array
    is the entry contents and whose body leaves the block in place: where the window is not fetched its block index
    has not moved since the point before, so the block kept from there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not, for any data whose array
    is the entry contents and whose body leaves the block in place: where the window is not fetched its block index
    has not moved since the point before, so the block kept from there is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not, for any data whose array
    is the entry contents and whose body leaves the block in place: where the window is not fetched its block index
    has not moved since the point before, so the block kept from there is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not, for any data whose array
    is the entry contents and whose body leaves the block in place: where the window is not fetched its block index
    has not moved since the point before, so the block kept from there is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The same of the region's data. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's triple -/

set_option maxHeartbeats 1000000 in
/-- The body on whole buffers, the four inputs' reading `x0 … x3` and the result's holding anything, runs to the
    continuation with the inputs' as they were and the result's at the tile computed from them: four loads of whole
    blocks, a load of the result buffer whose value nothing uses, and one store over the whole tile, which therefore
    decides every entry of it. -/
theorem sound_kernel0 (c : Dev nD) (E : Set ℕ) (i : grid0.Coords)
    (arg2 : Memref sig .tc .vmem S256x4800 .bf16) (harg2 : arg2.IsWhole) (arg3 : Memref sig .tc .vmem S256x4800 .bf16) (harg3 : arg3.IsWhole)
    (arg4 : Memref sig .tc .vmem S256x4800 .bf16) (harg4 : arg4.IsWhole) (arg5 : Memref sig .tc .vmem S256x4800 .bf16) (harg5 : arg5.IsWhole)
    (arg6 : Memref sig .tc .vmem S256x256 .f32) (harg6 : arg6.IsWhole)
    (x0 x1 x2 x3 : Vec F S256x4800 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1 x2 x3)) -∗ K ⟨⟩))
      ⊢ wp frame (wpE (defs₀ (F := F)) Variants.none c none) E
          (cc0__gram_kernel i arg2 harg2 arg3 harg3 arg4 harg4 arg5 harg5 arg6 harg6) K := by
  simp only [cc0__gram_kernel_eq_skeleton]; unfold cc0__gram_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body obligation, at a generic point -/

/-- What the body is called with at point `t`: the invariant, the core's debts, and each window's current buffer at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the body's triple applies at those blocks; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region's data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrI.R1.lean ====
/-
  The second region (threshold, softmax by rows, first propagation), its body. At every row block the body finds the
  block's rows of the score matrix and the whole feature matrix in its two input buffers (the feature matrix is brought
  in once, at the first block, and stays), overwrites the two output buffers entirely, and leaves the inputs as found.
-/
import proofs.«413271_j32796370272774_3_alg».proof.Proof.Gen.KernelIdeal.Launch
import proofs.«413271_j32796370272774_3_alg».proof.Proof.Gen.KernelIdeal.Skeleton
import proofs.«413271_j32796370272774_3_alg».proof.Proof.Gen.KernelIdeal.Points
import proofs.«413271_j32796370272774_3_alg».proof.Proof.FrI.D1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every definition below is stated at this parameter
variable (V : (c : Dev nD) → (b : Ref sig .tc) → Buf (Elt F) ((c : Thread nD τ).loc b))

/-! ## What the body finds in each input buffer -/

/-- The score rows' buffer holds the block's rows at every point, for any data whose array is the entry contents'
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The feature matrix's buffer holds the whole matrix at every point: brought in at the first point, and at a later
    point the block index has not moved, so what the body left there is still the point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's triple -/

set_option maxHeartbeats 1000000 in
/-- The body on whole buffers, the inputs' at contents `x0`, `x1` and the outputs' at anything, runs to the
    continuation holding the inputs' as they were, the row-stochastic rows' at `out1_2 x0` and the propagated rows' at
    `out1_3 x0 x1`: each output buffer is read once (the value is not used) and then overwritten entirely by one store. -/
theorem sound_kernel1 (c : Dev nD) (E : Set ℕ) (i : grid1.Coords)
    (arg1 : Memref sig .tc .vmem S256x2048 .f32) (harg1 : arg1.IsWhole) (arg2 : Memref sig .tc .vmem S2048x512 .bf16) (harg2 : arg2.IsWhole)
    (arg3 : Memref sig .tc .vmem S256x2048 .bf16) (harg3 : arg3.IsWhole) (arg4 : Memref sig .tc .vmem S256x512 .bf16) (harg4 : arg4.IsWhole)
    (x0 : Vec F S256x2048 .f32) (x1 : Vec F S2048x512 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0) ∗ owns (c : Thread nD τ) arg4 fullShare (out1_3 x0 x1)) -∗ K ⟨⟩))
      ⊢ wp frame (wpE (defs₀ (F := F)) Variants.none c none) E (cc1__softmax_gcn0_kernel i arg1 harg1 arg2 harg2 arg3 harg3 arg4 harg4) K := by
  simp only [cc1__softmax_gcn0_kernel_eq_skeleton]; unfold cc1__softmax_gcn0_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's data, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrI.R2.lean ====
/-
  The third region: the body's triple and the body obligation. Eight row blocks; at block t the body reads a
  256 × 2048 block of rows of the left matrix and the whole 2048 × 512 right matrix from their buffers, reads the
  256 × 512 result buffer (a value it does not use), and stores over all of the result buffer the product of the two,
  each entry replaced by zero where it is below zero. The right matrix sits in one buffer that is filled at the first
  block only; at the later blocks the buffer still holds the same (whole) matrix.
-/
import proofs.«413271_j32796370272774_3_alg».proof.Proof.Gen.KernelIdeal.Launch
import proofs.«413271_j32796370272774_3_alg».proof.Proof.Gen.KernelIdeal.Skeleton
import proofs.«413271_j32796370272774_3_alg».proof.Proof.Gen.KernelIdeal.Points
import proofs.«413271_j32796370272774_3_alg».proof.Proof.FrI.D2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every statement below is made at this parameter
variable (V : (c : Dev nD) → (b : Ref sig .tc) → Buf (Elt F) ((c : Thread nD τ).loc b))

/-! ## What the body finds in each input's buffer -/

/-- The left rows' buffer holds block t of the left matrix at every block t, for any data whose array is the entry
    contents and whose body leaves the block in place: the buffer is refilled at every block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right matrix's buffer holds the (whole) matrix at every block, filled there or not: it is filled at the first
    block, its block index never moves afterwards, and the body leaves it as found. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's triple -/

set_option maxHeartbeats 1000000 in
/-- The body on whole buffers, the two inputs' reading x0 and x1 and the result's holding anything, runs to a state
    where the inputs' are as they were and the result's holds the one store's payload over the whole buffer: the two
    input loads read x0 and x1, the load of the result buffer yields a value nothing uses, and the store's rectangle
    is the whole buffer, so what any view reads afterwards is the payload. -/
theorem sound_kernel2 (c : Dev nD) (E : Set ℕ) (i : grid2.Coords) (arg1 : Memref sig .tc .vmem S256x2048 .bf16) (harg1 : arg1.IsWhole) (arg2 : Memref sig .tc .vmem S2048x512 .bf16) (harg2 : arg2.IsWhole) (arg3 : Memref sig .tc .vmem S256x512 .f32) (harg3 : arg3.IsWhole)
    (x0 : Vec F S256x2048 .bf16) (x1 : Vec F S2048x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__gcn_layer_kernel i arg1 harg1 arg2 harg2 arg3 harg3) K := by
  simp only [cc2__gcn_layer_kernel_eq_skeleton]; unfold cc2__gcn_layer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic block -/

/-- What the body is called with at block t: the region's invariant, the core's debts, and the three buffers, the
    inputs' at what they hold before the body and the result's at anything, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the same with each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any block: the inputs' buffers hold their blocks, so the body's triple applies; the invariant and the
    core's debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The region's body obligation, at every block. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrI.Run.lean ====
/-
  The run of the main function as six segments — three host stretches and three kernel regions — over the thread state
  "every unscoped buffer at the boundary's contents, the generator register at some state, nothing owed", and the frame
  claim read off the last boundary: every argument array ends holding its launch contents.

  The first region reads each of its two operand arrays through two windows. Its arrays are therefore not distinct
  buffers, and the region's entry and exit are proved by hand: at entry each shared array's full share is split into
  its left and right halves, one per window; at exit the two halves (whose contents an input window never changes) are
  joined back, and the result array is held at what the write-backs fold to.
-/
import proofs.«413271_j32796370272774_3_alg».proof.Proof.FrI.Fold
import proofs.«413271_j32796370272774_3_alg».proof.Proof.FrI.R0
import proofs.«413271_j32796370272774_3_alg».proof.Proof.FrI.R1
import proofs.«413271_j32796370272774_3_alg».proof.Proof.FrI.R2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first region's arrays among the unscoped buffers -/

section Region0Arrays

variable (V : (c : Dev nD) → (b : Ref sig .tc) → Buf (Elt F) ((c : Thread nD τ).loc b))

theorem share0_0 (c : Dev nD) : (dat0 V c).share 0 = fullShare.left := by
  unfold Pipeline.Dat.share; rw [if_neg (by decide)]; exact q0_0 V c
theorem share0_1 (c : Dev nD) : (dat0 V c).share 1 = fullShare.left := by
  unfold Pipeline.Dat.share; rw [if_neg (by decide)]; exact q0_1 V c
theorem share0_2 (c : Dev nD) : (dat0 V c).share 2 = fullShare.right := by
  unfold Pipeline.Dat.share; rw [if_neg (by decide)]; exact q0_2 V c
theorem share0_3 (c : Dev nD) : (dat0 V c).share 3 = fullShare.right := by
  unfold Pipeline.Dat.share; rw [if_neg (by decide)]; exact q0_3 V c
theorem share0_4 (c : Dev nD) : (dat0 V c).share 4 = fullShare := by
  unfold Pipeline.Dat.share; rw [if_pos (by decide)]

theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v16) ↦{fullShare} X main_v16) ∗ (((c : Thread nD τ).loc main_v19) ↦{fullShare} X main_v19)
          ∗ (((c : Thread nD τ).loc main_v20) ↦{fullShare} X main_v20)) := by
  unfold Pipeline.arrBufs
  exact bigSep_eq_bigSepL_of_eq [main_v16, main_v19, main_v20] (by decide) (by decide) _

theorem arrays0_eq (c : Dev nD) (Fn : (w : Fin cfg0.W) → Buf (Elt F) ((cfg0.win w).arr.view.loc (c.tc : Thread nD τ))) :
    (dat0 V c).arrays Fn
      = iprop((((c : Thread nD τ).loc main_v16) ↦{fullShare.left} Fn 0) ∗ (((c : Thread nD τ).loc main_v19) ↦{fullShare.left} Fn 1)
          ∗ (((c : Thread nD τ).loc main_v16) ↦{fullShare.right} Fn 2) ∗ (((c : Thread nD τ).loc main_v19) ↦{fullShare.right} Fn 3)
          ∗ (((c : Thread nD τ).loc main_v20) ↦{fullShare} Fn 4)) := by
  unfold Pipeline.Dat.arrays
  rw [bigSep_W0, (arr_whole0 0).set_eq_univ, (arr_whole0 1).set_eq_univ,
    (arr_whole0 4).set_eq_univ, share0_0, share0_1, share0_2, share0_3, share0_4]

theorem unscopedBufs_split0 (c : Dev nD) (X : (b : Ref sig .tc) → Buf (Elt F) ((c : Thread nD τ).loc b)) :
    (unscopedBufs c X : sProp 𝕄)
      = iprop((Pipeline.arrBufs (Ix := Unit) (Name := ℕ) (U := UR sig nD τ) (Lvl := ℕ) spec0 c X : sProp 𝕄) ∗ Pipeline.unscopedRest spec0 c X) :=
  Pipeline.unscopedBufs_split₀ cfgs 0 winFacts₀0.arr_unscoped c X

/-- A whole buffer at the full share is its left half beside its right half, -/
theorem pt_halve {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
/-- and the two halves at one contents join back to the full share. -/
theorem pt_join {ℓ : Loc nD τ sig} (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

/-- ENTRY: a core's unscoped buffers at contents `V c` are the region's arrays at the data's entry contents — the two
    shared arrays' full shares dealt half and half to the two windows on each — and the unscoped rest. -/
theorem arrays0_of_bufs (c : Dev nD) :
    (unscopedBufs c (V c) : sProp 𝕄)
      ⊢ iprop((dat0 V c).arrays ((dat0 V c).arrAt · 0) ∗ Pipeline.unscopedRest spec0 c (V c)) := by
  rw [unscopedBufs_split0, arrBufs0_eq, arrays0_eq,
    show (dat0 V c).arrAt 0 0 = V c main_v16 from A_eq0 V c 0,
    show (dat0 V c).arrAt 1 0 = V c main_v19 from A_eq0 V c 1,
    show (dat0 V c).arrAt 2 0 = V c main_v16 from A_eq0 V c 2,
    show (dat0 V c).arrAt 3 0 = V c main_v19 from A_eq0 V c 3,
    show (dat0 V c).arrAt 4 0 = V c main_v20 from A_eq0 V c 4]
  iintro ⟨⟨Ha, Hb, Hc⟩, Hrest⟩
  ihave Hax := pt_halve (V c main_v16) $$ Ha
  icases Hax with ⟨Hal, Har⟩
  ihave Hbx := pt_halve (V c main_v19) $$ Hb
  icases Hbx with ⟨Hbl, Hbr⟩
  isplitr [Hrest]
  · isplitl [Hal]; · iexact Hal
    isplitl [Hbl]; · iexact Hbl
    isplitl [Har]; · iexact Har
    isplitl [Hbr]; · iexact Hbr
    iexact Hc
  · iexact Hrest

/-- EXIT: the region's arrays at their final contents and the unscoped rest at `V c` are the core's unscoped buffers at
    any contents `X'` that have the result array at what the write-backs fold to and agree with `V c` elsewhere: an
    input window never writes its array, so the two halves of a shared array hold the same contents and join. -/
theorem bufs_of_arrays0 (c : Dev nD) (X' : (b : Ref sig .tc) → Buf (Elt F) ((c : Thread nD τ).loc b))
    (h20 : X' main_v20 = (dat0 V c).arrAt 4 cfg0.N) (hne : ∀ b, b ≠ main_v20 → X' b = V c b) :
    iprop((dat0 V c).arrays ((dat0 V c).arrAt · cfg0.N) ∗ Pipeline.unscopedRest spec0 c (V c)) ⊢ (unscopedBufs c X' : sProp 𝕄) := by
  have hrest : (Pipeline.unscopedRest (Ix := Unit) (Name := ℕ) (U := UR sig nD τ) (Lvl := ℕ) spec0 c X' : sProp 𝕄)
      = Pipeline.unscopedRest spec0 c (V c) := by
    unfold Pipeline.unscopedRest
    exact bigSep_congr fun b hb => by
      rw [hne b fun e => (Finset.mem_sdiff.mp hb).2 (e ▸ Finset.mem_image.mpr ⟨4, Finset.mem_univ _, rfl⟩)]
  rw [unscopedBufs_split0, arrBufs0_eq, arrays0_eq, hrest,
    hne main_v16 (by decide), hne main_v19 (by decide), h20,
    show (dat0 V c).arrAt 0 cfg0.N = V c main_v16 from ((dat0 V c).arrAt_in 0 rfl _).trans (A_eq0 V c 0),
    show (dat0 V c).arrAt 1 cfg0.N = V c main_v19 from ((dat0 V c).arrAt_in 1 rfl _).trans (A_eq0 V c 1),
    show (dat0 V c).arrAt 2 cfg0.N = V c main_v16 from ((dat0 V c).arrAt_in 2 rfl _).trans (A_eq0 V c 2),
    show (dat0 V c).arrAt 3 cfg0.N = V c main_v19 from ((dat0 V c).arrAt_in 3 rfl _).trans (A_eq0 V c 3)]
  iintro ⟨⟨Hal, Hbl, Har, Hbr, Hc⟩, Hrest⟩
  isplitr [Hrest]
  · isplitl [Hal Har]
    · iapply pt_join (V c main_v16)
      isplitl [Hal] <;> iassumption
    isplitl [Hbl Hbr]
    · iapply pt_join (V c main_v19)
      isplitl [Hbl] <;> iassumption
    iexact Hc
  · iexact Hrest

end Region0Arrays

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at what its operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

-- an entailment of the library stated over the pinned configuration unifies with the printed one only when unification
-- may unfold plain definitions in a metavariable's type
set_option backward.isDefEq.respectTransparency.types false in
/-- Region 0 over the thread state: entered from every unscoped buffer at `W1`, left at `W2`. Two of its three arrays are
    each read through two windows, so they are split out of the unscoped buffers by hand (`arrays0_of_bufs`: each
    shared array's full share dealt half and half to its two windows) and put back at the exit contents
    (`bufs_of_arrays0`: the halves joined, the result array at what the write-backs fold to); the generator register goes
    into the class invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) :=
      arrays0_of_bufs (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) :=
      bufs_of_arrays0 (V1 m ρ) c (V2 m ρ c) (W2_v20 m ρ c) (fun b hb => W2_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- an entailment of the library stated over the pinned configuration unifies with the printed one only when unification
-- may unfold plain definitions in a metavariable's type
set_option backward.isDefEq.respectTransparency.types false in
/-- Region 1 over the thread state: entered from every unscoped buffer at `W3`, left at `W4`. Its arrays are split
    out of the unscoped buffers and put back at the exit contents; the generator register goes into the class invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- an entailment of the library stated over the pinned configuration unifies with the printed one only when unification
-- may unfold plain definitions in a metavariable's type
set_option backward.isDefEq.respectTransparency.types false in
/-- Region 2 over the thread state: entered from every unscoped buffer at `W5`, left at `W6`. Its arrays are split
    out of the unscoped buffers and put back at the exit contents; the generator register goes into the class invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

/-- The six segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The main function is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters every weakly fair execution of the main function terminates, nothing faulting,
    and every final state has each unscoped buffer of each core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame claim at any float family: every argument array ends holding its launch contents, each read off the last
    boundary through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.KernelIdeal.Fr

end
-- ==== Proof.Spec.lean ====
/-
  The mathematics of the graph-learning layer, as plain functions over the extended reals.

  From the pretrained label embedding `X` (2048 × 300) and the head weights `Wp` (16 × 300): each head `h` scales the
  coordinates of a label's vector by the squared weights, and the scaled vector is divided by the larger of its Euclidean
  norm and a small constant. The score of two labels is the mean over the heads of the inner products of their normalised
  vectors. Two spellings of the scores are written down here. `scoresK` flattens (head, coordinate) into one axis of
  4800 columns, adds to the Gram matrix of the flattened rows the two cross terms with the rows' remainder `z - z`, and
  multiplies by one sixteenth; its norm is the root of the inner product of the squared vector with the squared scales.
  `scoresR` sums per head and coordinate and divides by sixteen; its norm is the root of the sum of squares of the scaled
  vector. `result` is everything after the scores: entries below the threshold are replaced by a large negative number,
  each row is turned into a softmax row, and two rounds of "multiply by the row-stochastic matrix, clip at zero" are
  applied to the label embedding times the first and second weight matrix.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A matrix of extended reals with `a` rows and `b` columns. -/
abbrev Arr2 (a b : Nat) : Type := (⟨2, ![a, b]⟩ : Shape).Idx → EReal

/-- The small constant the norm is clamped below by. -/
def eps : EReal := Ideal.ofBits .f32 0x2B8CBCCC#32
/-- The threshold under which a score is discarded. -/
def thr : EReal := Ideal.ofBits .f32 0x3DCCCCCD#32
/-- The large negative number a discarded score is replaced by. -/
def negBig : EReal := Ideal.ofBits .f32 0xE0AD78EC#32
/-- One sixteenth, as a float word. -/
def c16th : EReal := Ideal.ofBits .f32 0x3D800000#32
/-- Sixteen, as a float word. -/
def c16 : EReal := Ideal.ofBits .f32 0x41800000#32

section Scores

variable (X : Arr2 2048 300) (Wp : Arr2 16 300)

/-- The squared head weight. -/
def w2 (h : Fin 16) (e : Fin 300) : EReal := Wp (ix2 h e) * Wp (ix2 h e)
/-- Label `l`'s vector scaled by head `h`'s squared weights. -/
def hraw (l : Fin 2048) (h : Fin 16) (e : Fin 300) : EReal := X (ix2 l e) * w2 Wp h e

/-- The clamped norm, from the squares of the vector against the squares of the scales. -/
def nrmK (l : Fin 2048) (h : Fin 16) : EReal :=
  max (Ideal.sqrt (∑ e : Fin 300, (X (ix2 l e) * X (ix2 l e)) * (w2 Wp h e * w2 Wp h e))) eps
/-- The clamped norm, from the squares of the scaled vector. -/
def nrmR (l : Fin 2048) (h : Fin 16) : EReal :=
  max (Ideal.sqrt (∑ e : Fin 300, hraw X Wp l h e * hraw X Wp l h e)) eps

/-- Column `k` of the flattened axis is head `k / 300`, coordinate `k % 300`. -/
def headOf (k : Fin 4800) : Fin 16 := ⟨k.val / 300, by have := k.isLt; omega⟩
def coordOf (k : Fin 4800) : Fin 300 := ⟨k.val % 300, Nat.mod_lt _ (by decide)⟩

/-- The normalised vector on the flattened axis. -/
def zK (l : Fin 2048) (k : Fin 4800) : EReal :=
  Ideal.div (hraw X Wp l (headOf k) (coordOf k)) (nrmK X Wp l (headOf k))
/-- Its remainder against itself. -/
def loK (l : Fin 2048) (k : Fin 4800) : EReal := zK X Wp l k - zK X Wp l k
/-- The scores on the flattened axis: the Gram term and the two cross terms, times one sixteenth. -/
def scoresK (i j : Fin 2048) : EReal :=
  ((∑ k : Fin 4800, zK X Wp i k * zK X Wp j k + ∑ k : Fin 4800, zK X Wp i k * loK X Wp j k)
    + ∑ k : Fin 4800, loK X Wp i k * zK X Wp j k) * c16th

/-- The normalised vector, per head and coordinate. -/
def hnR (l : Fin 2048) (h : Fin 16) (e : Fin 300) : EReal := Ideal.div (hraw X Wp l h e) (nrmR X Wp l h)
/-- The scores as the mean over the heads of the per-head inner products. -/
def scoresR (i j : Fin 2048) : EReal :=
  Ideal.div (∑ h : Fin 16, ∑ e : Fin 300, hnR X Wp i h e * hnR X Wp j h e) c16

end Scores

section Tail

variable (S : Fin 2048 → Fin 2048 → EReal) (E : Arr2 2048 512) (W0 W1 : Arr2 512 512)

/-- A score at or above the threshold is kept, any other replaced. -/
def sel (i j : Fin 2048) : EReal :=
  Scalar.select (FloatOps.cmpf (F := Ideal) (φ := .f32) .oge (S i j) thr) (S i j) negBig
/-- A row's largest kept score. -/
def rowMax (i : Fin 2048) : EReal := (Finset.univ : Finset (Fin 2048)).fold max (⊥ : EReal) (fun j => sel S i j)
/-- The softmax numerator. -/
def pexp (i j : Fin 2048) : EReal := Ideal.exp (sel S i j - rowMax S i)
/-- The softmax denominator. -/
def den (i : Fin 2048) : EReal := ∑ j : Fin 2048, pexp S i j
/-- The row-stochastic matrix. -/
def adj (i j : Fin 2048) : EReal := Ideal.div (pexp S i j) (den S i)
/-- The label embedding times the first weight matrix. -/
def h0 (i : Fin 2048) (n : Fin 512) : EReal := ∑ k : Fin 512, E (ix2 i k) * W0 (ix2 k n)
/-- The first round. -/
def x0 (i : Fin 2048) (n : Fin 512) : EReal := max (∑ j : Fin 2048, adj S i j * h0 E W0 j n) 0
/-- The first round times the second weight matrix. -/
def h1 (i : Fin 2048) (n : Fin 512) : EReal := ∑ k : Fin 512, x0 S E W0 i k * W1 (ix2 k n)
/-- The second round. -/
def out (i : Fin 2048) (n : Fin 512) : EReal := max (∑ j : Fin 2048, adj S i j * h1 S E W0 W1 j n) 0
/-- The layer's result as a matrix. -/
def result : Arr2 2048 512 := fun y => out S E W0 W1 (y 0) (y 1)

end Tail

end Cert.Spec

end
-- ==== Proof.SpecK.lean ====
/-
  The three tiled stages as functions of whole matrices: the compensated Gram matrix of two 2048 × 4800 operands, and
  one propagation step "multiply a 2048 × 2048 matrix by a 2048 × 512 feature matrix, clip at zero".
-/
import proofs.«413271_j32796370272774_3_alg».proof.Proof.Spec

noncomputable section

open scoped BigOperators

namespace Cert.Spec

open Idealize.ShloMosaic Idealize.ShloMosaic.ValueIdx

/-- The compensated Gram entry: first · first, first · second, second · first over the 4800 columns, times one sixteenth. -/
def gram (hi lo : Arr2 2048 4800) (i j : Fin 2048) : EReal :=
  ((∑ k : Fin 4800, hi (ix2 i k) * hi (ix2 j k) + ∑ k : Fin 4800, hi (ix2 i k) * lo (ix2 j k))
    + ∑ k : Fin 4800, lo (ix2 i k) * hi (ix2 j k)) * c16th

/-- One propagation step: row `i` of `A` against column `n` of `H`, clipped at zero. -/
def prop (A : Fin 2048 → Fin 2048 → EReal) (H : Arr2 2048 512) (i : Fin 2048) (n : Fin 512) : EReal :=
  max (∑ j : Fin 2048, A i j * H (ix2 j n)) 0

/-- A feature product: row `i` of `E` against column `n` of `W`. -/
def feat (E : Arr2 2048 512) (W : Arr2 512 512) (i : Fin 2048) (n : Fin 512) : EReal :=
  ∑ k : Fin 512, E (ix2 i k) * W (ix2 k n)

/-- The scores on the flattened axis are the compensated Gram matrix of the flattened normalised vectors and their remainder. -/
theorem scoresK_eq_gram (X : Arr2 2048 300) (Wp : Arr2 16 300) (i j : Fin 2048) :
    scoresK X Wp i j = gram (fun y => zK X Wp (y 0) (y 1)) (fun y => loK X Wp (y 0) (y 1)) i j := rfl

/-- The layer's result from the stages: the scores, the softmax rows, two propagation steps over two feature products. -/
theorem result_eq (S : Fin 2048 → Fin 2048 → EReal) (E : Arr2 2048 512) (W0 W1 : Arr2 512 512) (y : (⟨2, ![2048, 512]⟩ : Shape).Idx) :
    result S E W0 W1 y
      = prop (adj S) (fun z => feat (fun u => prop (adj S) (fun v => feat E W0 (v 0) (v 1)) (u 0) (u 1)) W1 (z 0) (z 1)) (y 0) (y 1) := rfl

end Cert.Spec

end
-- ==== Proof.Val.K0.lean ====
/-
  The first region's result: the 2048 × 2048 array the Gram stage leaves is, entry by entry, the compensated Gram
  matrix of its two 2048 × 4800 operands. Tile (i, j) of the grid multiplies row block i against row block j along
  the 4800 columns three times (first · first, first · second, second · first), adds the three products and scales by
  one sixteenth; row r of row block i is row 256 · i + r of the operand, so entry (p, q) of tile (i, j) is the Gram
  entry (256 · i + p, 256 · j + q), and the 64 tiles fill the array.
-/
import proofs.«413271_j32796370272774_3_alg».proof.Proof.FrI.D0
import proofs.«413271_j32796370272774_3_alg».proof.Proof.SpecK
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe
open Idealize.ShloMosaic.Pipeline (Dat)
open scoped BigOperators

/-! ## One product of two row blocks along the columns, at an entry -/

theorem k0_lhs_0 (i : S256x256.Idx) (q : dot_S256x4800_S256x4800_S256x256_1_1_0_0_n_n.contr.Idx) :
    (dot_S256x4800_S256x4800_S256x256_1_1_0_0_n_n.lhsIdx i q 0).val = (i 0).val := by
  unfold DotDims.lhsIdx
  rw [dif_neg (show ¬(0 : Fin S256x4800.rank) ∈ dot_S256x4800_S256x4800_S256x256_1_1_0_0_n_n.lhsBatch by decide), dif_pos (show (0 : Fin S256x4800.rank) ∈ dot_S256x4800_S256x4800_S256x256_1_1_0_0_n_n.lhsNonContracting by decide)]
  rfl
theorem k0_lhs_1 (i : S256x256.Idx) (q : dot_S256x4800_S256x4800_S256x256_1_1_0_0_n_n.contr.Idx) :
    (dot_S256x4800_S256x4800_S256x256_1_1_0_0_n_n.lhsIdx i q 1).val = (q ⟨0, by decide⟩).val :=
  dot_S256x4800_S256x4800_S256x256_1_1_0_0_n_n.lhsIdx_val_of_single rfl i q
theorem k0_rhs_0 (i : S256x256.Idx) (q : dot_S256x4800_S256x4800_S256x256_1_1_0_0_n_n.contr.Idx) :
    (dot_S256x4800_S256x4800_S256x256_1_1_0_0_n_n.rhsIdx i q 0).val = (i 1).val := by
  unfold DotDims.rhsIdx
  rw [dif_neg (show ¬(0 : Fin S256x4800.rank) ∈ dot_S256x4800_S256x4800_S256x256_1_1_0_0_n_n.rhsBatch by decide), dif_pos (show (0 : Fin S256x4800.rank) ∈ dot_S256x4800_S256x4800_S256x256_1_1_0_0_n_n.rhsNonContracting by decide)]
  rfl
theorem k0_rhs_1 (i : S256x256.Idx) (q : dot_S256x4800_S256x4800_S256x256_1_1_0_0_n_n.contr.Idx) :
    (dot_S256x4800_S256x4800_S256x256_1_1_0_0_n_n.rhsIdx i q 1).val = (q ⟨0, by decide⟩).val :=
  dot_S256x4800_S256x4800_S256x256_1_1_0_0_n_n.rhsIdx_val_of_single rfl i q

/-- Rows of `a` against rows of `b`: entry (p, q) of the product into a zero accumulator is the sum over the 4800
    columns of row p of `a` times row q of `b`. -/
theorem k0_rows_dot_apply (a b : FVec Ideal S256x4800 .bf16) (p q : Fin 256) :
    matmul dot_S256x4800_S256x4800_S256x256_1_1_0_0_n_n none a b (constant (F := Ideal) S256x256 .f32 0x00000000#32) (ix2 p q)
      = ∑ k : Fin 4800, a (ix2 p k) * b (ix2 q k) := by
  simp only [matmul]
  rw [Ideal.matmul_constant_zero_apply, ← Equiv.sum_comp (contrEquiv1 dot_S256x4800_S256x4800_S256x256_1_1_0_0_n_n 4800 rfl rfl).symm]
  refine Finset.sum_congr rfl fun k _ => ?_
  have hk := contrEquiv1_symm_val dot_S256x4800_S256x4800_S256x256_1_1_0_0_n_n 4800 rfl rfl k
  have el : dot_S256x4800_S256x4800_S256x256_1_1_0_0_n_n.lhsIdx (ix2 p q) ((contrEquiv1 dot_S256x4800_S256x4800_S256x256_1_1_0_0_n_n 4800 rfl rfl).symm k) = ix2 p k := funext fun a => Fin.ext (by
    match a with
    | ⟨0, _⟩ => exact k0_lhs_0 _ _
    | ⟨1, _⟩ => exact (k0_lhs_1 _ _).trans hk)
  have er : dot_S256x4800_S256x4800_S256x256_1_1_0_0_n_n.rhsIdx (ix2 p q) ((contrEquiv1 dot_S256x4800_S256x4800_S256x256_1_1_0_0_n_n 4800 rfl rfl).symm k) = ix2 q k := funext fun a => Fin.ext (by
    match a with
    | ⟨0, _⟩ => exact k0_rhs_0 _ _
    | ⟨1, _⟩ => exact (k0_rhs_1 _ _).trans hk)
  rw [el, er]

/-! ## The body's arithmetic at an entry -/

/-- The body's value as the three products added and scaled. -/
theorem k0_pay_eq {F : FTy → Type} [FloatOps F] (x0 x1 x2 x3 : Vec F S256x4800 .bf16) :
    k0_pay1 x0 x1 x2 x3
      = mulf (addf (addf (matmul dot_S256x4800_S256x4800_S256x256_1_1_0_0_n_n none x0 x2 (constant S256x256 .f32 0x00000000#32))
                         (matmul dot_S256x4800_S256x4800_S256x256_1_1_0_0_n_n none x0 x3 (constant S256x256 .f32 0x00000000#32)))
                   (matmul dot_S256x4800_S256x4800_S256x256_1_1_0_0_n_n none x1 x2 (constant S256x256 .f32 0x00000000#32)))
             (broadcast S256x256 (Scalar.ofBits .f32 0x3D800000#32)) := by
  unfold k0_pay1
  simp only [shapeCast_self]

/-- Entry (p, q) of the body's value: first · first, first · second, second · first over the columns, times one sixteenth. -/
theorem k0_pay_apply (x0 x1 x2 x3 : Vec Ideal S256x4800 .bf16) (p q : Fin 256) :
    (k0_pay1 x0 x1 x2 x3 : FVec Ideal S256x256 .f32) (ix2 p q)
      = ((∑ k : Fin 4800, x0 (ix2 p k) * x2 (ix2 q k) + ∑ k : Fin 4800, x0 (ix2 p k) * x3 (ix2 q k))
          + ∑ k : Fin 4800, x1 (ix2 p k) * x2 (ix2 q k)) * Cert.Spec.c16th := by
  rw [k0_pay_eq, mulf_apply, addf_apply, addf_apply, broadcast_apply, k0_rows_dot_apply, k0_rows_dot_apply, k0_rows_dot_apply]
  rfl

/-! ## Row blocks of the operands, and tiles of the result -/

-- the contents of the core's buffers when the region is entered
variable (V : (c : Dev nD) → (b : Ref sig .tc) → Buf (Elt Ideal) ((c : Thread nD τ).loc b))

theorem k0_hz : (![0, 0] : Fin 2 → Nat) = fun _ => 0 := funext fun a => by
  match a with
  | ⟨0, _⟩ => rfl
  | ⟨1, _⟩ => rfl

/-- The index maps over the 64 tiles: the first two windows follow the tile's row, the next two its column, all four
    take every column of their operand, and the tile's row and column stay below eight. -/
theorem k0_idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (1 : Fin 2) ∧ win0_2.index t (1 : Fin 2) = 0
    ∧ win0_3.index t (0 : Fin 2) = win0_4.index t (1 : Fin 2) ∧ win0_3.index t (1 : Fin 2) = 0
    ∧ win0_4.index t (0 : Fin 2) ≤ 7 ∧ win0_4.index t (1 : Fin 2) ≤ 7 :=
  (by decide +kernel : ∀ t : Fin grid0.N, _)

/-- Every tile of the 8 × 8 tiling is some grid point's. -/
theorem k0_idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-- Row `p` of the first window's block is row (tile row) · 256 + p of the first operand. -/
theorem k0_rows_w0 (c : Dev nD) (t : Fin cfg0.N) (p : Fin 256) (k : Fin 4800) (r : Fin 2048)
    (hr : r.val = win0_4.index t (0 : Fin 2) * 256 + p.val) :
    (iblk0 V c 0 t : Vec Ideal S256x4800 .bf16) (ix2 p k) = (V c main_v16 : S2048x4800.Idx → EReal) (ix2 r k) := by
  obtain ⟨e0, e1, -⟩ := k0_idx_facts t
  show (V c main_v16 : S2048x4800.Idx → EReal) (((cfg0.win 0).blk t).view.emb (ix2 p k)) = _
  refine congrArg _ (funext fun a => Fin.ext ?_)
  match a with
  | ⟨0, _⟩ => show win0_0.index t (0 : Fin 2) * 256 + 1 * p.val = r.val; omega
  | ⟨1, _⟩ => show win0_0.index t (1 : Fin 2) * 4800 + 1 * k.val = k.val; omega

/-- Row `p` of the second window's block is row (tile row) · 256 + p of the second operand. -/
theorem k0_rows_w1 (c : Dev nD) (t : Fin cfg0.N) (p : Fin 256) (k : Fin 4800) (r : Fin 2048)
    (hr : r.val = win0_4.index t (0 : Fin 2) * 256 + p.val) :
    (iblk0 V c 1 t : Vec Ideal S256x4800 .bf16) (ix2 p k) = (V c main_v19 : S2048x4800.Idx → EReal) (ix2 r k) := by
  obtain ⟨-, -, e0, e1, -⟩ := k0_idx_facts t
  show (V c main_v19 : S2048x4800.Idx → EReal) (((cfg0.win 1).blk t).view.emb (ix2 p k)) = _
  refine congrArg _ (funext fun a => Fin.ext ?_)
  match a with
  | ⟨0, _⟩ => show win0_1.index t (0 : Fin 2) * 256 + 1 * p.val = r.val; omega
  | ⟨1, _⟩ => show win0_1.index t (1 : Fin 2) * 4800 + 1 * k.val = k.val; omega

/-- Row `q` of the third window's block is row (tile column) · 256 + q of the first operand. -/
theorem k0_rows_w2 (c : Dev nD) (t : Fin cfg0.N) (q : Fin 256) (k : Fin 4800) (r : Fin 2048)
    (hr : r.val = win0_4.index t (1 : Fin 2) * 256 + q.val) :
    (iblk0 V c 2 t : Vec Ideal S256x4800 .bf16) (ix2 q k) = (V c main_v16 : S2048x4800.Idx → EReal) (ix2 r k) := by
  obtain ⟨-, -, -, -, e0, e1, -⟩ := k0_idx_facts t
  show (V c main_v16 : S2048x4800.Idx → EReal) (((cfg0.win 2).blk t).view.emb (ix2 q k)) = _
  refine congrArg _ (funext fun a => Fin.ext ?_)
  match a with
  | ⟨0, _⟩ => show win0_2.index t (0 : Fin 2) * 256 + 1 * q.val = r.val; omega
  | ⟨1, _⟩ => show win0_2.index t (1 : Fin 2) * 4800 + 1 * k.val = k.val; omega

/-- Row `q` of the fourth window's block is row (tile column) · 256 + q of the second operand. -/
theorem k0_rows_w3 (c : Dev nD) (t : Fin cfg0.N) (q : Fin 256) (k : Fin 4800) (r : Fin 2048)
    (hr : r.val = win0_4.index t (1 : Fin 2) * 256 + q.val) :
    (iblk0 V c 3 t : Vec Ideal S256x4800 .bf16) (ix2 q k) = (V c main_v19 : S2048x4800.Idx → EReal) (ix2 r k) := by
  obtain ⟨-, -, -, -, -, -, e0, e1, -⟩ := k0_idx_facts t
  show (V c main_v19 : S2048x4800.Idx → EReal) (((cfg0.win 3).blk t).view.emb (ix2 q k)) = _
  refine congrArg _ (funext fun a => Fin.ext ?_)
  match a with
  | ⟨0, _⟩ => show win0_3.index t (0 : Fin 2) * 256 + 1 * q.val = r.val; omega
  | ⟨1, _⟩ => show win0_3.index t (1 : Fin 2) * 4800 + 1 * k.val = k.val; omega

/-! ## What a tile's grid point writes, and the whole array -/

/-- Entry (p, q) of the body's value at tile `t`, from the four row blocks it reads, is the Gram entry of the rows the
    tile's row and column name. -/
theorem k0_tile_entry (c : Dev nD) (t : Fin cfg0.N) (p q : Fin 256) (I J : Fin 2048)
    (hI : I.val = win0_4.index t (0 : Fin 2) * 256 + p.val) (hJ : J.val = win0_4.index t (1 : Fin 2) * 256 + q.val) :
    (k0_pay1 (iblk0 V c 0 t) (iblk0 V c 1 t) (iblk0 V c 2 t) (iblk0 V c 3 t) : FVec Ideal S256x256 .f32) (ix2 p q)
      = Cert.Spec.gram (V c main_v16) (V c main_v19) I J := by
  refine (k0_pay_apply (iblk0 V c 0 t) (iblk0 V c 1 t) (iblk0 V c 2 t) (iblk0 V c 3 t) p q).trans ?_
  unfold Cert.Spec.gram
  refine congrArg (· * Cert.Spec.c16th) ?_
  refine congrArg₂ (· + ·) (congrArg₂ (· + ·) ?_ ?_) ?_
  · exact Finset.sum_congr rfl fun k _ => congrArg₂ (· * ·) (k0_rows_w0 V c t p k I hI) (k0_rows_w2 V c t q k J hJ)
  · exact Finset.sum_congr rfl fun k _ => congrArg₂ (· * ·) (k0_rows_w0 V c t p k I hI) (k0_rows_w3 V c t q k J hJ)
  · exact Finset.sum_congr rfl fun k _ => congrArg₂ (· * ·) (k0_rows_w1 V c t p k I hI) (k0_rows_w2 V c t q k J hJ)

/-- What grid point `t` writes back is tile `t` of the Gram matrix of the operands as the region finds them. -/
theorem k0_flushed (c : Dev nD) (t : Fin cfg0.N) :
    (dat0 V c).flushed 4 t
      = ((cfg0.win 4).blk t).view.read (Elt Ideal) (fun y => Cert.Spec.gram (V c main_v16) (V c main_v19) (y 0) (y 1)) := by
  show (cfg0.win 4).cut (grid0.coords t) ((dat0 V c).after 4 t) = _
  rw [after0_4]
  unfold out0_4
  rw [View.canon_unit_zero k0_hz]
  simp only [View.ld_unit_zero (S := S256x4800) k0_hz]
  funext y
  have hy : (cfg0.win 4).xinj (grid0.coords t) y = ix2 (⟨(y 0).val, (y 0).isLt⟩ : Fin 256) (⟨(y 1).val, (y 1).isLt⟩ : Fin 256) :=
    funext fun a => by
      match a with
      | ⟨0, _⟩ => rfl
      | ⟨1, _⟩ => rfl
  show (k0_pay1 (iblk0 V c 0 t) (iblk0 V c 1 t) (iblk0 V c 2 t) (iblk0 V c 3 t) : FVec Ideal S256x256 .f32) ((cfg0.win 4).xinj (grid0.coords t) y)
      = Cert.Spec.gram (V c main_v16) (V c main_v19) ((((cfg0.win 4).blk t).view.emb y) 0) ((((cfg0.win 4).blk t).view.emb y) 1)
  rw [hy]
  exact k0_tile_entry V c t ⟨(y 0).val, (y 0).isLt⟩ ⟨(y 1).val, (y 1).isLt⟩ ((((cfg0.win 4).blk t).view.emb y) 0) ((((cfg0.win 4).blk t).view.emb y) 1)
    (by show win0_4.index t (0 : Fin 2) * 256 + 1 * (y 0).val = win0_4.index t (0 : Fin 2) * 256 + (y 0).val; omega)
    (by show win0_4.index t (1 : Fin 2) * 256 + 1 * (y 1).val = win0_4.index t (1 : Fin 2) * 256 + (y 1).val; omega)

/-- An index of the result is in tile `t` iff each coordinate is in the tile's range on its axis. -/
theorem k0_mem_tile (t : Fin cfg0.N) (i : S2048x2048.Idx) :
    i ∈ ((cfg0.win 4).blk t).view.set ↔ ∀ a : Fin 2, win0_4.index t a * S256x256.size a ≤ (i a).val ∧ (i a).val < win0_4.index t a * S256x256.size a + S256x256.size a := by
  show i ∈ ((View.whole main_v20).slice (win0_4.rect t)).set ↔ _
  rw [View.set_slice_whole, Rect.mem_set_unit]
  exact Iff.rfl

/-- The 64 tiles fill the result: entry (r, s) is in the tile of row r / 256 and column s / 256. -/
theorem k0_tiles_cover (i : S2048x2048.Idx) :
    ∃ t : Fin cfg0.N, (cfg0.win 4).flush t = true ∧ i ∈ ((cfg0.win 4).blk t).view.set := by
  have hi0 : (i 0).val < 2048 := (i 0).isLt
  have hi1 : (i 1).val < 2048 := (i 1).isLt
  obtain ⟨t, ht⟩ := k0_idx_onto ⟨(i 0).val / 256, by omega⟩ ⟨(i 1).val / 256, by omega⟩
  have q0 : win0_4.index t (0 : Fin 2) = (i 0).val / 256 := congrFun ht 0
  have q1 : win0_4.index t (1 : Fin 2) = (i 1).val / 256 := congrFun ht 1
  refine ⟨t, flush0_4 t, ?_⟩
  rw [k0_mem_tile]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 256 ≤ (i 1).val ∧ (i 1).val < win0_4.index t (1 : Fin 2) * 256 + 256; omega

/-- The result array after the region: the compensated Gram matrix of the two operands, entry by entry. -/
theorem gram_final (c : Dev nD) :
    (dat0 (F := Ideal) V c).arrAt 4 cfg0.N = fun y => Cert.Spec.gram (V c main_v16) (V c main_v19) (y 0) (y 1) :=
  (dat0 V c).arrAt_eq_of_cover 4 (fun y => Cert.Spec.gram (V c main_v16) (V c main_v19) (y 0) (y 1))
    (fun t _ => k0_flushed V c t) k0_tiles_cover

end Cert.KernelIdeal.Val

end
-- ==== Proof.LibEReal.lean ====
/-
  Extended reals that are real numbers: sums, maxima and the corner-case operations (exponential, square root,
  quotient) of real numbers stay real, and the float patterns for −∞, 0 and 2 are what they say.
-/
import Idealize.ShloMosaic.PureOps.Ideal
import Idealize.ShloMosaic.PureOps.Ideal.Laws

noncomputable section

open scoped BigOperators

namespace Cert.LibEReal

open Idealize.ShloMosaic

/-- A finite sum of real numbers, taken among the extended reals, is the real sum. -/
theorem coe_sum {ι : Type} (s : Finset ι) (f : ι → ℝ) :
    (∑ i ∈ s, ((f i : ℝ) : EReal)) = ((∑ i ∈ s, f i : ℝ) : EReal) := by
  classical
  -- by induction on the index set: the embedding of ℝ respects 0 and binary sums
  induction s using Finset.induction_on with
  | empty => simp
  | insert a s ha ih => rw [Finset.sum_insert ha, Finset.sum_insert ha, ih, EReal.coe_add]

/-- The maximum of two real numbers among the extended reals is the real maximum. -/
theorem max_coe (a b : ℝ) : max ((a : ℝ) : EReal) ((b : ℝ) : EReal) = ((max a b : ℝ) : EReal) := by
  -- the embedding of ℝ is monotone, and a monotone map commutes with binary maxima
  exact (EReal.coe_strictMono.monotone.map_max (a := a) (b := b)).symm

/-- Folding `max` over a nonempty finite family of reals from a real start is the real maximum of the start and the
    family's largest member. -/
theorem fold_max_coe {ι : Type} [Fintype ι] [Nonempty ι] (a : ℝ) (f : ι → ℝ) :
    (Finset.univ : Finset ι).fold max ((a : ℝ) : EReal) (fun i => ((f i : ℝ) : EReal))
      = ((max a (Finset.univ.sup' Finset.univ_nonempty f) : ℝ) : EReal) := by
  -- two inequalities: the fold is the least upper bound of the start and the members
  apply le_antisymm
  · refine (Finset.fold_max_le _).2 ⟨?_, fun i hi => ?_⟩
    · exact EReal.coe_le_coe_iff.2 (le_max_left _ _)
    · exact EReal.coe_le_coe_iff.2 (le_max_of_le_right (Finset.le_sup' f hi))
  · -- the real maximum is attained, either at the start or at some member
    rcases max_choice a (Finset.univ.sup' Finset.univ_nonempty f) with h | h
    · rw [h]; exact (Finset.le_fold_max _).2 (Or.inl le_rfl)
    · rw [h]
      obtain ⟨i, hi, hsup⟩ := Finset.exists_mem_eq_sup' Finset.univ_nonempty f
      rw [hsup]
      exact (Finset.le_fold_max _).2 (Or.inr ⟨i, hi, le_rfl⟩)

/-- Folding `max` over a nonempty finite family of reals from −∞ is the family's largest member. -/
theorem fold_max_bot_coe {ι : Type} [Fintype ι] [Nonempty ι] (f : ι → ℝ) :
    (Finset.univ : Finset ι).fold max (⊥ : EReal) (fun i => ((f i : ℝ) : EReal))
      = ((Finset.univ.sup' Finset.univ_nonempty f : ℝ) : EReal) := by
  -- two inequalities again; −∞ is below everything, and the largest member is attained
  apply le_antisymm
  · refine (Finset.fold_max_le _).2 ⟨bot_le, fun i hi => ?_⟩
    exact EReal.coe_le_coe_iff.2 (Finset.le_sup' f hi)
  · obtain ⟨i, hi, hsup⟩ := Finset.exists_mem_eq_sup' Finset.univ_nonempty f
    rw [hsup]
    exact (Finset.le_fold_max _).2 (Or.inr ⟨i, hi, le_rfl⟩)

/-- The f32 pattern `0xFF800000` is −∞. -/
theorem ofBits_neg_inf : Ideal.ofBits .f32 0xFF800000#32 = (⊥ : EReal) := by
  -- sign bit set, exponent field all ones, fraction field zero
  simp [Ideal.ofBits, Ideal.ieee]

/-- The f32 pattern `0x40000000` is 2. -/
theorem ofBits_two : Ideal.ofBits .f32 0x40000000#32 = ((2 : ℝ) : EReal) := by
  -- sign bit clear, exponent field 128, fraction field zero: 2^23 · 2^(128 − 127 − 23) = 2
  simp [Ideal.ofBits, Ideal.ieee]
  rw [← EReal.coe_mul, EReal.coe_eq_coe_iff]
  norm_num

/-- The exponential of a real number. -/
theorem exp_coe (r : ℝ) : Ideal.exp ((r : ℝ) : EReal) = ((Real.exp r : ℝ) : EReal) := by
  exact Ideal.exp_coe r

/-- The exponential of −∞ is 0. -/
theorem exp_bot : Ideal.exp (⊥ : EReal) = 0 := by
  exact Ideal.exp_bot

/-- The square root of a nonnegative real number. -/
theorem sqrt_coe {r : ℝ} (h : 0 ≤ r) : Ideal.sqrt ((r : ℝ) : EReal) = ((Real.sqrt r : ℝ) : EReal) := by
  -- the negative branch of the definition is excluded by the hypothesis
  rw [Ideal.sqrt_coe, if_neg (not_lt.2 h)]

/-- The quotient of a real number by a nonzero real number. -/
theorem div_coe_coe (a : ℝ) {b : ℝ} (h : b ≠ 0) :
    Ideal.div ((a : ℝ) : EReal) ((b : ℝ) : EReal) = ((a / b : ℝ) : EReal) := by
  -- off zero the quotient is the product with the reciprocal, and a product of reals is real
  rw [Ideal.div_coe h, ← EReal.coe_mul, mul_one_div]

end Cert.LibEReal

end
-- ==== Proof.Val.K1.lean ====
/-
  The second region's value: what its eight row blocks leave in the two output arrays, index by index. The block at
  point t holds rows 256·t … 256·t + 255 of the score matrix, all 2048 columns of each, so a row of the block is a whole
  row of the matrix: the threshold, the row maximum, the exponentials, their sum and the quotient are those of the
  specification's row-stochastic matrix at that row, and the product with the whole feature matrix, clipped at zero, is
  one propagation step at that row.
-/
import proofs.«413271_j32796370272774_3_alg».proof.Proof.FrI.D1
import proofs.«413271_j32796370272774_3_alg».proof.Proof.SpecK
import proofs.«413271_j32796370272774_3_alg».proof.Proof.LibEReal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.ValueIdx
open Idealize.ShloMosaic.Pipeline (Dat)

/-! ## The softmax rows of a block, at an index -/

/-- The block with every score under the threshold replaced by the large negative number. -/
def selV (x : Vec Ideal S256x2048 .f32) : FVec Ideal S256x2048 .f32 :=
  select (cmpf .oge (shapeCast S256x2048 x shapeCasts_S256x2048_S256x2048) (broadcast S256x2048 (Scalar.ofBits (F := Ideal) .f32 0x3DCCCCCD#32)))
    (shapeCast S256x2048 x shapeCasts_S256x2048_S256x2048) (broadcast S256x2048 (Scalar.ofBits (F := Ideal) .f32 0xE0AD78EC#32))

/-- Each row's largest kept score. -/
def maxV (x : Vec Ideal S256x2048 .f32) : FVec Ideal S256 .f32 :=
  multiReduction (F := Ideal) .maximumf [1] S256 (selV x) 0xFF800000#32 reduces_S256x2048_S256 (.inl rfl) rfl

/-- A vector of one value per row, spread over the row's columns. -/
def colB (v : FVec Ideal S256 .f32) : FVec Ideal S256x2048 .f32 :=
  broadcastTo S256x2048 (shapeCast S256x1 v shapeCasts_S256_S256x1) broadcasts_S256x1_S256x2048

/-- The exponentials of the kept scores less their row's maximum. -/
def expV (x : Vec Ideal S256x2048 .f32) : FVec Ideal S256x2048 .f32 :=
  exp (subf (selV x) (colB (maxV x)))

/-- Each row's sum of exponentials. -/
def sumV (x : Vec Ideal S256x2048 .f32) : FVec Ideal S256 .f32 :=
  multiReduction (F := Ideal) .add [1] S256 (expV x) 0x00000000#32 reduces_S256x2048_S256 (.inl rfl) rfl

/-- The body's first payload is the quotient of the exponentials by their row sums. -/
theorem pay1_eq (x : Vec Ideal S256x2048 .f32) :
    k1_pay1 (F := Ideal) x = truncf .bf16 (divf (expV x) (colB (sumV x))) bitsLt_bf16_f32 := rfl

theorem selV_apply (x : Vec Ideal S256x2048 .f32) (r : Fin 256) (q : Fin 2048) :
    selV x (ix2 r q)
      = Scalar.select (FloatOps.cmpf (F := Ideal) (φ := .f32) .oge (x (ix2 r q)) Cert.Spec.thr) (x (ix2 r q)) Cert.Spec.negBig := by
  unfold selV
  rw [shapeCast_self]
  rfl

/-- The index of a block's row `r` with the column `k` put back in is `(r, k)`. -/
theorem lift_row (r : Fin 256) (k : Fin 2048) :
    reduces_S256x2048_S256.lift (ix1 r) k = ix2 r k := by
  funext a
  apply Fin.ext
  match a with
  | ⟨0, _⟩ => rfl
  | ⟨1, _⟩ => rfl

theorem maxV_apply (x : Vec Ideal S256x2048 .f32) (r : Fin 256) :
    maxV x (ix1 r) = (Finset.univ : Finset (Fin 2048)).fold max (⊥ : EReal) (fun j => selV x (ix2 r j)) := by
  unfold maxV
  refine (Ideal.multiReduction_maximumf_single (selV x) 0xFF800000#32 reduces_S256x2048_S256 (.inl rfl) rfl (ix1 r)).trans ?_
  show (Finset.univ : Finset (Fin 2048)).fold max (Ideal.ofBits .f32 0xFF800000#32) (selV x ∘ reduces_S256x2048_S256.lift (ix1 r)) = _
  rw [Cert.LibEReal.ofBits_neg_inf]
  exact Finset.fold_congr fun j _ => congrArg (selV x) (lift_row r j)

theorem colB_apply (v : FVec Ideal S256 .f32) (r : Fin 256) (q : Fin 2048) : colB v (ix2 r q) = v (ix1 r) := by
  unfold colB
  refine (broadcastTo_apply _ broadcasts_S256x1_S256x2048 (ix2 r q) (ix2 r (0 : Fin 1)) fun a => ?_).trans ?_
  · match a with
    | ⟨0, _⟩ => show r.val = if (256 : Nat) = 1 then 0 else r.val; rw [if_neg (by decide)]
    | ⟨1, _⟩ => show (0 : Nat) = if (1 : Nat) = 1 then 0 else q.val; rw [if_pos rfl]
  · refine shapeCast_apply v shapeCasts_S256_S256x1 (ix2 r (0 : Fin 1)) (ix1 r) ?_
    rw [Shape.rowMajor_val_one, Shape.rowMajor_val_two]
    show r.val = r.val * 1 + 0
    omega

theorem expV_apply (x : Vec Ideal S256x2048 .f32) (r : Fin 256) (q : Fin 2048) :
    expV x (ix2 r q) = Ideal.exp (selV x (ix2 r q) - maxV x (ix1 r)) := by
  unfold expV
  show Ideal.exp (selV x (ix2 r q) - colB (maxV x) (ix2 r q)) = _
  rw [colB_apply]

theorem sumV_apply (x : Vec Ideal S256x2048 .f32) (r : Fin 256) :
    sumV x (ix1 r) = ∑ j : Fin 2048, expV x (ix2 r j) := by
  unfold sumV
  refine (Ideal.multiReduction_add_single (expV x) 0x00000000#32 reduces_S256x2048_S256 (.inl rfl) rfl (ix1 r)).trans ?_
  show ∑ k : Fin 2048, expV x (reduces_S256x2048_S256.lift (ix1 r) k) = _
  exact Finset.sum_congr rfl fun k _ => congrArg (expV x) (lift_row r k)

/-- Two score matrices that agree on a row have the same row of the row-stochastic matrix. -/
theorem adj_row (x : Vec Ideal S256x2048 .f32) (r : Fin 256) (S : Fin 2048 → Fin 2048 → EReal) (i : Fin 2048)
    (hS : ∀ j : Fin 2048, x (ix2 r j) = S i j) (q : Fin 2048) :
    k1_pay1 (F := Ideal) x (ix2 r q) = Cert.Spec.adj S i q := by
  have hsel : ∀ j : Fin 2048, selV x (ix2 r j) = Cert.Spec.sel S i j := fun j => by
    rw [selV_apply, hS j]; rfl
  have hmax : maxV x (ix1 r) = Cert.Spec.rowMax S i := by
    rw [maxV_apply]; unfold Cert.Spec.rowMax
    exact Finset.fold_congr fun j _ => hsel j
  have hexp : ∀ j : Fin 2048, expV x (ix2 r j) = Cert.Spec.pexp S i j := fun j => by
    rw [expV_apply, hsel j, hmax]; rfl
  have hsum : sumV x (ix1 r) = Cert.Spec.den S i := by
    rw [sumV_apply]; unfold Cert.Spec.den
    exact Finset.sum_congr rfl fun j _ => hexp j
  rw [pay1_eq]
  show Ideal.div (expV x (ix2 r q)) (colB (sumV x) (ix2 r q)) = _
  rw [colB_apply, hexp q, hsum]
  rfl

/-! ## The propagated rows of a block, at an index -/

theorem lhs_prop_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem lhs_prop_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem rhs_prop_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem rhs_prop_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- A block of rows times the feature matrix, into a zero accumulator: entry `(r, n)` is row `r` against column `n`. -/
theorem matmul_rows_apply (lhs : FVec Ideal S256x2048 .bf16) (rhs : FVec Ideal S2048x512 .bf16) (r : Fin 256) (n : Fin 512) :
    matmul (φ₁ := .bf16) (φ₂ := .bf16) dot_S256x2048_S2048x512_S256x512_1_0_0_1_n_n none lhs rhs (constant (F := Ideal) S256x512 .f32 0x00000000#32) (ix2 r n)
      = ∑ k : Fin 2048, lhs (ix2 r k) * rhs (ix2 k n) := by
  refine (Ideal.matmul_constant_zero_apply dot_S256x2048_S2048x512_S256x512_1_0_0_1_n_n none lhs rhs (ix2 r n)).trans ?_
  rw [← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 r n) ((contrEquiv1 dot_S256x2048_S2048x512_S256x512_1_0_0_1_n_n 2048 rfl rfl).symm k) = ix2 r k := funext fun a => Fin.ext (by
    match a with
    | ⟨0, _⟩ => exact lhs_prop_0 _ _
    | ⟨1, _⟩ => exact (lhs_prop_1 _ _).trans hk)
  have er : dot_S256x2048_S2048x512_S256x512_1_0_0_1_n_n.rhsIdx (ix2 r n) ((contrEquiv1 dot_S256x2048_S2048x512_S256x512_1_0_0_1_n_n 2048 rfl rfl).symm k) = ix2 k n := funext fun a => Fin.ext (by
    match a with
    | ⟨0, _⟩ => exact (rhs_prop_0 _ _).trans hk
    | ⟨1, _⟩ => exact rhs_prop_1 _ _)
  rw [el, er]

/-- The body's second payload is the first payload times the feature matrix, clipped at zero. -/
theorem pay2_eq (x : Vec Ideal S256x2048 .f32) (w : Vec Ideal S2048x512 .bf16) :
    k1_pay2 (F := Ideal) x w
      = truncf .bf16 (maximumf (matmul (φ₁ := .bf16) (φ₂ := .bf16) dot_S256x2048_S2048x512_S256x512_1_0_0_1_n_n none (k1_pay1 (F := Ideal) x)
            (shapeCast S2048x512 w shapeCasts_S2048x512_S2048x512) (constant (F := Ideal) S256x512 .f32 0x00000000#32))
          (broadcast S256x512 (Scalar.ofBits (F := Ideal) .f32 0x00000000#32))) bitsLt_bf16_f32 := rfl

theorem pay2_apply (x : Vec Ideal S256x2048 .f32) (w : Vec Ideal S2048x512 .bf16) (r : Fin 256) (n : Fin 512) :
    k1_pay2 (F := Ideal) x w (ix2 r n) = max (∑ k : Fin 2048, k1_pay1 (F := Ideal) x (ix2 r k) * w (ix2 k n)) 0 := by
  rw [pay2_eq]
  show max (matmul (φ₁ := .bf16) (φ₂ := .bf16) dot_S256x2048_S2048x512_S256x512_1_0_0_1_n_n none (k1_pay1 (F := Ideal) x)
      (shapeCast S2048x512 w shapeCasts_S2048x512_S2048x512) (constant (F := Ideal) S256x512 .f32 0x00000000#32) (ix2 r n))
    (Ideal.ofBits .f32 0x00000000#32) = _
  rw [matmul_rows_apply, shapeCast_self, Ideal.ofBits_zero_f32]

/-! ## From blocks to the arrays -/

section Blocks

open Idealize.ShloMosaic.TcCoe

-- the contents of the core's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-block windows sit at block row `t`, block column 0; the feature
    matrix's window is the whole matrix at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row `r` of block `t` is row `256 t + r` of the matrix. -/
def rowOf (t : Fin cfg1.N) (r : Fin 256) : Fin 2048 :=
  ⟨t.val * 256 + r.val, by have h := t.isLt; have hN : cfg1.N = 8 := N_1; have := r.isLt; omega⟩

/-- The score matrix the region finds, by row and column. -/
abbrev scores (c : Dev nD) : Fin 2048 → Fin 2048 → EReal := fun i j => V c main_v20 (ix2 i j)

/-- The score block at point `t` is rows `256 t …` of the score matrix. -/
theorem iblk_scores (c : Dev nD) (t : Fin cfg1.N) (r : Fin 256) (j : Fin 2048) :
    (iblk1 V c 0 t : Vec Ideal S256x2048 .f32) (ix2 r j) = scores V c (rowOf t r) j := by
  obtain ⟨e0, e1, -⟩ := idx_facts t
  unfold iblk1
  rw [View.read_apply]
  show V c main_v20 (((cfg1.win 0).blk t).view.emb (ix2 r j)) = V c main_v20 (ix2 (rowOf t r) j)
  refine congrArg (V c main_v20) (funext fun a => Fin.ext ?_)
  match a with
  | ⟨0, _⟩ => show win1_0.index t (0 : Fin 2) * 256 + 1 * r.val = t.val * 256 + r.val; rw [e0]; omega
  | ⟨1, _⟩ => show win1_0.index t (1 : Fin 2) * 2048 + 1 * j.val = j.val; rw [e1]; omega

/-- The feature block at every point is the whole feature matrix. -/
theorem iblk_feat (c : Dev nD) (t : Fin cfg1.N) (k : Fin 2048) (n : Fin 512) :
    (iblk1 V c 1 t : Vec Ideal S2048x512 .bf16) (ix2 k n) = V c main_v24 (ix2 k n) := by
  obtain ⟨-, -, e0, e1, -⟩ := idx_facts t
  unfold iblk1
  rw [View.read_apply]
  show V c main_v24 (((cfg1.win 1).blk t).view.emb (ix2 k n)) = V c main_v24 (ix2 k n)
  refine congrArg (V c main_v24) (funext fun a => Fin.ext ?_)
  match a with
  | ⟨0, _⟩ => show win1_1.index t (0 : Fin 2) * 2048 + 1 * k.val = k.val; rw [e0]; omega
  | ⟨1, _⟩ => show win1_1.index t (1 : Fin 2) * 512 + 1 * n.val = n.val; rw [e1]; omega

/-- Where entry `(r, q)` of the row-stochastic rows' block at point `t` lies in its array. -/
theorem emb_adj (t : Fin cfg1.N) (r : Fin 256) (q : Fin 2048) :
    ((cfg1.win 2).blk t).view.emb (ix2 r q) = ix2 (rowOf t r) q := by
  obtain ⟨-, -, -, -, e0, e1, -⟩ := idx_facts t
  funext a; apply Fin.ext
  match a with
  | ⟨0, _⟩ => show win1_2.index t (0 : Fin 2) * 256 + 1 * r.val = t.val * 256 + r.val; rw [e0]; omega
  | ⟨1, _⟩ => show win1_2.index t (1 : Fin 2) * 2048 + 1 * q.val = q.val; rw [e1]; omega

/-- Where entry `(r, n)` of the propagated rows' block at point `t` lies in its array. -/
theorem emb_x0 (t : Fin cfg1.N) (r : Fin 256) (n : Fin 512) :
    ((cfg1.win 3).blk t).view.emb (ix2 r n) = ix2 (rowOf t r) n := by
  obtain ⟨-, -, -, -, -, -, e0, e1⟩ := idx_facts t
  funext a; apply Fin.ext
  match a with
  | ⟨0, _⟩ => show win1_3.index t (0 : Fin 2) * 256 + 1 * r.val = t.val * 256 + r.val; rw [e0]; omega
  | ⟨1, _⟩ => show win1_3.index t (1 : Fin 2) * 512 + 1 * n.val = n.val; rw [e1]; omega

/-- Row `r` of the first payload of the score block at point `t` is row `256 t + r` of the row-stochastic matrix. -/
theorem pay1_blk (c : Dev nD) (t : Fin cfg1.N) (r : Fin 256) (q : Fin 2048) :
    k1_pay1 (F := Ideal) (iblk1 V c 0 t) (ix2 r q) = Cert.Spec.adj (scores V c) (rowOf t r) q :=
  adj_row (iblk1 V c 0 t) r (scores V c) (rowOf t r) (fun j => iblk_scores V c t r j) q

/-- What point `t` writes back to the row-stochastic matrix's array is its block of the specification's matrix. -/
theorem flushed_adj (c : Dev nD) (t : Fin cfg1.N) :
    (dat1 (F := Ideal) V c).flushed 2 t
      = ((cfg1.win 2).blk t).view.read (Elt Ideal) (fun y : S2048x2048.Idx => Cert.Spec.adj (scores V c) (y 0) (y 1)) := by
  show (cfg1.win 2).cut (grid1.coords t) ((dat1 (F := Ideal) V c).after 2 t) = _
  rw [after1_2]
  unfold out1_2
  rw [View.canon_unit_zero hz]
  simp only [View.ld_unit_zero (S := S256x2048) hz]
  funext j
  obtain ⟨r, q, rfl⟩ : ∃ (r : Fin 256) (q : Fin 2048), j = ix2 r q := ⟨j 0, j 1, eq_ix2 j⟩
  rw [View.read_apply, emb_adj]
  exact pay1_blk V c t r q

/-- What point `t` writes back to the propagated features' array is its block of one propagation step. -/
theorem flushed_x0 (c : Dev nD) (t : Fin cfg1.N) :
    (dat1 (F := Ideal) V c).flushed 3 t
      = ((cfg1.win 3).blk t).view.read (Elt Ideal)
          (fun y : S2048x512.Idx => Cert.Spec.prop (Cert.Spec.adj (scores V c)) (V c main_v24) (y 0) (y 1)) := by
  show (cfg1.win 3).cut (grid1.coords t) ((dat1 (F := Ideal) V c).after 3 t) = _
  rw [after1_3]
  unfold out1_3
  rw [View.canon_unit_zero hz]
  simp only [View.ld_unit_zero (S := S256x2048) hz, View.ld_unit_zero (S := S2048x512) hz]
  funext j
  obtain ⟨r, n, rfl⟩ : ∃ (r : Fin 256) (n : Fin 512), j = ix2 r n := ⟨j 0, j 1, eq_ix2 j⟩
  rw [View.read_apply, emb_x0]
  refine (pay2_apply (iblk1 V c 0 t) (iblk1 V c 1 t) r n).trans ?_
  unfold Cert.Spec.prop
  refine congrArg (fun s => max s 0) (Finset.sum_congr rfl fun k _ => ?_)
  rw [pay1_blk V c t r k, iblk_feat V c t k n]

/-- An index of the row-stochastic matrix's array is in point `t`'s block iff each coordinate is in the block's range. -/
theorem mem_blk_adj (t : Fin cfg1.N) (i : S2048x2048.Idx) :
    i ∈ ((cfg1.win 2).blk t).view.set ↔ ∀ a : Fin 2, win1_2.index t a * S256x2048.size a ≤ (i a).val ∧ (i a).val < win1_2.index t a * S256x2048.size a + S256x2048.size a := by
  show i ∈ ((View.whole main_v25_0).slice (win1_2.rect t)).set ↔ _
  rw [View.set_slice_whole, Rect.mem_set_unit]
  exact Iff.rfl

theorem mem_blk_x0 (t : Fin cfg1.N) (i : S2048x512.Idx) :
    i ∈ ((cfg1.win 3).blk t).view.set ↔ ∀ a : Fin 2, win1_3.index t a * S256x512.size a ≤ (i a).val ∧ (i a).val < win1_3.index t a * S256x512.size a + S256x512.size a := by
  show i ∈ ((View.whole main_v25_1).slice (win1_3.rect t)).set ↔ _
  rw [View.set_slice_whole, Rect.mem_set_unit]
  exact Iff.rfl

/-- The point whose block holds row `i`. -/
def ptOf (i : Fin 2048) : Fin cfg1.N := ⟨i.val / 256, by have hN : cfg1.N = 8 := N_1; have := i.isLt; omega⟩

/-- Every index of the row-stochastic matrix's array is in the block of the point that holds its row. -/
theorem cover_adj (i : S2048x2048.Idx) :
    ∃ t : Fin cfg1.N, (cfg1.win 2).flush t = true ∧ i ∈ ((cfg1.win 2).blk t).view.set := by
  have hi0 : (i 0).val < 2048 := (i 0).isLt
  have hi1 : (i 1).val < 2048 := (i 1).isLt
  refine ⟨ptOf ⟨(i 0).val, hi0⟩, flush1_2 _, ?_⟩
  obtain ⟨-, -, -, -, e0, e1, -⟩ := idx_facts (ptOf ⟨(i 0).val, hi0⟩)
  rw [mem_blk_adj]
  intro a
  match a with
  | ⟨0, _⟩ =>
    show win1_2.index (ptOf ⟨(i 0).val, hi0⟩) (0 : Fin 2) * 256 ≤ (i 0).val ∧ (i 0).val < win1_2.index (ptOf ⟨(i 0).val, hi0⟩) (0 : Fin 2) * 256 + 256
    rw [e0]; show (i 0).val / 256 * 256 ≤ (i 0).val ∧ (i 0).val < (i 0).val / 256 * 256 + 256; omega
  | ⟨1, _⟩ =>
    show win1_2.index (ptOf ⟨(i 0).val, hi0⟩) (1 : Fin 2) * 2048 ≤ (i 1).val ∧ (i 1).val < win1_2.index (ptOf ⟨(i 0).val, hi0⟩) (1 : Fin 2) * 2048 + 2048
    rw [e1]; omega

/-- Every index of the propagated features' array is in the block of the point that holds its row. -/
theorem cover_x0 (i : S2048x512.Idx) :
    ∃ t : Fin cfg1.N, (cfg1.win 3).flush t = true ∧ i ∈ ((cfg1.win 3).blk t).view.set := by
  have hi0 : (i 0).val < 2048 := (i 0).isLt
  have hi1 : (i 1).val < 512 := (i 1).isLt
  refine ⟨ptOf ⟨(i 0).val, hi0⟩, flush1_3 _, ?_⟩
  obtain ⟨-, -, -, -, -, -, e0, e1⟩ := idx_facts (ptOf ⟨(i 0).val, hi0⟩)
  rw [mem_blk_x0]
  intro a
  match a with
  | ⟨0, _⟩ =>
    show win1_3.index (ptOf ⟨(i 0).val, hi0⟩) (0 : Fin 2) * 256 ≤ (i 0).val ∧ (i 0).val < win1_3.index (ptOf ⟨(i 0).val, hi0⟩) (0 : Fin 2) * 256 + 256
    rw [e0]; show (i 0).val / 256 * 256 ≤ (i 0).val ∧ (i 0).val < (i 0).val / 256 * 256 + 256; omega
  | ⟨1, _⟩ =>
    show win1_3.index (ptOf ⟨(i 0).val, hi0⟩) (1 : Fin 2) * 512 ≤ (i 1).val ∧ (i 1).val < win1_3.index (ptOf ⟨(i 0).val, hi0⟩) (1 : Fin 2) * 512 + 512
    rw [e1]; omega

/-- After the region the row-stochastic matrix's array holds the specification's matrix of the scores the region found. -/
theorem adj_final (c : Dev nD) :
    (dat1 (F := Ideal) V c).arrAt 2 cfg1.N = fun y => Cert.Spec.adj (fun i j => V c main_v20 (ix2 i j)) (y 0) (y 1) :=
  (dat1 (F := Ideal) V c).arrAt_eq_of_cover 2 (fun y : S2048x2048.Idx => Cert.Spec.adj (scores V c) (y 0) (y 1))
    (fun t _ => flushed_adj V c t) cover_adj

/-- After the region the propagated features' array holds one propagation step of the feature matrix the region found. -/
theorem x0_final (c : Dev nD) :
    (dat1 (F := Ideal) V c).arrAt 3 cfg1.N
      = fun y => Cert.Spec.prop (Cert.Spec.adj (fun i j => V c main_v20 (ix2 i j))) (V c main_v24) (y 0) (y 1) :=
  (dat1 (F := Ideal) V c).arrAt_eq_of_cover 3
    (fun y : S2048x512.Idx => Cert.Spec.prop (Cert.Spec.adj (scores V c)) (V c main_v24) (y 0) (y 1))
    (fun t _ => flushed_x0 V c t) cover_x0

end Blocks

end Cert.KernelIdeal.Val

end
-- ==== Proof.Val.K2.lean ====
/-
  The third region read as a function of whole matrices. Each of the eight grid points multiplies 256 rows of the
  row-stochastic matrix by the whole 2048 × 512 feature matrix and clips the product at zero; the eight row blocks tile
  the result, so the result array is one propagation step of the two input arrays.
-/
import proofs.«413271_j32796370272774_3_alg».proof.Proof.FrI.D2
import proofs.«413271_j32796370272774_3_alg».proof.Proof.SpecK
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Fr Idealize.ShloMosaic Idealize.ShloMosaic.ValueIdx
open Idealize.ShloMosaic.TcCoe
open Idealize.ShloMosaic.Pipeline (Dat Cfg Window)

/-! ## The body's arithmetic at an index -/

/-- The offset of a rectangle that starts at the origin. -/
theorem origin2 : (![0, 0] : Fin 2 → Nat) = fun _ => 0 := funext fun a => by fin_cases a <;> rfl

/-- The left operand's row coordinate is the result's row. -/
theorem k2_lhs_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
/-- The left operand's column coordinate is the contraction index. -/
theorem k2_lhs_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
/-- The right operand's row coordinate is the contraction index. -/
theorem k2_rhs_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
/-- The right operand's column coordinate is the result's column. -/
theorem k2_rhs_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- The matrix product into a zero accumulator, at row `p` and column `q`: the sum over the 2048 shared indices. -/
theorem k2_matmul_apply (x0 : FVec Ideal S256x2048 .bf16) (x1 : FVec Ideal S2048x512 .bf16) (p : Fin 256) (q : Fin 512) :
    FloatOps.matmul dot_S256x2048_S2048x512_S256x512_1_0_0_1_n_n none x0 x1 (constant (F := Ideal) S256x512 .f32 0x00000000#32) (ix2 p q)
      = ∑ k : Fin 2048, x0 (ix2 p k) * x1 (ix2 k q) := by
  rw [Ideal.matmul_constant_zero_apply, ← Equiv.sum_comp (ValueIdx.contrEquiv1 dot_S256x2048_S2048x512_S256x512_1_0_0_1_n_n 2048 rfl rfl).symm]
  refine Finset.sum_congr rfl fun k _ => ?_
  have hk := ValueIdx.contrEquiv1_symm_val dot_S256x2048_S2048x512_S256x512_1_0_0_1_n_n 2048 rfl rfl k
  have el : dot_S256x2048_S2048x512_S256x512_1_0_0_1_n_n.lhsIdx (ix2 p q) ((ValueIdx.contrEquiv1 dot_S256x2048_S2048x512_S256x512_1_0_0_1_n_n 2048 rfl rfl).symm k) = ix2 p k := funext fun a => Fin.ext (by
    match a with
    | ⟨0, _⟩ => exact k2_lhs_0 _ _
    | ⟨1, _⟩ => exact (k2_lhs_1 _ _).trans hk)
  have er : dot_S256x2048_S2048x512_S256x512_1_0_0_1_n_n.rhsIdx (ix2 p q) ((ValueIdx.contrEquiv1 dot_S256x2048_S2048x512_S256x512_1_0_0_1_n_n 2048 rfl rfl).symm k) = ix2 k q := funext fun a => Fin.ext (by
    match a with
    | ⟨0, _⟩ => exact (k2_rhs_0 _ _).trans hk
    | ⟨1, _⟩ => exact k2_rhs_1 _ _)
  rw [el, er]

/-- The body's arithmetic, at row `p` and column `q` of the block: the row of the first operand against the column of
    the second, clipped at zero. -/
theorem k2_pay1_apply (x0 : Vec Ideal S256x2048 .bf16) (x1 : Vec Ideal S2048x512 .bf16) (p : Fin 256) (q : Fin 512) :
    k2_pay1 (F := Ideal) x0 x1 (ix2 p q) = max (∑ k : Fin 2048, x0 (ix2 p k) * x1 (ix2 k q)) 0 := by
  unfold k2_pay1
  show max (FloatOps.matmul dot_S256x2048_S2048x512_S256x512_1_0_0_1_n_n none (shapeCast S256x2048 x0 shapeCasts_S256x2048_S256x2048) (shapeCast S2048x512 x1 shapeCasts_S2048x512_S2048x512) (constant (F := Ideal) S256x512 .f32 0x00000000#32) (ix2 p q)) (Ideal.ofBits .f32 0x00000000#32) = _
  refine (congrArg₂ max ((k2_matmul_apply _ _ p q).trans ?_) Ideal.ofBits_zero_f32)
  rw [shapeCast_self, shapeCast_self]

/-- The body's arithmetic at a point whose operand entries are known: one propagation entry. -/
theorem k2_point (x0 : Vec Ideal S256x2048 .bf16) (x1 : Vec Ideal S2048x512 .bf16)
    (A : Fin 2048 → Fin 2048 → EReal) (H : Cert.Spec.Arr2 2048 512) (p : Fin 256) (q : Fin 512) (r : Fin 2048)
    (h0 : ∀ k : Fin 2048, x0 (ix2 p k) = A r k) (h1 : ∀ k : Fin 2048, x1 (ix2 k q) = H (ix2 k q)) :
    k2_pay1 (F := Ideal) x0 x1 (ix2 p q) = Cert.Spec.prop A H r q := by
  rw [k2_pay1_apply]
  unfold Cert.Spec.prop
  exact congrArg (fun s => max s 0) (Finset.sum_congr rfl fun k _ => by rw [h0 k, h1 k])

/-! ## From the eight row blocks to the array -/

variable (V : (c : Dev nD) → (b : Ref sig .tc) → Buf (Elt Ideal) ((c : Thread nD τ).loc b))

/-- The three windows' block indices over the grid: the row windows sit at block row `t`, the feature matrix at its only block. -/
theorem k2_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of point `t`'s block of the row-stochastic matrix is row `256 t + p` of the array. -/
theorem k2_rows_apply (c : Dev nD) (t : Fin cfg2.N) (p : Fin 256) (k : Fin 2048) (r : Fin 2048)
    (hr : r.val = t.val * 256 + p.val) :
    (iblk2 V c 0 t : Vec Ideal S256x2048 .bf16) (ix2 p k) = V c main_v25_0 (ix2 r k) := by
  obtain ⟨e0, e1, -⟩ := k2_idx_facts t
  unfold iblk2
  rw [View.read_apply]
  show V c main_v25_0 _ = V c main_v25_0 _
  congr 1
  funext a
  apply Fin.ext
  match a with
  | ⟨0, _⟩ => show win2_0.index t (0 : Fin 2) * 256 + 1 * p.val = r.val; omega
  | ⟨1, _⟩ => show win2_0.index t (1 : Fin 2) * 2048 + 1 * k.val = k.val; omega

/-- Every point's block of the feature matrix is the whole array. -/
theorem k2_feat_apply (c : Dev nD) (t : Fin cfg2.N) (k : Fin 2048) (q : Fin 512) :
    (iblk2 V c 1 t : Vec Ideal S2048x512 .bf16) (ix2 k q) = V c main_v28 (ix2 k q) := by
  obtain ⟨-, -, e0, e1, -⟩ := k2_idx_facts t
  unfold iblk2
  rw [View.read_apply]
  show V c main_v28 _ = V c main_v28 _
  congr 1
  funext a
  apply Fin.ext
  match a with
  | ⟨0, _⟩ => show win2_1.index t (0 : Fin 2) * 2048 + 1 * k.val = k.val; omega
  | ⟨1, _⟩ => show win2_1.index t (1 : Fin 2) * 512 + 1 * q.val = q.val; omega

/-- What point `t` writes back is block `t` of one propagation step of the two input arrays. -/
theorem k2_flushed_eq (c : Dev nD) (t : Fin cfg2.N) :
    (dat2 (F := Ideal) V c).flushed 2 t
      = ((cfg2.win 2).blk t).view.read (Elt Ideal)
          (fun y => Cert.Spec.prop (fun i j => V c main_v25_0 (ix2 i j)) (V c main_v28) (y 0) (y 1)) := by
  show (cfg2.win 2).cut (grid2.coords t) ((dat2 (F := Ideal) V c).after 2 t) = _
  rw [after2_2]
  unfold out2_2
  rw [View.canon_unit_zero origin2]
  simp only [View.ld_unit_zero (S := S256x2048) origin2, View.ld_unit_zero (S := S2048x512) origin2]
  obtain ⟨-, -, -, -, e0, e1⟩ := k2_idx_facts t
  funext j
  have hp : (j 0).val < 256 := (j 0).isLt
  have hq : (j 1).val < 512 := (j 1).isLt
  have hx : (cfg2.win 2).xinj (grid2.coords t) j = ix2 (⟨(j 0).val, hp⟩ : Fin 256) (⟨(j 1).val, hq⟩ : Fin 512) :=
    funext fun a => by match a with | ⟨0, _⟩ => rfl | ⟨1, _⟩ => rfl
  have hrow : ((((cfg2.win 2).blk t).view.emb j 0 : Fin 2048)).val = t.val * 256 + (j 0).val := by
    show win2_2.index t (0 : Fin 2) * 256 + 1 * (j 0).val = _; omega
  have hcol : (⟨(j 1).val, hq⟩ : Fin 512) = ((cfg2.win 2).blk t).view.emb j 1 := by
    apply Fin.ext
    show (j 1).val = win2_2.index t (1 : Fin 2) * 512 + 1 * (j 1).val; omega
  refine (congrArg (k2_pay1 (F := Ideal) (iblk2 V c 0 t) (iblk2 V c 1 t)) hx).trans ?_
  refine (k2_point (iblk2 V c 0 t) (iblk2 V c 1 t) (fun i j => V c main_v25_0 (ix2 i j)) (V c main_v28)
    (⟨(j 0).val, hp⟩ : Fin 256) (⟨(j 1).val, hq⟩ : Fin 512) (((cfg2.win 2).blk t).view.emb j 0)
    (fun k => k2_rows_apply V c t ⟨(j 0).val, hp⟩ k _ hrow) (fun k => k2_feat_apply V c t k ⟨(j 1).val, hq⟩)).trans ?_
  exact congrArg (Cert.Spec.prop (fun i j => V c main_v25_0 (ix2 i j)) (V c main_v28) (((cfg2.win 2).blk t).view.emb j 0)) hcol

/-- An index of the result array is in point `t`'s block iff each coordinate is in the block's range on its axis. -/
theorem k2_mem_blk (t : Fin cfg2.N) (i : S2048x512.Idx) :
    i ∈ ((cfg2.win 2).blk t).view.set ↔ ∀ a : Fin 2, win2_2.index t a * S256x512.size a ≤ (i a).val ∧ (i a).val < win2_2.index t a * S256x512.size a + S256x512.size a := by
  show i ∈ ((View.whole main_v29).slice (win2_2.rect t)).set ↔ _
  rw [View.set_slice_whole, Rect.mem_set_unit]
  exact Iff.rfl

/-- Row `r` of the result lies in the block of point `r / 256`: the eight row blocks tile the array. -/
theorem k2_cover (i : S2048x512.Idx) :
    ∃ t : Fin cfg2.N, (cfg2.win 2).flush t = true ∧ i ∈ ((cfg2.win 2).blk t).view.set := by
  have hi0 : (i 0).val < 2048 := (i 0).isLt
  have hi1 : (i 1).val < 512 := (i 1).isLt
  have hN : cfg2.N = 8 := N_2
  obtain ⟨t, ht⟩ : ∃ t : Fin cfg2.N, t.val = (i 0).val / 256 := ⟨⟨(i 0).val / 256, by rw [hN]; omega⟩, rfl⟩
  obtain ⟨-, -, -, -, e0, e1⟩ := k2_idx_facts t
  refine ⟨t, flush2_2 t, ?_⟩
  rw [k2_mem_blk]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 512 ≤ (i 1).val ∧ (i 1).val < win2_2.index t (1 : Fin 2) * 512 + 512; omega

/-- The result array after the region: one propagation step of the row-stochastic matrix and the feature matrix the
    region found. -/
theorem out_final (c : Dev nD) :
    (dat2 (F := Ideal) V c).arrAt 2 cfg2.N
      = fun y => Cert.Spec.prop (fun i j => V c main_v25_0 (ix2 i j)) (V c main_v28) (y 0) (y 1) :=
  (dat2 (F := Ideal) V c).arrAt_eq_of_cover 2 _ (fun t _ => k2_flushed_eq V c t) k2_cover

end Cert.KernelIdeal.Val

end
-- ==== Proof.Val.Host.lean ====
/-
  The values the host operations between the tiled stages leave in their result arrays, read entry by entry as the
  plain functions of the specification: the normalised vectors on the flattened axis and their remainder, and the two
  feature products.
-/
import proofs.«413271_j32796370272774_3_alg».proof.Proof.Gen.KernelIdeal.Launch
import proofs.«413271_j32796370272774_3_alg».proof.Proof.SpecK
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx

variable (W : Valuation τ sig (Elt Ideal))

/-! ## The two feature products -/

/-- The contraction record of the two feature products: axis 1 of the left operand against axis 0 of the right. -/
abbrev hostD512 : DotDims S2048x512 S512x512 S2048x512 := dot_S2048x512_S512x512_S2048x512_1_0_0_1_n_n

theorem hostD512_lhs0 (i : S2048x512.Idx) (q : hostD512.contr.Idx) : (hostD512.lhsIdx i q 0).val = (i 0).val := by
  unfold DotDims.lhsIdx
  rw [dif_neg (show ¬(0 : Fin S2048x512.rank) ∈ hostD512.lhsBatch by decide), dif_pos (show (0 : Fin S2048x512.rank) ∈ hostD512.lhsNonContracting by decide)]
  rfl
theorem hostD512_lhs1 (i : S2048x512.Idx) (q : hostD512.contr.Idx) : (hostD512.lhsIdx i q 1).val = (q ⟨0, by decide⟩).val :=
  hostD512.lhsIdx_val_of_single rfl i q
theorem hostD512_rhs0 (i : S2048x512.Idx) (q : hostD512.contr.Idx) : (hostD512.rhsIdx i q 0).val = (q ⟨0, by decide⟩).val :=
  hostD512.rhsIdx_val_of_single rfl i q
theorem hostD512_rhs1 (i : S2048x512.Idx) (q : hostD512.contr.Idx) : (hostD512.rhsIdx i q 1).val = (i 1).val := by
  unfold DotDims.rhsIdx
  rw [dif_neg (show ¬(1 : Fin S512x512.rank) ∈ hostD512.rhsBatch by decide), dif_pos (show (1 : Fin S512x512.rank) ∈ hostD512.rhsNonContracting by decide)]
  rfl

/-- A feature product read at an entry: row `i` of the left operand against column `n` of the right. -/
theorem host_dot512_apply {φ₁ φ₂ : FTy} (A : FVec Ideal S2048x512 φ₁) (B : FVec Ideal S512x512 φ₂) (y : S2048x512.Idx) :
    (Host.dotGeneral (F := Ideal) hostD512 none A B) y = ∑ k : Fin 512, A (ix2 (y 0) k) * B (ix2 k (y 1)) := by
  simp only [Host.dotGeneral]
  rw [Ideal.dotGeneral_apply, ← Equiv.sum_comp (contrEquiv1 hostD512 512 rfl rfl).symm]
  refine Finset.sum_congr rfl fun k _ => ?_
  have hk := contrEquiv1_symm_val hostD512 512 rfl rfl k
  have el : hostD512.lhsIdx y ((contrEquiv1 hostD512 512 rfl rfl).symm k) = ix2 (y 0) k := funext fun a => Fin.ext (by
    match a with
    | ⟨0, _⟩ => exact hostD512_lhs0 _ _
    | ⟨1, _⟩ => exact (hostD512_lhs1 _ _).trans hk)
  have er : hostD512.rhsIdx y ((contrEquiv1 hostD512 512 rfl rfl).symm k) = ix2 k (y 1) := funext fun a => Fin.ext (by
    match a with
    | ⟨0, _⟩ => exact (hostD512_rhs0 _ _).trans hk
    | ⟨1, _⟩ => exact hostD512_rhs1 _ _)
  rw [el, er]
  rfl

/-- After the second stretch the feature array holds the label embedding times the first weight matrix: the
    conversions to the short format are the identity on the extended reals. -/
theorem host1_v24 : StableHlo.after hostOps1 W (Proc.devRef .tc main_v24) = fun y => Cert.Spec.feat (W (Proc.devRef .tc main_arg0)) (W (Proc.devRef .tc main_arg3)) (y 0) (y 1) := by
  have e : StableHlo.after hostOps1 W (Proc.devRef .tc main_v24)
      = (truncf .bf16 (Host.dotGeneral (F := Ideal) hostD512 none
          (truncf .bf16 (W (Proc.devRef .tc main_arg0) : FVec Ideal S2048x512 .f32) bitsLt_bf16_f32 : FVec Ideal S2048x512 .bf16)
          (truncf .bf16 (W (Proc.devRef .tc main_arg3) : FVec Ideal S512x512 .f32) bitsLt_bf16_f32 : FVec Ideal S512x512 .bf16) : FVec Ideal S2048x512 .f32) bitsLt_bf16_f32 : FVec Ideal S2048x512 .bf16) := by
    after_results
  rw [e]
  funext y
  rw [truncf_apply]
  exact host_dot512_apply _ _ y

/-- After the third stretch the feature array holds the first round's output times the second weight matrix. -/
theorem host2_v28 : StableHlo.after hostOps2 W (Proc.devRef .tc main_v28) = fun y => Cert.Spec.feat (W (Proc.devRef .tc main_v25_1)) (W (Proc.devRef .tc main_arg4)) (y 0) (y 1) := by
  have e : StableHlo.after hostOps2 W (Proc.devRef .tc main_v28)
      = (truncf .bf16 (Host.dotGeneral (F := Ideal) (φ₁ := .bf16) (φ₂ := .bf16) hostD512 none
          (W (Proc.devRef .tc main_v25_1) : FVec Ideal S2048x512 .bf16)
          (truncf .bf16 (W (Proc.devRef .tc main_arg4) : FVec Ideal S512x512 .f32) bitsLt_bf16_f32 : FVec Ideal S512x512 .bf16) : FVec Ideal S2048x512 .f32) bitsLt_bf16_f32 : FVec Ideal S2048x512 .bf16) := by
    after_results
  rw [e]
  funext y
  rw [truncf_apply]
  exact host_dot512_apply _ _ y

/-! ## The normalised vectors on the flattened axis -/

/-- The contraction record of the squared norms: axis 1 of both operands. -/
abbrev hostD16 : DotDims S2048x300 S16x300 S2048x16 := dot_S2048x300_S16x300_S2048x16_1_1_0_0_n_n

theorem hostD16_lhs0 (i : S2048x16.Idx) (q : hostD16.contr.Idx) : (hostD16.lhsIdx i q 0).val = (i 0).val := by
  unfold DotDims.lhsIdx
  rw [dif_neg (show ¬(0 : Fin S2048x300.rank) ∈ hostD16.lhsBatch by decide), dif_pos (show (0 : Fin S2048x300.rank) ∈ hostD16.lhsNonContracting by decide)]
  rfl
theorem hostD16_lhs1 (i : S2048x16.Idx) (q : hostD16.contr.Idx) : (hostD16.lhsIdx i q 1).val = (q ⟨0, by decide⟩).val :=
  hostD16.lhsIdx_val_of_single rfl i q
theorem hostD16_rhs0 (i : S2048x16.Idx) (q : hostD16.contr.Idx) : (hostD16.rhsIdx i q 0).val = (i 1).val := by
  unfold DotDims.rhsIdx
  rw [dif_neg (show ¬(0 : Fin S16x300.rank) ∈ hostD16.rhsBatch by decide), dif_pos (show (0 : Fin S16x300.rank) ∈ hostD16.rhsNonContracting by decide)]
  rfl
theorem hostD16_rhs1 (i : S2048x16.Idx) (q : hostD16.contr.Idx) : (hostD16.rhsIdx i q 1).val = (q ⟨0, by decide⟩).val :=
  hostD16.rhsIdx_val_of_single rfl i q

/-- The squared-norm product read at an entry: row `l` of the left operand against row `h` of the right. -/
theorem host_dot16_apply {φ₁ φ₂ : FTy} (prec : Option ContractPrecision) (A : FVec Ideal S2048x300 φ₁) (B : FVec Ideal S16x300 φ₂) (y : S2048x16.Idx) :
    (Host.dotGeneral (F := Ideal) hostD16 prec A B) y = ∑ e : Fin 300, A (ix2 (y 0) e) * B (ix2 (y 1) e) := by
  simp only [Host.dotGeneral]
  rw [Ideal.dotGeneral_apply, ← Equiv.sum_comp (contrEquiv1 hostD16 300 rfl rfl).symm]
  refine Finset.sum_congr rfl fun k _ => ?_
  have hk := contrEquiv1_symm_val hostD16 300 rfl rfl k
  have el : hostD16.lhsIdx y ((contrEquiv1 hostD16 300 rfl rfl).symm k) = ix2 (y 0) k := funext fun a => Fin.ext (by
    match a with
    | ⟨0, _⟩ => exact hostD16_lhs0 _ _
    | ⟨1, _⟩ => exact (hostD16_lhs1 _ _).trans hk)
  have er : hostD16.rhsIdx y ((contrEquiv1 hostD16 300 rfl rfl).symm k) = ix2 (y 1) k := funext fun a => Fin.ext (by
    match a with
    | ⟨0, _⟩ => exact hostD16_rhs0 _ _
    | ⟨1, _⟩ => exact (hostD16_rhs1 _ _).trans hk)
  rw [el, er]
  rfl

section Norm

variable (X : FVec Ideal S2048x300 .f32) (Wp : FVec Ideal S16x300 .f32)

/-- The clamped norms as the host operations compute them. -/
def host_nrmV : FVec Ideal S2048x16 .f32 :=
  maximumf (Host.sqrt (Host.dotGeneral (F := Ideal) hostD16 (some .fp32) (mulf X X) (mulf (mulf Wp Wp) (mulf Wp Wp))))
    (broadcastInDim S2048x16 ![] bcast_S_S2048x16 (constant (F := Ideal) S_ .f32 0x2B8CBCCC#32))

/-- The normalised vectors per label, head and coordinate, as the host operations compute them. -/
def host_znV : FVec Ideal S2048x16x300 .f32 :=
  Host.divf (F := Ideal)
    (mulf
      (broadcastInDim S2048x16x300 ![0, 1, 2] bcast_S2048x1x300_S2048x16x300_0_1_2
        (broadcastInDim S2048x1x300 ![0, 2] bcast_S2048x300_S2048x1x300_0_2 X))
      (broadcastInDim S2048x16x300 ![0, 1, 2] bcast_S1x16x300_S2048x16x300_0_1_2
        (broadcastInDim S1x16x300 ![1, 2] bcast_S16x300_S1x16x300_1_2 (mulf Wp Wp))))
    (broadcastInDim S2048x16x300 ![0, 1, 2] bcast_S2048x16x1_S2048x16x300_0_1_2
      (broadcastInDim S2048x16x1 ![0, 1] bcast_S2048x16_S2048x16x1_0_1 (host_nrmV X Wp)))

/-- The same on the flattened axis. -/
def host_zV : FVec Ideal S2048x4800 .f32 := shapeCast S2048x4800 (host_znV X Wp) shapeCasts_S2048x16x300_S2048x4800

theorem host_nrmV_apply (l : Fin 2048) (h : Fin 16) : host_nrmV X Wp (ix2 l h) = Cert.Spec.nrmK X Wp l h := by
  unfold host_nrmV Cert.Spec.nrmK
  rw [maximumf_apply]
  have h1 : (Host.sqrt (Host.dotGeneral (F := Ideal) hostD16 (some .fp32) (mulf X X) (mulf (mulf Wp Wp) (mulf Wp Wp))) : FVec Ideal S2048x16 .f32) (ix2 l h)
      = Ideal.sqrt (∑ e : Fin 300, (X (ix2 l e) * X (ix2 l e)) * (Cert.Spec.w2 Wp h e * Cert.Spec.w2 Wp h e)) := by
    show Ideal.sqrt ((Host.dotGeneral (F := Ideal) hostD16 (some .fp32) (mulf X X) (mulf (mulf Wp Wp) (mulf Wp Wp))) (ix2 l h)) = _
    rw [host_dot16_apply]
    rfl
  have h2 : (broadcastInDim S2048x16 ![] bcast_S_S2048x16 (constant (F := Ideal) S_ .f32 0x2B8CBCCC#32) : FVec Ideal S2048x16 .f32) (ix2 l h) = Cert.Spec.eps := rfl
  rw [h1, h2]

theorem host_znV_apply (l : Fin 2048) (h : Fin 16) (e : Fin 300) :
    host_znV X Wp (ix3 l h e) = Ideal.div (Cert.Spec.hraw X Wp l h e) (Cert.Spec.nrmK X Wp l h) := by
  have hx : (broadcastInDim S2048x16x300 ![0, 1, 2] bcast_S2048x1x300_S2048x16x300_0_1_2
        (broadcastInDim S2048x1x300 ![0, 2] bcast_S2048x300_S2048x1x300_0_2 X)) (ix3 l h e) = X (ix2 l e) := by
    rw [broadcastInDim_apply _ _ _ (ix3 l h e) (ix3 l (0 : Fin 1) e) (fun a => by match a with | ⟨0, _⟩ => rfl | ⟨1, _⟩ => rfl | ⟨2, _⟩ => rfl)]
    rw [broadcastInDim_apply _ _ _ (ix3 l (0 : Fin 1) e) (ix2 l e) (fun a => by match a with | ⟨0, _⟩ => rfl | ⟨1, _⟩ => rfl)]
  have hw : (broadcastInDim S2048x16x300 ![0, 1, 2] bcast_S1x16x300_S2048x16x300_0_1_2
        (broadcastInDim S1x16x300 ![1, 2] bcast_S16x300_S1x16x300_1_2 (mulf Wp Wp))) (ix3 l h e) = Cert.Spec.w2 Wp h e := by
    rw [broadcastInDim_apply _ _ _ (ix3 l h e) (ix3 (0 : Fin 1) h e) (fun a => by match a with | ⟨0, _⟩ => rfl | ⟨1, _⟩ => rfl | ⟨2, _⟩ => rfl)]
    rw [broadcastInDim_apply _ _ _ (ix3 (0 : Fin 1) h e) (ix2 h e) (fun a => by match a with | ⟨0, _⟩ => rfl | ⟨1, _⟩ => rfl)]
    rfl
  have hn : (broadcastInDim S2048x16x300 ![0, 1, 2] bcast_S2048x16x1_S2048x16x300_0_1_2
      (broadcastInDim S2048x16x1 ![0, 1] bcast_S2048x16_S2048x16x1_0_1 (host_nrmV X Wp))) (ix3 l h e) = Cert.Spec.nrmK X Wp l h := by
    rw [broadcastInDim_apply _ _ _ (ix3 l h e) (ix3 l h (0 : Fin 1)) (fun a => by match a with | ⟨0, _⟩ => rfl | ⟨1, _⟩ => rfl | ⟨2, _⟩ => rfl)]
    rw [broadcastInDim_apply _ _ _ (ix3 l h (0 : Fin 1)) (ix2 l h) (fun a => by match a with | ⟨0, _⟩ => rfl | ⟨1, _⟩ => rfl)]
    exact host_nrmV_apply X Wp l h
  unfold host_znV Cert.Spec.hraw
  show Ideal.div (_ * _) _ = _
  rw [hx, hw, hn]

theorem host_zV_apply (l : Fin 2048) (k : Fin 4800) : host_zV X Wp (ix2 l k) = Cert.Spec.zK X Wp l k := by
  unfold host_zV Cert.Spec.zK
  rw [shapeCast_apply (host_znV X Wp) shapeCasts_S2048x16x300_S2048x4800 (ix2 l k) (ix3 l (Cert.Spec.headOf k) (Cert.Spec.coordOf k)) (by
    rw [Shape.rowMajor_val_three, Shape.rowMajor_val_two]
    show (l.val * 16 + k.val / 300) * 300 + k.val % 300 = l.val * 4800 + k.val
    omega)]
  exact host_znV_apply X Wp l _ _

/-- The same at an index of the flattened array. -/
theorem host_zV_apply' (y : S2048x4800.Idx) : host_zV X Wp y = Cert.Spec.zK X Wp (y 0) (y 1) :=
  (congrArg (host_zV X Wp) (eq_ix2 y)).trans (host_zV_apply X Wp (y 0) (y 1))

end Norm

theorem host0_v16 : StableHlo.after hostOps0 W (Proc.devRef .tc main_v16) = fun y => Cert.Spec.zK (W (Proc.devRef .tc main_arg1)) (W (Proc.devRef .tc main_arg2)) (y 0) (y 1) := by
  have e : StableHlo.after hostOps0 W (Proc.devRef .tc main_v16)
      = (truncf .bf16 (host_zV (W (Proc.devRef .tc main_arg1)) (W (Proc.devRef .tc main_arg2))) bitsLt_bf16_f32 : FVec Ideal S2048x4800 .bf16) := by
    after_results
    first | done | rfl
  rw [e]
  funext y
  rw [truncf_apply]
  exact host_zV_apply' _ _ y

theorem host0_v19 : StableHlo.after hostOps0 W (Proc.devRef .tc main_v19) = fun y => Cert.Spec.loK (W (Proc.devRef .tc main_arg1)) (W (Proc.devRef .tc main_arg2)) (y 0) (y 1) := by
  have e : StableHlo.after hostOps0 W (Proc.devRef .tc main_v19)
      = (truncf .bf16 (subf (host_zV (W (Proc.devRef .tc main_arg1)) (W (Proc.devRef .tc main_arg2)))
          (extf .f32 (truncf .bf16 (host_zV (W (Proc.devRef .tc main_arg1)) (W (Proc.devRef .tc main_arg2))) bitsLt_bf16_f32 : FVec Ideal S2048x4800 .bf16) bitsLt_bf16_f32 : FVec Ideal S2048x4800 .f32)) bitsLt_bf16_f32 : FVec Ideal S2048x4800 .bf16) := by
    after_results
    first | done | rfl
  rw [e]
  funext y
  rw [truncf_apply, subf_apply, extf_apply, truncf_apply, host_zV_apply']
  rfl

end Cert.KernelIdeal.Val

end
-- ==== Proof.Bridge.lean ====
/-
  The kernel's value, stage by stage. The main function is a fold: a host stretch normalises and flattens the embedding
  and takes its remainder; the first region forms the compensated Gram matrix of the two by 256 × 256 tiles; a host
  stretch multiplies the label embedding by the first weight matrix; the second region turns each block of 256 score
  rows into softmax rows and propagates the features through them; a host stretch multiplies by the second weight
  matrix; the third region propagates once more. Each region's arrays end at a whole-matrix function of what the region
  found, each host stretch's results are functions of what it found, and a buffer nobody writes in between is carried
  along unchanged: composing them gives the layer's result on the scores spelt on the flattened axis.
-/
import proofs.«413271_j32796370272774_3_alg».proof.Proof.FrI.Fold
import proofs.«413271_j32796370272774_3_alg».proof.Proof.SpecK
import proofs.«413271_j32796370272774_3_alg».proof.Proof.Val.K0
import proofs.«413271_j32796370272774_3_alg».proof.Proof.Val.K1
import proofs.«413271_j32796370272774_3_alg».proof.Proof.Val.K2
import proofs.«413271_j32796370272774_3_alg».proof.Proof.Val.Host
import Idealize.ShloMosaic.Lib.StableHlo.Run
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The scores as the second region finds them: the first region's result, untouched by the host stretch between, is the
    compensated Gram matrix of the flattened normalised vectors and their remainder, which the first host stretch computes
    from the two embedding arguments. -/
theorem scores_at_entry1 :
    (V3 m ρ c main_v20 : S2048x2048.Idx → EReal)
      = fun y => Cert.Spec.scoresK (m ((c : Thread nD τ).loc main_arg1)) (m ((c : Thread nD τ).loc main_arg2)) (y 0) (y 1) := by
  have h1 : W3 m ρ c (Proc.devRef .tc main_v20) = W2 m ρ c (Proc.devRef .tc main_v20) :=
    StableHlo.after_of_writes_sub hostOps1 _ hostOps1_writes (by decide)
  have e16 : V1 m ρ c main_v16 = _ := host0_v16 (W0 m ρ c)
  have e19 : V1 m ρ c main_v19 = _ := host0_v19 (W0 m ρ c)
  show W3 m ρ c (Proc.devRef .tc main_v20) = _
  rw [h1, W2_v20, gram_final (V1 m ρ) c, e16, e19]
  rfl

/-- The first feature product as the second region finds it. -/
theorem feat_at_entry1 :
    (V3 m ρ c main_v24 : S2048x512.Idx → EReal)
      = fun y => Cert.Spec.feat (m ((c : Thread nD τ).loc main_arg0)) (m ((c : Thread nD τ).loc main_arg3)) (y 0) (y 1) := by
  have a0 : W2 m ρ c (Proc.devRef .tc main_arg0) = m ((c : Thread nD τ).loc main_arg0) :=
    (W2_of_ne m ρ c main_arg0 (by decide)).trans (StableHlo.after_of_writes_sub hostOps0 _ hostOps0_writes (by decide))
  have a3 : W2 m ρ c (Proc.devRef .tc main_arg3) = m ((c : Thread nD τ).loc main_arg3) :=
    (W2_of_ne m ρ c main_arg3 (by decide)).trans (StableHlo.after_of_writes_sub hostOps0 _ hostOps0_writes (by decide))
  show W3 m ρ c (Proc.devRef .tc main_v24) = _
  rw [show W3 m ρ c (Proc.devRef .tc main_v24) = _ from host1_v24 (W2 m ρ c), a0, a3]

/-- The second weight matrix as the third host stretch finds it: the launch memory's. -/
theorem arg4_at_W4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- The scores, named. -/
abbrev SK : Fin 2048 → Fin 2048 → EReal :=
  Cert.Spec.scoresK (m ((c : Thread nD τ).loc main_arg1)) (m ((c : Thread nD τ).loc main_arg2))

/-- The row-stochastic matrix as the third region finds it: the second region's first result. -/
theorem adj_at_entry2 :
    (V5 m ρ c main_v25_0 : S2048x2048.Idx → EReal) = fun y => Cert.Spec.adj (SK m c) (y 0) (y 1) := by
  have h1 : W5 m ρ c (Proc.devRef .tc main_v25_0) = W4 m ρ c (Proc.devRef .tc main_v25_0) :=
    StableHlo.after_of_writes_sub hostOps2 _ hostOps2_writes (by decide)
  show W5 m ρ c (Proc.devRef .tc main_v25_0) = _
  rw [h1, show W4 m ρ c (Proc.devRef .tc main_v25_0) = _ from W4_arr m ρ c 2, adj_final (V3 m ρ) c, scores_at_entry1 m ρ c]
  rfl

/-- The first round's result as the third host stretch finds it: the second region's second result. -/
theorem x0_at_W4 :
    (W4 m ρ c (Proc.devRef .tc main_v25_1) : S2048x512.Idx → EReal)
      = fun y => Cert.Spec.prop (Cert.Spec.adj (SK m c))
          (fun v => Cert.Spec.feat (m ((c : Thread nD τ).loc main_arg0)) (m ((c : Thread nD τ).loc main_arg3)) (v 0) (v 1)) (y 0) (y 1) := by
  rw [show W4 m ρ c (Proc.devRef .tc main_v25_1) = _ from W4_arr m ρ c 3, x0_final (V3 m ρ) c, scores_at_entry1 m ρ c, feat_at_entry1 m ρ c]
  rfl

/-- The second feature product as the third region finds it. -/
theorem feat_at_entry2 :
    (V5 m ρ c main_v28 : S2048x512.Idx → EReal)
      = fun y => Cert.Spec.feat (fun u => Cert.Spec.prop (Cert.Spec.adj (SK m c))
          (fun v => Cert.Spec.feat (m ((c : Thread nD τ).loc main_arg0)) (m ((c : Thread nD τ).loc main_arg3)) (v 0) (v 1)) (u 0) (u 1))
          (m ((c : Thread nD τ).loc main_arg4)) (y 0) (y 1) := by
  show W5 m ρ c (Proc.devRef .tc main_v28) = _
  rw [show W5 m ρ c (Proc.devRef .tc main_v28) = _ from host2_v28 (W4 m ρ c), x0_at_W4 m ρ c, arg4_at_W4 m ρ c]
  rfl

/-- THE KERNEL'S VALUE: the result array at the end of the fold is the layer's result on the scores spelt on the
    flattened axis. -/
theorem kernel_value :
    (W6 m ρ c (Proc.devRef .tc main_v29) : S2048x512.Idx → EReal)
      = Cert.Spec.result (SK m c) (m ((c : Thread nD τ).loc main_arg0)) (m ((c : Thread nD τ).loc main_arg3)) (m ((c : Thread nD τ).loc main_arg4)) := by
  rw [show W6 m ρ c (Proc.devRef .tc main_v29) = _ from W6_arr m ρ c 2, out_final (V5 m ρ) c, adj_at_entry2 m ρ c, feat_at_entry2 m ρ c]
  funext y
  rw [Cert.Spec.result_eq]
  rfl

end Cert.KernelIdeal.Val

end
-- ==== Proof.Algebra.lean ====
/-
  The two spellings of the scores agree on real-valued inputs.

  With real label vectors and real head weights every quantity in either spelling is a real number: the scaled vector is a
  product of reals; the sum of squares under the root is a nonnegative real, so its root is real; the clamping constant
  is a positive real, so the clamped norm is a positive real; and a real divided by a nonzero real is real. Over the reals
  the two spellings differ only by rearrangements. The norms agree because (x·x)·(v·v) = (x·v)·(x·v). The remainder
  z − z of a real is 0, so both cross sums vanish. The sum over the 4800 flattened columns is the double sum over the
  16 heads and 300 coordinates, by the bijection k ↦ (k / 300, k % 300). And multiplying by one sixteenth is dividing by
  sixteen.
-/
import proofs.«413271_j32796370272774_3_alg».proof.Proof.Spec
import proofs.«413271_j32796370272774_3_alg».proof.Proof.LibEReal
import Idealize.ShloMosaic.PureOps.Ideal
import Idealize.ShloMosaic.PureOps.Ideal.Laws
import Mathlib.Data.Fintype.BigOperators
import Mathlib.Data.EReal.Operations
import Mathlib.Analysis.SpecialFunctions.Pow.Real

noncomputable section

open scoped BigOperators

namespace Cert.Algebra

open Idealize.ShloMosaic Idealize.ShloMosaic.ValueIdx Cert.Spec

/-! ## The three float constants as real numbers -/

/-- The clamping constant is a positive real number (the pattern's sign bit is clear, its exponent field is 87 and its
    fraction field 834764: the number (2²³ + 834764) · 2⁻⁶³). -/
theorem eps_pos : ∃ r : ℝ, 0 < r ∧ Spec.eps = ((r : ℝ) : EReal) := by
  refine ⟨9223372 * (2 ^ 63)⁻¹, by positivity, ?_⟩
  simp [Spec.eps, Ideal.ofBits, Ideal.ieee]

/-- The pattern `0x3D800000` is one sixteenth: exponent field 123, fraction field zero, 2²³ · 2⁻²⁷. -/
theorem c16th_eq : Spec.c16th = ((1 / 16 : ℝ) : EReal) := by
  simp [Spec.c16th, Ideal.ofBits, Ideal.ieee]
  rw [← EReal.coe_mul, EReal.coe_eq_coe_iff]
  norm_num

/-- The pattern `0x41800000` is sixteen: exponent field 131, fraction field zero, 2²³ · 2⁻¹⁹. -/
theorem c16_eq : Spec.c16 = ((16 : ℝ) : EReal) := by
  simp [Spec.c16, Ideal.ofBits, Ideal.ieee]
  rw [← EReal.coe_mul, EReal.coe_eq_coe_iff]
  norm_num

/-! ## The flattened axis is the product of heads and coordinates -/

/-- Head `h` and coordinate `e` sit at column `e + 300 · h`; column `k` is head `k / 300`, coordinate `k % 300`. -/
def flatEquiv : Fin 16 × Fin 300 ≃ Fin 4800 where
  toFun p := ⟨p.2.val + 300 * p.1.val, by have := p.1.isLt; have := p.2.isLt; omega⟩
  invFun k := (headOf k, coordOf k)
  left_inv p := by
    rcases p with ⟨⟨h, hh⟩, ⟨e, he⟩⟩
    simp only [headOf, coordOf, Prod.mk.injEq, Fin.mk.injEq]
    constructor <;> omega
  right_inv k := by
    rcases k with ⟨k, hk⟩
    simp only [headOf, coordOf, Fin.mk.injEq]
    omega

/-- A sum over the flattened columns of a quantity that depends on the column through its head and coordinate is the
    double sum over heads and coordinates. -/
theorem sum_flat {M : Type} [AddCommMonoid M] (f : Fin 16 → Fin 300 → M) :
    ∑ k : Fin 4800, f (headOf k) (coordOf k) = ∑ h : Fin 16, ∑ e : Fin 300, f h e := by
  -- the double sum is the sum over pairs, and the pairs are in bijection with the columns
  rw [← Fintype.sum_prod_type' f]
  exact Fintype.sum_equiv flatEquiv.symm _ _ (fun _ => rfl)

/-! ## The real-number versions of the definitions -/

section Real

variable (x : (⟨2, ![2048, 300]⟩ : Shape).Idx → ℝ) (w : (⟨2, ![16, 300]⟩ : Shape).Idx → ℝ) (ε : ℝ)

/-- The squared head weight, as a real number. -/
def w2r (h : Fin 16) (e : Fin 300) : ℝ := w (ix2 h e) * w (ix2 h e)
/-- The scaled vector, as a real number. -/
def hrawr (l : Fin 2048) (h : Fin 16) (e : Fin 300) : ℝ := x (ix2 l e) * w2r w h e
/-- The clamped norm, as a real number. -/
def nrmr (l : Fin 2048) (h : Fin 16) : ℝ :=
  max (Real.sqrt (∑ e : Fin 300, hrawr x w l h e * hrawr x w l h e)) ε
/-- The normalised vector, as a real number. -/
def zr (l : Fin 2048) (h : Fin 16) (e : Fin 300) : ℝ := hrawr x w l h e / nrmr x w ε l h

/-- The clamped norm is at least the clamping constant, so it is not zero when the constant is positive. -/
theorem nrmr_ne_zero (hε : 0 < ε) (l : Fin 2048) (h : Fin 16) : nrmr x w ε l h ≠ 0 :=
  (lt_of_lt_of_le hε (le_max_right _ _)).ne'

end Real

/-! ## Every quantity of the two spellings is the real one -/

section Coe

variable {X : Arr2 2048 300} {Wp : Arr2 16 300}
  {x : (⟨2, ![2048, 300]⟩ : Shape).Idx → ℝ} {w : (⟨2, ![16, 300]⟩ : Shape).Idx → ℝ} {ε : ℝ}
  (hx : ∀ y, X y = ((x y : ℝ) : EReal)) (hw : ∀ y, Wp y = ((w y : ℝ) : EReal))
  (hε : 0 < ε) (heps : Spec.eps = ((ε : ℝ) : EReal))

include hw in
/-- The squared weight is real. -/
theorem w2_coe (h : Fin 16) (e : Fin 300) : Spec.w2 Wp h e = ((w2r w h e : ℝ) : EReal) := by
  rw [Spec.w2, hw, ← EReal.coe_mul]; rfl

include hx hw in
/-- The scaled vector is real. -/
theorem hraw_coe (l : Fin 2048) (h : Fin 16) (e : Fin 300) :
    Spec.hraw X Wp l h e = ((hrawr x w l h e : ℝ) : EReal) := by
  rw [Spec.hraw, hx, w2_coe hw, ← EReal.coe_mul]; rfl

/-- A sum of squares of reals is not negative. -/
theorem sum_sq_nonneg (x : (⟨2, ![2048, 300]⟩ : Shape).Idx → ℝ) (w : (⟨2, ![16, 300]⟩ : Shape).Idx → ℝ)
    (l : Fin 2048) (h : Fin 16) : 0 ≤ ∑ e : Fin 300, hrawr x w l h e * hrawr x w l h e :=
  Finset.sum_nonneg (fun e _ => mul_self_nonneg _)

include hx hw heps in
/-- The norm taken from the squares of the scaled vector is the real clamped norm. -/
theorem nrmR_coe (l : Fin 2048) (h : Fin 16) : Spec.nrmR X Wp l h = ((nrmr x w ε l h : ℝ) : EReal) := by
  have hterm : ∀ e : Fin 300, Spec.hraw X Wp l h e * Spec.hraw X Wp l h e
      = ((hrawr x w l h e * hrawr x w l h e : ℝ) : EReal) := by
    intro e; rw [hraw_coe hx hw, ← EReal.coe_mul]
  rw [Spec.nrmR, Finset.sum_congr rfl (fun e _ => hterm e), LibEReal.coe_sum,
    LibEReal.sqrt_coe (sum_sq_nonneg x w l h), heps, LibEReal.max_coe]
  rfl

include hx hw heps in
/-- The norm taken from the squares of the vector against the squares of the scales is the same real clamped norm:
    (x·x)·(v·v) = (x·v)·(x·v). -/
theorem nrmK_coe (l : Fin 2048) (h : Fin 16) : Spec.nrmK X Wp l h = ((nrmr x w ε l h : ℝ) : EReal) := by
  have hterm : ∀ e : Fin 300,
      (X (ix2 l e) * X (ix2 l e)) * (Spec.w2 Wp h e * Spec.w2 Wp h e)
        = ((hrawr x w l h e * hrawr x w l h e : ℝ) : EReal) := by
    intro e
    rw [hx, w2_coe hw, ← EReal.coe_mul, ← EReal.coe_mul, ← EReal.coe_mul, EReal.coe_eq_coe_iff]
    unfold hrawr
    ring
  rw [Spec.nrmK, Finset.sum_congr rfl (fun e _ => hterm e), LibEReal.coe_sum,
    LibEReal.sqrt_coe (sum_sq_nonneg x w l h), heps, LibEReal.max_coe]
  rfl

include hx hw hε heps in
/-- The normalised vector per head and coordinate is real. -/
theorem hnR_coe (l : Fin 2048) (h : Fin 16) (e : Fin 300) :
    Spec.hnR X Wp l h e = ((zr x w ε l h e : ℝ) : EReal) := by
  rw [Spec.hnR, hraw_coe hx hw, nrmR_coe hx hw heps, LibEReal.div_coe_coe _ (nrmr_ne_zero x w ε hε l h)]
  rfl

include hx hw hε heps in
/-- The normalised vector on the flattened axis is the same real number, read at the column's head and coordinate. -/
theorem zK_coe (l : Fin 2048) (k : Fin 4800) :
    Spec.zK X Wp l k = ((zr x w ε l (headOf k) (coordOf k) : ℝ) : EReal) := by
  rw [Spec.zK, hraw_coe hx hw, nrmK_coe hx hw heps, LibEReal.div_coe_coe _ (nrmr_ne_zero x w ε hε l _)]
  rfl

include hx hw hε heps in
/-- The remainder of a real number against itself is zero. -/
theorem loK_zero (l : Fin 2048) (k : Fin 4800) : Spec.loK X Wp l k = 0 := by
  rw [Spec.loK, zK_coe hx hw hε heps, ← EReal.coe_sub, sub_self, EReal.coe_zero]

end Coe

/-! ## The two spellings agree -/

/-- On real-valued inputs the flattened spelling of the scores equals the per-head spelling. -/
theorem scoresK_eq_scoresR (X : Cert.Spec.Arr2 2048 300) (Wp : Cert.Spec.Arr2 16 300)
    (hX : ∀ y, ∃ r : ℝ, X y = (r : EReal)) (hW : ∀ y, ∃ r : ℝ, Wp y = (r : EReal)) :
    Cert.Spec.scoresK X Wp = Cert.Spec.scoresR X Wp := by
  choose x hx using hX
  choose w hw using hW
  obtain ⟨ε, hε, heps⟩ := eps_pos
  funext i j
  -- the Gram term is a real number: the sum over the columns of products of reals
  have hgram : ∑ k : Fin 4800, Spec.zK X Wp i k * Spec.zK X Wp j k
      = ((∑ h : Fin 16, ∑ e : Fin 300, zr x w ε i h e * zr x w ε j h e : ℝ) : EReal) := by
    have hterm : ∀ k : Fin 4800, Spec.zK X Wp i k * Spec.zK X Wp j k
        = ((zr x w ε i (headOf k) (coordOf k) * zr x w ε j (headOf k) (coordOf k) : ℝ) : EReal) := by
      intro k; rw [zK_coe hx hw hε heps, zK_coe hx hw hε heps, ← EReal.coe_mul]
    rw [Finset.sum_congr rfl (fun k _ => hterm k), LibEReal.coe_sum,
      sum_flat (fun h e => zr x w ε i h e * zr x w ε j h e)]
  -- both cross terms are sums of products with zero
  have hcross1 : ∑ k : Fin 4800, Spec.zK X Wp i k * Spec.loK X Wp j k = 0 := by
    refine Finset.sum_eq_zero (fun k _ => ?_)
    rw [loK_zero hx hw hε heps, mul_zero]
  have hcross2 : ∑ k : Fin 4800, Spec.loK X Wp i k * Spec.zK X Wp j k = 0 := by
    refine Finset.sum_eq_zero (fun k _ => ?_)
    rw [loK_zero hx hw hε heps, zero_mul]
  -- the per-head double sum is the same real number
  have hdouble : ∑ h : Fin 16, ∑ e : Fin 300, Spec.hnR X Wp i h e * Spec.hnR X Wp j h e
      = ((∑ h : Fin 16, ∑ e : Fin 300, zr x w ε i h e * zr x w ε j h e : ℝ) : EReal) := by
    have hterm : ∀ (h : Fin 16) (e : Fin 300), Spec.hnR X Wp i h e * Spec.hnR X Wp j h e
        = ((zr x w ε i h e * zr x w ε j h e : ℝ) : EReal) := by
      intro h e; rw [hnR_coe hx hw hε heps, hnR_coe hx hw hε heps, ← EReal.coe_mul]
    rw [Finset.sum_congr rfl (fun h _ => Finset.sum_congr rfl (fun e _ => hterm h e))]
    rw [Finset.sum_congr rfl (fun h _ => LibEReal.coe_sum Finset.univ (fun e => zr x w ε i h e * zr x w ε j h e)),
      LibEReal.coe_sum]
  -- times one sixteenth is divided by sixteen
  rw [Spec.scoresK, Spec.scoresR, hgram, hcross1, hcross2, hdouble, add_zero, add_zero, c16th_eq, c16_eq,
    LibEReal.div_coe_coe _ (by norm_num : (16 : ℝ) ≠ 0), ← EReal.coe_mul, EReal.coe_eq_coe_iff]
  ring

end Cert.Algebra

end
-- ==== Proof.Finite.lean ====
/-
  Finiteness of the inputs, read off the stated precondition.

  The precondition is the conjunction, over the five inputs, of "every entry has absolute value strictly below +∞".
  Among the extended reals the absolute value of x is the larger of x and −x; it is +∞ exactly at the two infinities,
  so an entry whose absolute value lies strictly below +∞ is a real number. The conjunction that comes out as 1 had a 1
  in each of its five conjuncts; each conjunct is a conjunction over all entries of one array, so it had a 1 at every
  entry; and a 1 at an entry says that entry's absolute value is below +∞. Only the label embedding (2048 × 300) and the
  head weights (16 × 300) are needed later, so only those two arrays are stated.
-/
import proofs.«413271_j32796370272774_3_alg».proof.Pre_finite_inputs
import Idealize.ShloMosaic.PureOps.Ideal
import Idealize.ShloMosaic.Lib.ValueIdx
import Idealize.ShloMosaic.Lib.ReduceAll

noncomputable section

namespace Cert.Finite

open Idealize.ShloMosaic
open Cert.Pre_finite_inputs

/-- The shape with no axes has exactly one index: the empty tuple. -/
instance : Subsingleton S_.Idx := ⟨fun a b => funext fun d => d.elim0⟩

/-- An extended real whose absolute value, the larger of x and −x, is strictly below +∞ is a real number: at +∞ the
    larger is x itself, at −∞ it is −x, and both are +∞. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison "|x| < the value whose bit pattern is that of +∞" comes out 1, then x is real. The
    pattern 0x7F800000 (sign 0, all exponent bits set, fraction 0) is +∞, and the comparison is 1 exactly when the strict
    inequality holds. -/
theorem real_of_cmp (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  by_cases hlt : max (x : EReal) (-(x : EReal)) < ⊤
  · exact real_of_abs_lt_top x hlt
  · exfalso
    simp [hlt] at h

/-- One array: if the conjunction over all entries of "|a y| < +∞" is 1, every entry of `a` is real. The conjunction
    over all axes has a single result, so every entry of the compared array feeds it. -/
theorem real_of_all {S : Shape} {axes : List (Fin S.rank)} (a : FVec Ideal S .f32)
    (dims : Fin S_.rank → Fin S.rank) (hb : S_.BroadcastsInDim S dims)
    (hr : S.ReducesTo axes S_) (hu : 0 < S_.numel)
    (e : Host.reduce IntOp.andi
          (cmpf CmpFPredicate.olt (Host.absf a)
            (broadcastInDim S dims hb (constant (F := Ideal) S_ FTy.f32 0x7F800000#32)))
          (constantI S_ 1 1#1) hr hu ValueIdx.ix0 = 1#1) (y : S.Idx) :
    ∃ r : ℝ, a y = (r : EReal) :=
  real_of_cmp (a y) (Host.reduce_andi_all _ _ hr hu _ e y)

/-- Under the stated precondition every entry of the label embedding and of the head weights is a real number. The
    precondition is ((((c₀ ∧ c₁) ∧ c₂) ∧ c₃) ∧ c₄) with cₖ the conjunct of the k-th input; c₁ and c₂ are taken out. -/
theorem real_of_pre [Facts] (a0 : FVec Ideal S2048x512 .f32) (a1 : FVec Ideal S2048x300 .f32)
    (a2 : FVec Ideal S16x300 .f32) (a3 a4 : FVec Ideal S512x512 .f32)
    (h : fn (F := Ideal) a0 a1 a2 a3 a4 = fun _ => 1#1) :
    (∀ y, ∃ r : ℝ, a1 y = (r : EReal)) ∧ (∀ y, ∃ r : ℝ, a2 y = (r : EReal)) := by
  have h0 := congrFun h ValueIdx.ix0
  dsimp only [fn, fn_part1, andi] at h0
  obtain ⟨h0123, _⟩ := IntOp.andi_eq_one.1 h0
  obtain ⟨h012, _⟩ := IntOp.andi_eq_one.1 h0123
  obtain ⟨h01, e2⟩ := IntOp.andi_eq_one.1 h012
  obtain ⟨_, e1⟩ := IntOp.andi_eq_one.1 h01
  exact ⟨real_of_all a1 _ _ _ _ e1, real_of_all a2 _ _ _ _ e2⟩

end Cert.Finite
-- ==== Proof.RefValue.lean ====
/-
  The reference program's result, read one stage at a time, is the specification's `result` over `scoresR`.

  Each lemma reads one intermediate array of the reference at explicit coordinates: the per-head scaled vector, its
  squared norm, the clamped norm, the normalised vector (the reference's axes are head, label, coordinate), the
  per-head Gram matrix, the scores, the thresholded scores, the row maximum, the softmax numerator, denominator and
  quotient, and the two rounds of matrix product and clipping.
-/
import proofs.«413271_j32796370272774_3_alg».proof.Proof.Gen.ReferenceIdeal.Read
import proofs.«413271_j32796370272774_3_alg».proof.Proof.Spec
import proofs.«413271_j32796370272774_3_alg».proof.Proof.LibEReal
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx

/-- Two rank-1 indices with the same coordinate are equal. -/
local macro "idx1_eq" : tactic =>
  `(tactic| (funext a; match a with | ⟨0, _⟩ => rfl))
/-- Two rank-2 indices with the same coordinates are equal. -/
local macro "idx2_eq" : tactic =>
  `(tactic| (funext a; match a with | ⟨0, _⟩ => rfl | ⟨1, _⟩ => rfl))
/-- Two rank-3 indices with the same coordinates are equal. -/
local macro "idx3_eq" : tactic =>
  `(tactic| (funext a; match a with | ⟨0, _⟩ => rfl | ⟨1, _⟩ => rfl | ⟨2, _⟩ => rfl))

section Scores

variable (X : (⟨S2048x300, .f32⟩ : BufTy).Contents (Elt Ideal)) (Wp : (⟨S16x300, .f32⟩ : BufTy).Contents (Elt Ideal))

/-- The squared head weights. -/
theorem v0_at (h : Fin 16) (e : Fin 300) : val_main_v0 (F := Ideal) Wp (ix2 h e) = Spec.w2 Wp h e := by
  rw [val_main_v0_apply]; rfl

/-- The scaled vector: the label's coordinate times the head's squared weight, the head on the leading axis. -/
theorem v5_at (h : Fin 16) (l : Fin 2048) (e : Fin 300) :
    val_main_v5 (F := Ideal) X Wp (ix3 h l e) = Spec.hraw X Wp l h e := by
  rw [val_main_v5_apply, val_main_v3_apply, val_main_v1_apply, val_main_v4_apply, val_main_v2_apply,
    show idx_main_v1 (idx_main_v3 (ix3 h l e)) = ix2 l e from by idx2_eq,
    show idx_main_v2 (idx_main_v4 (ix3 h l e)) = ix2 h e from by idx2_eq, v0_at]
  rfl

/-- The sum of squares of the scaled vector (the float sum starts from the zero word). -/
theorem call0_v1_at (h : Fin 16) (l : Fin 2048) :
    val_main_call0_v1 (F := Ideal) X Wp (ix2 h l) = ∑ e : Fin 300, Spec.hraw X Wp l h e * Spec.hraw X Wp l h e := by
  rw [val_main_call0_v1_apply, val_main_call0_cst_apply, Ideal.ofBits_def, Ideal.ofBits_zero_f32, zero_add]
  refine Finset.sum_congr rfl fun k _ => ?_
  rw [show idx_main_call0_v1 (ix2 h l) k = ix3 h l k from by idx3_eq, val_main_call0_v0_apply, v5_at]
  rfl

/-- The clamped norm: the larger of the root of the sum of squares and the small constant. -/
theorem v8_at (h : Fin 16) (l : Fin 2048) (z : Fin 1) :
    val_main_v8 (F := Ideal) X Wp (ix3 h l z) = Spec.nrmR X Wp l h := by
  rw [val_main_v8_apply, val_main_v6_apply, val_main_call0_v2_apply, val_main_v7_apply, val_main_cst_apply,
    show idx_main_call0_v2 (ix3 h l z) = ix2 h l from by idx2_eq, call0_v1_at]
  rfl

/-- The normalised vector. -/
theorem v10_at (h : Fin 16) (l : Fin 2048) (e : Fin 300) :
    val_main_v10 (F := Ideal) X Wp (ix3 h l e) = Spec.hnR X Wp l h e := by
  rw [val_main_v10_apply, val_main_v9_apply,
    show idx_main_v9 (ix3 h l e) = ix3 h l (0 : Fin 1) from by idx3_eq, v8_at, v5_at]
  rfl

/-- One head's inner product of two labels' normalised vectors. -/
theorem v11_at (h : Fin 16) (i j : Fin 2048) :
    val_main_v11 (F := Ideal) X Wp (ix3 h i j) = ∑ e : Fin 300, Spec.hnR X Wp i h e * Spec.hnR X Wp j h e := by
  rw [val_main_v11_apply]
  refine Finset.sum_congr rfl fun k _ => ?_
  rw [show lidx_main_v11 (ix3 h i j) k = ix3 h i k from by idx3_eq,
    show ridx_main_v11 (ix3 h i j) k = ix3 h j k from by idx3_eq, v10_at, v10_at]

/-- The sum over the heads (the float sum starts from the zero word). -/
theorem v12_at (i j : Fin 2048) :
    val_main_v12 (F := Ideal) X Wp (ix2 i j)
      = ∑ h : Fin 16, ∑ e : Fin 300, Spec.hnR X Wp i h e * Spec.hnR X Wp j h e := by
  rw [val_main_v12_apply, val_main_cst_0_apply, Ideal.ofBits_def, Ideal.ofBits_zero_f32, zero_add]
  refine Finset.sum_congr rfl fun k _ => ?_
  rw [show idx_main_v12 (ix2 i j) k = ix3 k i j from by idx3_eq, v11_at]

/-- The scores: the sum over the heads divided by sixteen. -/
theorem v14_at (i j : Fin 2048) : val_main_v14 (F := Ideal) X Wp (ix2 i j) = Spec.scoresR X Wp i j := by
  rw [val_main_v14_apply, v12_at, val_main_v13_apply, val_main_cst_1_apply]
  rfl

end Scores

section Tail

variable (X : (⟨S2048x300, .f32⟩ : BufTy).Contents (Elt Ideal)) (Wp : (⟨S16x300, .f32⟩ : BufTy).Contents (Elt Ideal))
  (E : (⟨S2048x512, .f32⟩ : BufTy).Contents (Elt Ideal)) (W0 W1 : (⟨S512x512, .f32⟩ : BufTy).Contents (Elt Ideal))

/-- The thresholded scores: a score at or above the threshold is kept, any other replaced by the large negative number. -/
theorem v17_at (i j : Fin 2048) :
    val_main_v17 (F := Ideal) X Wp (ix2 i j) = Spec.sel (Spec.scoresR X Wp) i j := by
  rw [val_main_v17_apply, val_main_v16_apply, v14_at, val_main_v15_apply, val_main_cst_2_apply,
    val_main_call1_v1_apply, val_main_call1_v0_apply, val_main_cst_3_apply]
  rfl

/-- A row index with column `k` put back on the dropped axis is (i, k). -/
theorem lift_row {n m : Nat} (h : (⟨2, ![n, m]⟩ : Shape).Reduces [1] (⟨1, ![n]⟩ : Shape)) (i : Fin n)
    (k : Fin ((⟨2, ![n, m]⟩ : Shape).size 1)) : h.lift (ix1 i) k = ix2 i (⟨k.val, k.isLt⟩ : Fin m) := by
  funext c; apply Fin.ext
  match c with
  | ⟨0, _⟩ => rfl
  | ⟨1, _⟩ => rfl

/-- The row maximum: a reduction with a maximum body over the columns is the fold of `max` along the row, and it
    starts from −∞. -/
theorem v18_at (i : Fin 2048) :
    val_main_v18 (F := Ideal) X Wp (ix1 i) = Spec.rowMax (Spec.scoresR X Wp) i := by
  have h : S2048x2048.Reduces [1] S2048 := by decide
  unfold val_main_v18
  rw [Host.reduce_eq_fold_single FloatOps.maximumf _ _ reducesTo_S2048x2048_S2048_d1 h h_S_, val_main_cst_4_apply,
    Ideal.ofBits_def, LibEReal.ofBits_neg_inf]
  have hf : (val_main_v17 (F := Ideal) X Wp ∘ h.lift (ix1 i))
      = fun j : Fin 2048 => Spec.sel (Spec.scoresR X Wp) i j := funext fun k => by
    show val_main_v17 (F := Ideal) X Wp (h.lift (ix1 i) k) = _
    rw [lift_row h i k, v17_at]
    rfl
  exact congrArg (fun f => Finset.fold max (⊥ : EReal) f (Finset.univ : Finset (Fin 2048))) hf

/-- The maximum of −∞ and the row maximum is the row maximum. -/
theorem v20_at (i : Fin 2048) :
    val_main_v20 (F := Ideal) X Wp (ix1 i) = Spec.rowMax (Spec.scoresR X Wp) i := by
  rw [val_main_v20_apply, val_main_v19_apply, val_main_cst_5_apply, v18_at, Ideal.ofBits_def,
    LibEReal.ofBits_neg_inf, Ideal.maximumf_def]
  exact max_eq_right bot_le

/-- The row maximum spread along its row. -/
theorem v22_at (i j : Fin 2048) :
    val_main_v22 (F := Ideal) X Wp (ix2 i j) = Spec.rowMax (Spec.scoresR X Wp) i := by
  rw [val_main_v22_apply, val_main_v21_apply,
    show idx_main_v21 (idx_main_v22 (ix2 i j)) = ix1 i from by idx1_eq, v20_at]

/-- The softmax numerator. -/
theorem v24_at (i j : Fin 2048) :
    val_main_v24 (F := Ideal) X Wp (ix2 i j) = Spec.pexp (Spec.scoresR X Wp) i j := by
  rw [val_main_v24_apply, val_main_v23_apply, v17_at, v22_at]
  rfl

/-- The softmax denominator (the float sum starts from the zero word). -/
theorem v25_at (i : Fin 2048) :
    val_main_v25 (F := Ideal) X Wp (ix1 i) = Spec.den (Spec.scoresR X Wp) i := by
  rw [val_main_v25_apply, val_main_cst_6_apply, Ideal.ofBits_def, Ideal.ofBits_zero_f32, zero_add]
  unfold Spec.den
  refine Finset.sum_congr rfl fun k _ => ?_
  rw [show idx_main_v25 (ix1 i) k = ix2 i k from by idx2_eq, v24_at]

/-- The row-stochastic matrix. -/
theorem v28_at (i j : Fin 2048) :
    val_main_v28 (F := Ideal) X Wp (ix2 i j) = Spec.adj (Spec.scoresR X Wp) i j := by
  rw [val_main_v28_apply, val_main_v27_apply, val_main_v26_apply,
    show idx_main_v26 (idx_main_v27 (ix2 i j)) = ix1 i from by idx1_eq, v24_at, v25_at]
  rfl

/-- The label embedding times the first weight matrix. -/
theorem v29_at (i : Fin 2048) (n : Fin 512) :
    val_main_v29 (F := Ideal) E W0 (ix2 i n) = Spec.h0 E W0 i n := by
  rw [val_main_v29_apply]
  unfold Spec.h0
  refine Finset.sum_congr rfl fun k _ => ?_
  rw [show lidx_main_v29 (ix2 i n) k = ix2 i k from by idx2_eq,
    show ridx_main_v29 (ix2 i n) k = ix2 k n from by idx2_eq]

/-- The first round before clipping. -/
theorem v30_at (i : Fin 2048) (n : Fin 512) :
    val_main_v30 (F := Ideal) E X Wp W0 (ix2 i n)
      = ∑ j : Fin 2048, Spec.adj (Spec.scoresR X Wp) i j * Spec.h0 E W0 j n := by
  rw [val_main_v30_apply]
  refine Finset.sum_congr rfl fun k _ => ?_
  rw [show lidx_main_v30 (ix2 i n) k = ix2 i k from by idx2_eq,
    show ridx_main_v30 (ix2 i n) k = ix2 k n from by idx2_eq, v28_at, v29_at]

/-- The first round: clipping at zero is the maximum with the zero word. -/
theorem v31_at (i : Fin 2048) (n : Fin 512) :
    val_main_v31 (F := Ideal) E X Wp W0 (ix2 i n) = Spec.x0 (Spec.scoresR X Wp) E W0 i n := by
  rw [val_main_v31_apply, v30_at, val_main_call2_v0_apply, val_main_call2_cst_apply, Ideal.ofBits_def,
    Ideal.ofBits_zero_f32]
  rfl

/-- The first round times the second weight matrix. -/
theorem v32_at (i : Fin 2048) (n : Fin 512) :
    val_main_v32 (F := Ideal) E X Wp W0 W1 (ix2 i n) = Spec.h1 (Spec.scoresR X Wp) E W0 W1 i n := by
  rw [val_main_v32_apply]
  unfold Spec.h1
  refine Finset.sum_congr rfl fun k _ => ?_
  rw [show lidx_main_v32 (ix2 i n) k = ix2 i k from by idx2_eq,
    show ridx_main_v32 (ix2 i n) k = ix2 k n from by idx2_eq, v31_at]

/-- The second round before clipping. -/
theorem v33_at (i : Fin 2048) (n : Fin 512) :
    val_main_v33 (F := Ideal) E X Wp W0 W1 (ix2 i n)
      = ∑ j : Fin 2048, Spec.adj (Spec.scoresR X Wp) i j * Spec.h1 (Spec.scoresR X Wp) E W0 W1 j n := by
  rw [val_main_v33_apply]
  refine Finset.sum_congr rfl fun k _ => ?_
  rw [show lidx_main_v33 (ix2 i n) k = ix2 i k from by idx2_eq,
    show ridx_main_v33 (ix2 i n) k = ix2 k n from by idx2_eq, v28_at, v32_at]

/-- The second round. -/
theorem v34_at (i : Fin 2048) (n : Fin 512) :
    val_main_v34 (F := Ideal) E X Wp W0 W1 (ix2 i n) = Spec.out (Spec.scoresR X Wp) E W0 W1 i n := by
  rw [val_main_v34_apply, v33_at, val_main_call3_v0_apply, val_main_call3_cst_apply, Ideal.ofBits_def,
    Ideal.ofBits_zero_f32]
  rfl

end Tail

/-- The reference program's result is the specification's result over the per-head scores. -/
theorem res_eq (m : (ℓ : Loc nD τ sig) → Buf (Elt Ideal) ℓ) (c : Dev nD) :
    Cert.ReferenceIdeal.Value.res_out0 (F := Ideal) m c
      = Spec.result (Spec.scoresR (m ((c.tc : Thread nD τ).loc main_arg1)) (m ((c.tc : Thread nD τ).loc main_arg2)))
          (m ((c.tc : Thread nD τ).loc main_arg0)) (m ((c.tc : Thread nD τ).loc main_arg3))
          (m ((c.tc : Thread nD τ).loc main_arg4)) := by
  refine (val_main_v34_eq m c).trans ?_
  funext y
  obtain ⟨a, b, rfl⟩ : ∃ a b, y = ix2 a b := ⟨y 0, y 1, eq_ix2 y⟩
  exact v34_at _ _ _ _ _ a b

end Cert.RefValue

end
-- ==== Proof.lean ====
/-
  The certificate of a two-layer graph-convolution block whose adjacency is learnt from a weighted cosine similarity.
  The kernel computes the similarity as one compensated Gram matrix over a flattened (head, coordinate) axis in a first
  tiled region, the thresholded row softmax and the first propagation in a second, and the second propagation in a
  third, with small host stretches before and between; the reference computes the same quantities head by head on the
  host. Over the extended reals, with every input finite, the two agree entry by entry: the remainder of the
  normalised embedding against itself vanishes, so the Gram matrix is the plain one; summing over the flattened axis
  is summing over heads and coordinates; multiplying by one sixteenth is dividing by sixteen; everything after the
  scores is the same function on both sides.

  The three frames: each kernel region's body runs to its end at every grid point leaving its input blocks in place
  and its result block at the body's one store, the regions and host stretches chain over the contents of the core's
  buffers, and no segment writes an argument. The first region hands each of its two operand arrays to two windows, so
  it holds each array as two halves and puts the halves back together at its exit. The reference has no kernel: its
  frame is its run with the result dropped. The kernel's idealisation rewrote nothing.
-/
import proofs.«413271_j32796370272774_3_alg».proof.Defs
import proofs.«413271_j32796370272774_3_alg».proof.Proof.Gen.Kernel
import proofs.«413271_j32796370272774_3_alg».proof.Proof.Gen.KernelIdeal
import proofs.«413271_j32796370272774_3_alg».proof.Proof.Gen.ReferenceIdeal
import proofs.«413271_j32796370272774_3_alg».proof.Proof.Gen.Pre_finite_inputs
import proofs.«413271_j32796370272774_3_alg».proof.Proof.Gen.ReferenceIdeal.Run
import proofs.«413271_j32796370272774_3_alg».proof.Proof.Gen.ReferenceIdeal.Read
import proofs.«413271_j32796370272774_3_alg».proof.Proof.FrB.Run
import proofs.«413271_j32796370272774_3_alg».proof.Proof.FrI.Run
import proofs.«413271_j32796370272774_3_alg».proof.Proof.Bridge
import proofs.«413271_j32796370272774_3_alg».proof.Proof.Algebra
import proofs.«413271_j32796370272774_3_alg».proof.Proof.Finite
import proofs.«413271_j32796370272774_3_alg».proof.Proof.RefValue
import Idealize.ShloMosaic.Adequacy
import Idealize.ShloMosaic.Init

noncomputable section

/-! ## The claims -/

namespace Cert.Proof.Claims

open Idealize.ShloMosaic Idealize.ShloMosaic.TcCoe Idealize.SL.Sem

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the five arguments, end with the layer's result on the scores spelt
    per head and coordinate: the kernel's fold of its three regions and host stretches ends at the result on the scores
    spelt on the flattened axis, the two spellings of the scores agree because the precondition makes the two embedding
    arguments real-valued, and the reference's composed term is the result read stage by stage. -/
theorem algebraic : Cert.algebraic_KernelIdeal_ReferenceIdeal := by
  intro m ρ m' ρ' hpre hagree
  -- the two embedding arguments are real-valued on every core
  have hreal : ∀ c : Dev Cert.KernelIdeal.nD,
      (∀ y, ∃ r : ℝ, m ((c.tc : Thread Cert.KernelIdeal.nD Cert.KernelIdeal.τ).loc Cert.KernelIdeal.main_arg1) y = (r : EReal))
        ∧ (∀ y, ∃ r : ℝ, m ((c.tc : Thread Cert.KernelIdeal.nD Cert.KernelIdeal.τ).loc Cert.KernelIdeal.main_arg2) y = (r : EReal)) :=
    fun c => Cert.Finite.real_of_pre _ _ _ _ _ (hpre c)
  refine ⟨fun c => Cert.Spec.result
      (Cert.Spec.scoresR (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · -- the kernel: every unscoped buffer ends at the fold's last contents
    refine (θ_run Cert.KernelIdeal.defs _ _).mono (fun r h c => ?_) (Cert.KernelIdeal.Fr.run_all (F := Ideal) m ρ)
    refine ⟨?_, (h c _ (Cert.KernelIdeal.Fr.mem_uc Cert.KernelIdeal.main_arg0 (by decide))).trans (Cert.KernelIdeal.Fr.W6_main_arg0 m ρ c),
      (h c _ (Cert.KernelIdeal.Fr.mem_uc Cert.KernelIdeal.main_arg1 (by decide))).trans (Cert.KernelIdeal.Fr.W6_main_arg1 m ρ c),
      (h c _ (Cert.KernelIdeal.Fr.mem_uc Cert.KernelIdeal.main_arg2 (by decide))).trans (Cert.KernelIdeal.Fr.W6_main_arg2 m ρ c),
      (h c _ (Cert.KernelIdeal.Fr.mem_uc Cert.KernelIdeal.main_arg3 (by decide))).trans (Cert.KernelIdeal.Fr.W6_main_arg3 m ρ c),
      (h c _ (Cert.KernelIdeal.Fr.mem_uc Cert.KernelIdeal.main_arg4 (by decide))).trans (Cert.KernelIdeal.Fr.W6_main_arg4 m ρ c)⟩
    refine (h c _ (Cert.KernelIdeal.Fr.mem_uc Cert.KernelIdeal.main_v29 (by decide))).trans ?_
    refine (Cert.KernelIdeal.Val.kernel_value m ρ c).trans ?_
    show Cert.Spec.result (Cert.Spec.scoresK _ _) _ _ _ = _
    rw [Cert.Algebra.scoresK_eq_scoresR _ _ (hreal c).1 (hreal c).2]
  · -- the reference: its composed term, read stage by stage
    refine (θ_run Cert.ReferenceIdeal.defs _ _).mono (fun _ h c => ⟨(h c).1.trans ?_, (h c).2⟩)
      (Cert.ReferenceIdeal.Value.run (F := Ideal) m' ρ')
    refine (Cert.RefValue.res_eq m' c).trans ?_
    rw [(hagree c).1, (hagree c).2.1, (hagree c).2.2.1, (hagree c).2.2.2.1, (hagree c).2.2.2.2]

end Cert.Proof.Claims

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame m ρ,
    fun m ρ _ => Cert.KernelIdeal.Fr.frame m ρ,
    Cert.Proof.Claims.frame_ri,
    trivial,
    Cert.Proof.Claims.algebraic⟩

end Cert.Proof

end
